-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v326)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v326) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1536 : Shape := ⟨2, ![4096, 1536]⟩
abbrev S4096x576 : Shape := ⟨2, ![4096, 576]⟩
abbrev S4096x256 : Shape := ⟨2, ![4096, 256]⟩
abbrev S4096x96 : Shape := ⟨2, ![4096, 96]⟩
abbrev S4096x24 : Shape := ⟨2, ![4096, 24]⟩
abbrev S4096x8 : Shape := ⟨2, ![4096, 8]⟩
abbrev S393216 : Shape := ⟨1, ![393216]⟩
abbrev S98304 : Shape := ⟨1, ![98304]⟩
abbrev S32768 : Shape := ⟨1, ![32768]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096x1536 32) (main_arg1 : IVec S4096x576 32) (main_arg2 : IVec S4096x256 32) (main_arg3 : IVec S4096x96 32) (main_arg4 : IVec S4096x24 32) (main_arg5 : IVec S4096x8 32) (main_arg6 : IVec S4096x1536 32) (main_arg7 : IVec S4096x576 32) (main_arg8 : IVec S4096x256 32) (main_arg9 : IVec S393216 32) (main_arg10 : IVec S98304 32) (main_arg11 : IVec S32768 32) (main_arg12 : FVec F S4096 .f32) : IVec S_ 1 :=
  let main_v0 : FVec F S4096 .f32 := Host.absf main_arg12
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  main_v3
-- ==== Kernel.lean ====
abbrev S4096x1536 : Shape := ⟨2, ![4096, 1536]⟩
abbrev S4096x576 : Shape := ⟨2, ![4096, 576]⟩
abbrev S4096x256 : Shape := ⟨2, ![4096, 256]⟩
abbrev S4096x96 : Shape := ⟨2, ![4096, 96]⟩
abbrev S4096x24 : Shape := ⟨2, ![4096, 24]⟩
abbrev S4096x8 : Shape := ⟨2, ![4096, 8]⟩
abbrev S393216 : Shape := ⟨1, ![393216]⟩
abbrev S98304 : Shape := ⟨1, ![98304]⟩
abbrev S32768 : Shape := ⟨1, ![32768]⟩
abbrev S4096 : Shape := ⟨1, ![4096]⟩
abbrev S8 : Shape := ⟨1, ![8]⟩
abbrev S_ : Shape := ⟨0, ![]⟩
abbrev S4096x1536x1 : Shape := ⟨3, ![4096, 1536, 1]⟩
abbrev S4096x1536x2 : Shape := ⟨3, ![4096, 1536, 2]⟩
abbrev S4096x3072 : Shape := ⟨2, ![4096, 3072]⟩
abbrev S4096x3072x1 : Shape := ⟨3, ![4096, 3072, 1]⟩
abbrev S4096x96x32 : Shape := ⟨3, ![4096, 96, 32]⟩
abbrev S4096x96x1 : Shape := ⟨3, ![4096, 96, 1]⟩
abbrev S4096x192x3 : Shape := ⟨3, ![4096, 192, 3]⟩
abbrev S4096x192x1 : Shape := ⟨3, ![4096, 192, 1]⟩
abbrev S4096x192 : Shape := ⟨2, ![4096, 192]⟩
abbrev S4096x192x4 : Shape := ⟨3, ![4096, 192, 4]⟩
abbrev S4096x768 : Shape := ⟨2, ![4096, 768]⟩
abbrev S4096x24x32 : Shape := ⟨3, ![4096, 24, 32]⟩
abbrev S4096x24x1 : Shape := ⟨3, ![4096, 24, 1]⟩
abbrev S4096x8x32 : Shape := ⟨3, ![4096, 8, 32]⟩
abbrev S4096x8x1 : Shape := ⟨3, ![4096, 8, 1]⟩
abbrev S1x4096 : Shape := ⟨2, ![1, 4096]⟩
abbrev S4096x4096 : Shape := ⟨2, ![4096, 4096]⟩
abbrev S1024x3072 : Shape := ⟨2, ![1024, 3072]⟩
abbrev S1024x768 : Shape := ⟨2, ![1024, 768]⟩
abbrev S1024x256 : Shape := ⟨2, ![1024, 256]⟩
abbrev S512x3072 : Shape := ⟨2, ![512, 3072]⟩
abbrev S512x768 : Shape := ⟨2, ![512, 768]⟩
abbrev S512x256 : Shape := ⟨2, ![512, 256]⟩
abbrev S1x512 : Shape := ⟨2, ![1, 512]⟩
abbrev S1024x512 : Shape := ⟨2, ![1024, 512]⟩

abbrev nBuf : Space → Nat
  | .hbm => 459
  | .vmem => 16
  | .smem => 0
  | _ => 0

abbrev hbmTy0_0 (i : Nat) : BufTy := match i % 128 with
  | 0 => ⟨S4096x1536, .i32⟩
  | 1 => ⟨S4096x576, .i32⟩
  | 2 => ⟨S4096x256, .i32⟩
  | 3 => ⟨S4096x96, .i32⟩
  | 4 => ⟨S4096x24, .i32⟩
  | 5 => ⟨S4096x8, .i32⟩
  | 6 => ⟨S4096x1536, .i32⟩
  | 7 => ⟨S4096x576, .i32⟩
  | 8 => ⟨S4096x256, .i32⟩
  | 9 => ⟨S393216, .i32⟩
  | 10 => ⟨S98304, .i32⟩
  | 11 => ⟨S32768, .i32⟩
  | 12 => ⟨S4096, .f32⟩
  | 13 => ⟨S8, .f32⟩
  | 14 => ⟨S_, .i32⟩
  | 15 => ⟨S4096x1536, .i32⟩
  | 16 => ⟨S4096x1536, .i32⟩
  | 17 => ⟨S_, .i32⟩
  | 18 => ⟨S4096x1536, .i32⟩
  | 19 => ⟨S4096x1536, .i32⟩
  | 20 => ⟨S_, .i32⟩
  | 21 => ⟨S4096x1536, .i32⟩
  | 22 => ⟨S4096x1536, .i32⟩
  | 23 => ⟨S4096x1536x1, .i32⟩
  | 24 => ⟨S4096x1536x1, .i32⟩
  | 25 => ⟨S4096x1536x2, .i32⟩
  | 26 => ⟨S4096x3072, .i32⟩
  | 27 => ⟨S_, .i32⟩
  | 28 => ⟨S4096x3072, .i32⟩
  | 29 => ⟨S4096x3072, .i1⟩
  | 30 => ⟨S_, .f32⟩
  | 31 => ⟨S_, .f32⟩
  | 32 => ⟨S4096x3072, .f32⟩
  | 33 => ⟨S4096x3072, .f32⟩
  | 34 => ⟨S4096x3072, .f32⟩
  | 35 => ⟨S_, .i32⟩
  | 36 => ⟨S4096x3072, .i32⟩
  | 37 => ⟨S4096x3072, .i32⟩
  | 38 => ⟨S_, .i32⟩
  | 39 => ⟨S4096x3072, .i32⟩
  | 40 => ⟨S4096x3072, .i1⟩
  | 41 => ⟨S_, .i32⟩
  | 42 => ⟨S4096x3072, .i32⟩
  | 43 => ⟨S4096x3072, .i32⟩
  | 44 => ⟨S4096x3072, .i32⟩
  | 45 => ⟨S4096x3072x1, .i32⟩
  | 46 => ⟨S4096x3072, .f32⟩
  | 47 => ⟨S4096x3072, .f32⟩
  | 48 => ⟨S4096x3072, .f32⟩
  | 49 => ⟨S4096x96, .f32⟩
  | 50 => ⟨S_, .f32⟩
  | 51 => ⟨S4096x96, .f32⟩
  | 52 => ⟨S4096x96, .f32⟩
  | 53 => ⟨S_, .f32⟩
  | 54 => ⟨S4096x96, .f32⟩
  | 55 => ⟨S4096x96, .f32⟩
  | 56 => ⟨S4096x96, .f32⟩
  | 57 => ⟨S4096x96x32, .f32⟩
  | 58 => ⟨S4096x96x1, .f32⟩
  | 59 => ⟨S4096x96x32, .f32⟩
  | 60 => ⟨S4096x96x32, .f32⟩
  | 61 => ⟨S4096x3072, .f32⟩
  | 62 => ⟨S4096x3072, .bf16⟩
  | 63 => ⟨S4096x192x3, .i32⟩
  | 64 => ⟨S4096x192x1, .i32⟩
  | 65 => ⟨S4096x192, .i32⟩
  | 66 => ⟨S4096x192x1, .i32⟩
  | 67 => ⟨S4096x192, .i32⟩
  | 68 => ⟨S4096x192x1, .i32⟩
  | 69 => ⟨S4096x192, .i32⟩
  | 70 => ⟨S_, .i32⟩
  | 71 => ⟨S4096x192, .i32⟩
  | 72 => ⟨S4096x192, .i32⟩
  | 73 => ⟨S_, .i32⟩
  | 74 => ⟨S4096x192, .i32⟩
  | 75 => ⟨S4096x192, .i32⟩
  | 76 => ⟨S_, .i32⟩
  | 77 => ⟨S4096x192, .i32⟩
  | 78 => ⟨S4096x192, .i32⟩
  | 79 => ⟨S_, .i32⟩
  | 80 => ⟨S4096x192, .i32⟩
  | 81 => ⟨S4096x192, .i32⟩
  | 82 => ⟨S_, .i32⟩
  | 83 => ⟨S4096x192, .i32⟩
  | 84 => ⟨S4096x192, .i32⟩
  | 85 => ⟨S4096x192, .i32⟩
  | 86 => ⟨S_, .i32⟩
  | 87 => ⟨S4096x192, .i32⟩
  | 88 => ⟨S4096x192, .i32⟩
  | 89 => ⟨S_, .i32⟩
  | 90 => ⟨S4096x192, .i32⟩
  | 91 => ⟨S4096x192, .i32⟩
  | 92 => ⟨S_, .i32⟩
  | 93 => ⟨S4096x192, .i32⟩
  | 94 => ⟨S4096x192, .i32⟩
  | 95 => ⟨S_, .i32⟩
  | 96 => ⟨S4096x192, .i32⟩
  | 97 => ⟨S4096x192, .i32⟩
  | 98 => ⟨S4096x192, .i32⟩
  | 99 => ⟨S_, .i32⟩
  | 100 => ⟨S4096x192, .i32⟩
  | 101 => ⟨S4096x192, .i32⟩
  | 102 => ⟨S_, .i32⟩
  | 103 => ⟨S4096x192, .i32⟩
  | 104 => ⟨S4096x192, .i32⟩
  | 105 => ⟨S4096x192x1, .i32⟩
  | 106 => ⟨S4096x192x1, .i32⟩
  | 107 => ⟨S4096x192x1, .i32⟩
  | 108 => ⟨S4096x192x1, .i32⟩
  | 109 => ⟨S4096x192x4, .i32⟩
  | 110 => ⟨S4096x768, .i32⟩
  | 111 => ⟨S_, .i32⟩
  | 112 => ⟨S4096x768, .i32⟩
  | 113 => ⟨S4096x768, .i1⟩
  | 114 => ⟨S_, .f32⟩
  | 115 => ⟨S_, .f32⟩
  | 116 => ⟨S4096x768, .f32⟩
  | 117 => ⟨S4096x768, .f32⟩
  | 118 => ⟨S4096x768, .f32⟩
  | 119 => ⟨S_, .i32⟩
  | 120 => ⟨S4096x768, .i32⟩
  | 121 => ⟨S4096x768, .i32⟩
  | 122 => ⟨S_, .i32⟩
  | 123 => ⟨S4096x768, .i32⟩
  | 124 => ⟨S4096x768, .i32⟩
  | 125 => ⟨S4096x768, .f32⟩
  | 126 => ⟨S_, .i32⟩
  | 127 => ⟨S4096x768, .i32⟩
  | _ => ⟨S4096x1536, .i32⟩

abbrev hbmTy0_1 (i : Nat) : BufTy := match i % 128 with
  | 0 => ⟨S4096x768, .i32⟩
  | 1 => ⟨S4096x768, .f32⟩
  | 2 => ⟨S_, .f32⟩
  | 3 => ⟨S4096x768, .f32⟩
  | 4 => ⟨S4096x768, .i1⟩
  | 5 => ⟨S_, .f32⟩
  | 6 => ⟨S4096x768, .f32⟩
  | 7 => ⟨S4096x768, .f32⟩
  | 8 => ⟨S_, .f32⟩
  | 9 => ⟨S4096x768, .f32⟩
  | 10 => ⟨S4096x768, .f32⟩
  | 11 => ⟨S_, .f32⟩
  | 12 => ⟨S4096x768, .f32⟩
  | 13 => ⟨S4096x768, .f32⟩
  | 14 => ⟨S_, .f32⟩
  | 15 => ⟨S4096x768, .f32⟩
  | 16 => ⟨S4096x768, .f32⟩
  | 17 => ⟨S_, .f32⟩
  | 18 => ⟨S4096x768, .f32⟩
  | 19 => ⟨S4096x768, .f32⟩
  | 20 => ⟨S_, .f32⟩
  | 21 => ⟨S4096x768, .f32⟩
  | 22 => ⟨S4096x768, .f32⟩
  | 23 => ⟨S4096x768, .f32⟩
  | 24 => ⟨S4096x768, .f32⟩
  | 25 => ⟨S4096x768, .f32⟩
  | 26 => ⟨S4096x768, .f32⟩
  | 27 => ⟨S4096x768, .f32⟩
  | 28 => ⟨S4096x24, .f32⟩
  | 29 => ⟨S_, .f32⟩
  | 30 => ⟨S4096x24, .f32⟩
  | 31 => ⟨S4096x24, .f32⟩
  | 32 => ⟨S_, .f32⟩
  | 33 => ⟨S4096x24, .f32⟩
  | 34 => ⟨S4096x24, .f32⟩
  | 35 => ⟨S4096x24, .f32⟩
  | 36 => ⟨S4096x24x32, .f32⟩
  | 37 => ⟨S4096x24x1, .f32⟩
  | 38 => ⟨S4096x24x32, .f32⟩
  | 39 => ⟨S4096x24x32, .f32⟩
  | 40 => ⟨S4096x768, .f32⟩
  | 41 => ⟨S4096x768, .bf16⟩
  | 42 => ⟨S_, .i32⟩
  | 43 => ⟨S4096x256, .i32⟩
  | 44 => ⟨S4096x256, .i1⟩
  | 45 => ⟨S_, .f32⟩
  | 46 => ⟨S_, .f32⟩
  | 47 => ⟨S4096x256, .f32⟩
  | 48 => ⟨S4096x256, .f32⟩
  | 49 => ⟨S4096x256, .f32⟩
  | 50 => ⟨S_, .i32⟩
  | 51 => ⟨S4096x256, .i32⟩
  | 52 => ⟨S4096x256, .i32⟩
  | 53 => ⟨S_, .i32⟩
  | 54 => ⟨S4096x256, .i32⟩
  | 55 => ⟨S4096x256, .i32⟩
  | 56 => ⟨S4096x256, .f32⟩
  | 57 => ⟨S_, .i32⟩
  | 58 => ⟨S4096x256, .i32⟩
  | 59 => ⟨S4096x256, .i32⟩
  | 60 => ⟨S4096x256, .f32⟩
  | 61 => ⟨S_, .f32⟩
  | 62 => ⟨S4096x256, .f32⟩
  | 63 => ⟨S4096x256, .i1⟩
  | 64 => ⟨S_, .f32⟩
  | 65 => ⟨S4096x256, .f32⟩
  | 66 => ⟨S4096x256, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S4096x256, .f32⟩
  | 74 => ⟨S4096x256, .f32⟩
  | 75 => ⟨S_, .f32⟩
  | 76 => ⟨S4096x256, .f32⟩
  | 77 => ⟨S4096x256, .f32⟩
  | 78 => ⟨S_, .f32⟩
  | 79 => ⟨S4096x256, .f32⟩
  | 80 => ⟨S4096x256, .f32⟩
  | 81 => ⟨S_, .f32⟩
  | 82 => ⟨S4096x256, .f32⟩
  | 83 => ⟨S4096x256, .f32⟩
  | 84 => ⟨S_, .f32⟩
  | 85 => ⟨S4096x256, .f32⟩
  | 86 => ⟨S4096x256, .f32⟩
  | 87 => ⟨S4096x256, .f32⟩
  | 88 => ⟨S4096x256, .f32⟩
  | 89 => ⟨S4096x256, .f32⟩
  | 90 => ⟨S4096x256, .f32⟩
  | 91 => ⟨S4096x256, .f32⟩
  | 92 => ⟨S4096x8, .f32⟩
  | 93 => ⟨S_, .f32⟩
  | 94 => ⟨S4096x8, .f32⟩
  | 95 => ⟨S4096x8, .f32⟩
  | 96 => ⟨S_, .f32⟩
  | 97 => ⟨S4096x8, .f32⟩
  | 98 => ⟨S4096x8, .f32⟩
  | 99 => ⟨S4096x8, .f32⟩
  | 100 => ⟨S4096x8x32, .f32⟩
  | 101 => ⟨S4096x8x1, .f32⟩
  | 102 => ⟨S4096x8x32, .f32⟩
  | 103 => ⟨S4096x8x32, .f32⟩
  | 104 => ⟨S4096x256, .f32⟩
  | 105 => ⟨S4096x256, .bf16⟩
  | 106 => ⟨S4096x96, .i32⟩
  | 107 => ⟨S_, .i32⟩
  | 108 => ⟨S4096x1536, .i32⟩
  | 109 => ⟨S4096x1536, .i32⟩
  | 110 => ⟨S_, .i32⟩
  | 111 => ⟨S4096x1536, .i32⟩
  | 112 => ⟨S4096x1536, .i32⟩
  | 113 => ⟨S_, .i32⟩
  | 114 => ⟨S4096x1536, .i32⟩
  | 115 => ⟨S4096x1536, .i32⟩
  | 116 => ⟨S4096x1536x1, .i32⟩
  | 117 => ⟨S4096x1536x1, .i32⟩
  | 118 => ⟨S4096x1536x2, .i32⟩
  | 119 => ⟨S4096x3072, .i32⟩
  | 120 => ⟨S_, .i32⟩
  | 121 => ⟨S4096x3072, .i32⟩
  | 122 => ⟨S4096x3072, .i1⟩
  | 123 => ⟨S_, .f32⟩
  | 124 => ⟨S_, .f32⟩
  | 125 => ⟨S4096x3072, .f32⟩
  | 126 => ⟨S4096x3072, .f32⟩
  | 127 => ⟨S4096x3072, .f32⟩
  | _ => ⟨S4096x1536, .i32⟩

abbrev hbmTy0_2 (i : Nat) : BufTy := match i % 128 with
  | 0 => ⟨S_, .i32⟩
  | 1 => ⟨S4096x3072, .i32⟩
  | 2 => ⟨S4096x3072, .i32⟩
  | 3 => ⟨S_, .i32⟩
  | 4 => ⟨S4096x3072, .i32⟩
  | 5 => ⟨S4096x3072, .i1⟩
  | 6 => ⟨S_, .i32⟩
  | 7 => ⟨S4096x3072, .i32⟩
  | 8 => ⟨S4096x3072, .i32⟩
  | 9 => ⟨S4096x3072, .i32⟩
  | 10 => ⟨S4096x3072x1, .i32⟩
  | 11 => ⟨S4096x3072, .f32⟩
  | 12 => ⟨S4096x3072, .f32⟩
  | 13 => ⟨S4096x3072, .f32⟩
  | 14 => ⟨S4096x96, .f32⟩
  | 15 => ⟨S_, .f32⟩
  | 16 => ⟨S4096x96, .f32⟩
  | 17 => ⟨S4096x96, .f32⟩
  | 18 => ⟨S_, .f32⟩
  | 19 => ⟨S4096x96, .f32⟩
  | 20 => ⟨S4096x96, .f32⟩
  | 21 => ⟨S4096x96, .f32⟩
  | 22 => ⟨S4096x96x32, .f32⟩
  | 23 => ⟨S4096x96x1, .f32⟩
  | 24 => ⟨S4096x96x32, .f32⟩
  | 25 => ⟨S4096x96x32, .f32⟩
  | 26 => ⟨S4096x3072, .f32⟩
  | 27 => ⟨S4096x3072, .bf16⟩
  | 28 => ⟨S4096x24, .i32⟩
  | 29 => ⟨S4096x192x3, .i32⟩
  | 30 => ⟨S4096x192x1, .i32⟩
  | 31 => ⟨S4096x192, .i32⟩
  | 32 => ⟨S4096x192x1, .i32⟩
  | 33 => ⟨S4096x192, .i32⟩
  | 34 => ⟨S4096x192x1, .i32⟩
  | 35 => ⟨S4096x192, .i32⟩
  | 36 => ⟨S_, .i32⟩
  | 37 => ⟨S4096x192, .i32⟩
  | 38 => ⟨S4096x192, .i32⟩
  | 39 => ⟨S_, .i32⟩
  | 40 => ⟨S4096x192, .i32⟩
  | 41 => ⟨S4096x192, .i32⟩
  | 42 => ⟨S_, .i32⟩
  | 43 => ⟨S4096x192, .i32⟩
  | 44 => ⟨S4096x192, .i32⟩
  | 45 => ⟨S_, .i32⟩
  | 46 => ⟨S4096x192, .i32⟩
  | 47 => ⟨S4096x192, .i32⟩
  | 48 => ⟨S_, .i32⟩
  | 49 => ⟨S4096x192, .i32⟩
  | 50 => ⟨S4096x192, .i32⟩
  | 51 => ⟨S4096x192, .i32⟩
  | 52 => ⟨S_, .i32⟩
  | 53 => ⟨S4096x192, .i32⟩
  | 54 => ⟨S4096x192, .i32⟩
  | 55 => ⟨S_, .i32⟩
  | 56 => ⟨S4096x192, .i32⟩
  | 57 => ⟨S4096x192, .i32⟩
  | 58 => ⟨S_, .i32⟩
  | 59 => ⟨S4096x192, .i32⟩
  | 60 => ⟨S4096x192, .i32⟩
  | 61 => ⟨S_, .i32⟩
  | 62 => ⟨S4096x192, .i32⟩
  | 63 => ⟨S4096x192, .i32⟩
  | 64 => ⟨S4096x192, .i32⟩
  | 65 => ⟨S_, .i32⟩
  | 66 => ⟨S4096x192, .i32⟩
  | 67 => ⟨S4096x192, .i32⟩
  | 68 => ⟨S_, .i32⟩
  | 69 => ⟨S4096x192, .i32⟩
  | 70 => ⟨S4096x192, .i32⟩
  | 71 => ⟨S4096x192x1, .i32⟩
  | 72 => ⟨S4096x192x1, .i32⟩
  | 73 => ⟨S4096x192x1, .i32⟩
  | 74 => ⟨S4096x192x1, .i32⟩
  | 75 => ⟨S4096x192x4, .i32⟩
  | 76 => ⟨S4096x768, .i32⟩
  | 77 => ⟨S_, .i32⟩
  | 78 => ⟨S4096x768, .i32⟩
  | 79 => ⟨S4096x768, .i1⟩
  | 80 => ⟨S_, .f32⟩
  | 81 => ⟨S_, .f32⟩
  | 82 => ⟨S4096x768, .f32⟩
  | 83 => ⟨S4096x768, .f32⟩
  | 84 => ⟨S4096x768, .f32⟩
  | 85 => ⟨S_, .i32⟩
  | 86 => ⟨S4096x768, .i32⟩
  | 87 => ⟨S4096x768, .i32⟩
  | 88 => ⟨S_, .i32⟩
  | 89 => ⟨S4096x768, .i32⟩
  | 90 => ⟨S4096x768, .i32⟩
  | 91 => ⟨S4096x768, .f32⟩
  | 92 => ⟨S_, .i32⟩
  | 93 => ⟨S4096x768, .i32⟩
  | 94 => ⟨S4096x768, .i32⟩
  | 95 => ⟨S4096x768, .f32⟩
  | 96 => ⟨S_, .f32⟩
  | 97 => ⟨S4096x768, .f32⟩
  | 98 => ⟨S4096x768, .i1⟩
  | 99 => ⟨S_, .f32⟩
  | 100 => ⟨S4096x768, .f32⟩
  | 101 => ⟨S4096x768, .f32⟩
  | 102 => ⟨S_, .f32⟩
  | 103 => ⟨S4096x768, .f32⟩
  | 104 => ⟨S4096x768, .f32⟩
  | 105 => ⟨S_, .f32⟩
  | 106 => ⟨S4096x768, .f32⟩
  | 107 => ⟨S4096x768, .f32⟩
  | 108 => ⟨S_, .f32⟩
  | 109 => ⟨S4096x768, .f32⟩
  | 110 => ⟨S4096x768, .f32⟩
  | 111 => ⟨S_, .f32⟩
  | 112 => ⟨S4096x768, .f32⟩
  | 113 => ⟨S4096x768, .f32⟩
  | 114 => ⟨S_, .f32⟩
  | 115 => ⟨S4096x768, .f32⟩
  | 116 => ⟨S4096x768, .f32⟩
  | 117 => ⟨S4096x768, .f32⟩
  | 118 => ⟨S4096x768, .f32⟩
  | 119 => ⟨S4096x768, .f32⟩
  | 120 => ⟨S4096x768, .f32⟩
  | 121 => ⟨S4096x768, .f32⟩
  | 122 => ⟨S4096x24, .f32⟩
  | 123 => ⟨S_, .f32⟩
  | 124 => ⟨S4096x24, .f32⟩
  | 125 => ⟨S4096x24, .f32⟩
  | 126 => ⟨S_, .f32⟩
  | 127 => ⟨S4096x24, .f32⟩
  | _ => ⟨S4096x1536, .i32⟩

abbrev hbmTy0_3 (i : Nat) : BufTy := match i % 128 with
  | 0 => ⟨S4096x24, .f32⟩
  | 1 => ⟨S4096x24, .f32⟩
  | 2 => ⟨S4096x24x32, .f32⟩
  | 3 => ⟨S4096x24x1, .f32⟩
  | 4 => ⟨S4096x24x32, .f32⟩
  | 5 => ⟨S4096x24x32, .f32⟩
  | 6 => ⟨S4096x768, .f32⟩
  | 7 => ⟨S4096x768, .bf16⟩
  | 8 => ⟨S4096x8, .i32⟩
  | 9 => ⟨S_, .i32⟩
  | 10 => ⟨S4096x256, .i32⟩
  | 11 => ⟨S4096x256, .i1⟩
  | 12 => ⟨S_, .f32⟩
  | 13 => ⟨S_, .f32⟩
  | 14 => ⟨S4096x256, .f32⟩
  | 15 => ⟨S4096x256, .f32⟩
  | 16 => ⟨S4096x256, .f32⟩
  | 17 => ⟨S_, .i32⟩
  | 18 => ⟨S4096x256, .i32⟩
  | 19 => ⟨S4096x256, .i32⟩
  | 20 => ⟨S_, .i32⟩
  | 21 => ⟨S4096x256, .i32⟩
  | 22 => ⟨S4096x256, .i32⟩
  | 23 => ⟨S4096x256, .f32⟩
  | 24 => ⟨S_, .i32⟩
  | 25 => ⟨S4096x256, .i32⟩
  | 26 => ⟨S4096x256, .i32⟩
  | 27 => ⟨S4096x256, .f32⟩
  | 28 => ⟨S_, .f32⟩
  | 29 => ⟨S4096x256, .f32⟩
  | 30 => ⟨S4096x256, .i1⟩
  | 31 => ⟨S_, .f32⟩
  | 32 => ⟨S4096x256, .f32⟩
  | 33 => ⟨S4096x256, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S4096x256, .f32⟩
  | 41 => ⟨S4096x256, .f32⟩
  | 42 => ⟨S_, .f32⟩
  | 43 => ⟨S4096x256, .f32⟩
  | 44 => ⟨S4096x256, .f32⟩
  | 45 => ⟨S_, .f32⟩
  | 46 => ⟨S4096x256, .f32⟩
  | 47 => ⟨S4096x256, .f32⟩
  | 48 => ⟨S_, .f32⟩
  | 49 => ⟨S4096x256, .f32⟩
  | 50 => ⟨S4096x256, .f32⟩
  | 51 => ⟨S_, .f32⟩
  | 52 => ⟨S4096x256, .f32⟩
  | 53 => ⟨S4096x256, .f32⟩
  | 54 => ⟨S4096x256, .f32⟩
  | 55 => ⟨S4096x256, .f32⟩
  | 56 => ⟨S4096x256, .f32⟩
  | 57 => ⟨S4096x256, .f32⟩
  | 58 => ⟨S4096x256, .f32⟩
  | 59 => ⟨S4096x8, .f32⟩
  | 60 => ⟨S_, .f32⟩
  | 61 => ⟨S4096x8, .f32⟩
  | 62 => ⟨S4096x8, .f32⟩
  | 63 => ⟨S_, .f32⟩
  | 64 => ⟨S4096x8, .f32⟩
  | 65 => ⟨S4096x8, .f32⟩
  | 66 => ⟨S4096x8, .f32⟩
  | 67 => ⟨S4096x8x32, .f32⟩
  | 68 => ⟨S4096x8x1, .f32⟩
  | 69 => ⟨S4096x8x32, .f32⟩
  | 70 => ⟨S4096x8x32, .f32⟩
  | 71 => ⟨S4096x256, .f32⟩
  | 72 => ⟨S4096x256, .bf16⟩
  | 73 => ⟨S1x4096, .f32⟩
  | 74 => ⟨S4096x4096, .f32⟩
  | _ => ⟨S4096x1536, .i32⟩

abbrev hbmTy (i : Nat) : BufTy := match i / 128 with
  | 0 => hbmTy0_0 i
  | 1 => hbmTy0_1 i
  | 2 => hbmTy0_2 i
  | 3 => hbmTy0_3 i
  | _ => ⟨S4096x1536, .i32⟩

abbrev bufTy : (tb : Table) → Fin (tcTables nBuf tb) → BufTy
  | .hbm, ⟨i, _⟩ => hbmTy i
  | .local _ .vmem, ⟨0, _⟩ => ⟨S1024x3072, .bf16⟩
  | .local _ .vmem, ⟨1, _⟩ => ⟨S1024x3072, .bf16⟩
  | .local _ .vmem, ⟨2, _⟩ => ⟨S1024x768, .bf16⟩
  | .local _ .vmem, ⟨3, _⟩ => ⟨S1024x768, .bf16⟩
  | .local _ .vmem, ⟨4, _⟩ => ⟨S1024x256, .bf16⟩
  | .local _ .vmem, ⟨5, _⟩ => ⟨S1024x256, .bf16⟩
  | .local _ .vmem, ⟨6, _⟩ => ⟨S512x3072, .bf16⟩
  | .local _ .vmem, ⟨7, _⟩ => ⟨S512x3072, .bf16⟩
  | .local _ .vmem, ⟨8, _⟩ => ⟨S512x768, .bf16⟩
  | .local _ .vmem, ⟨9, _⟩ => ⟨S512x768, .bf16⟩
  | .local _ .vmem, ⟨10, _⟩ => ⟨S512x256, .bf16⟩
  | .local _ .vmem, ⟨11, _⟩ => ⟨S512x256, .bf16⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S4096x1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_c_7 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_c_11 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_c_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_15 : Ref sig .tc := ⟨.hbm, 86, rfl⟩
abbrev main_v54 : Ref sig .tc := ⟨.hbm, 87, rfl⟩
abbrev main_v55 : Ref sig .tc := ⟨.hbm, 88, rfl⟩
abbrev main_c_16 : Ref sig .tc := ⟨.hbm, 89, rfl⟩
abbrev main_v56 : Ref sig .tc := ⟨.hbm, 90, rfl⟩
abbrev main_v57 : Ref sig .tc := ⟨.hbm, 91, rfl⟩
abbrev main_c_17 : Ref sig .tc := ⟨.hbm, 92, rfl⟩
abbrev main_v58 : Ref sig .tc := ⟨.hbm, 93, rfl⟩
abbrev main_v59 : Ref sig .tc := ⟨.hbm, 94, rfl⟩
abbrev main_c_18 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_19 : Ref sig .tc := ⟨.hbm, 99, rfl⟩
abbrev main_v63 : Ref sig .tc := ⟨.hbm, 100, rfl⟩
abbrev main_v64 : Ref sig .tc := ⟨.hbm, 101, rfl⟩
abbrev main_c_20 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_21 : Ref sig .tc := ⟨.hbm, 111, rfl⟩
abbrev main_v73 : Ref sig .tc := ⟨.hbm, 112, rfl⟩
abbrev main_v74 : Ref sig .tc := ⟨.hbm, 113, rfl⟩
abbrev main_cst_22 : Ref sig .tc := ⟨.hbm, 114, rfl⟩
abbrev main_cst_23 : Ref sig .tc := ⟨.hbm, 115, rfl⟩
abbrev main_call1_v0 : Ref sig .tc := ⟨.hbm, 116, rfl⟩
abbrev main_call1_v1 : Ref sig .tc := ⟨.hbm, 117, rfl⟩
abbrev main_v75 : Ref sig .tc := ⟨.hbm, 118, rfl⟩
abbrev main_c_24 : Ref sig .tc := ⟨.hbm, 119, rfl⟩
abbrev main_v76 : Ref sig .tc := ⟨.hbm, 120, rfl⟩
abbrev main_v77 : Ref sig .tc := ⟨.hbm, 121, rfl⟩
abbrev main_c_25 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_26 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_27 : Ref sig .tc := ⟨.hbm, 130, rfl⟩
abbrev main_v84 : Ref sig .tc := ⟨.hbm, 131, rfl⟩
abbrev main_v85 : Ref sig .tc := ⟨.hbm, 132, rfl⟩
abbrev main_cst_28 : Ref sig .tc := ⟨.hbm, 133, rfl⟩
abbrev main_v86 : Ref sig .tc := ⟨.hbm, 134, rfl⟩
abbrev main_v87 : Ref sig .tc := ⟨.hbm, 135, rfl⟩
abbrev main_cst_29 : Ref sig .tc := ⟨.hbm, 136, rfl⟩
abbrev main_v88 : Ref sig .tc := ⟨.hbm, 137, rfl⟩
abbrev main_v89 : Ref sig .tc := ⟨.hbm, 138, rfl⟩
abbrev main_cst_30 : Ref sig .tc := ⟨.hbm, 139, rfl⟩
abbrev main_v90 : Ref sig .tc := ⟨.hbm, 140, rfl⟩
abbrev main_v91 : Ref sig .tc := ⟨.hbm, 141, rfl⟩
abbrev main_cst_31 : Ref sig .tc := ⟨.hbm, 142, rfl⟩
abbrev main_v92 : Ref sig .tc := ⟨.hbm, 143, rfl⟩
abbrev main_v93 : Ref sig .tc := ⟨.hbm, 144, rfl⟩
abbrev main_cst_32 : Ref sig .tc := ⟨.hbm, 145, rfl⟩
abbrev main_v94 : Ref sig .tc := ⟨.hbm, 146, rfl⟩
abbrev main_v95 : Ref sig .tc := ⟨.hbm, 147, rfl⟩
abbrev main_cst_33 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_34 : Ref sig .tc := ⟨.hbm, 157, rfl⟩
abbrev main_v104 : Ref sig .tc := ⟨.hbm, 158, rfl⟩
abbrev main_v105 : Ref sig .tc := ⟨.hbm, 159, rfl⟩
abbrev main_cst_35 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_36 : Ref sig .tc := ⟨.hbm, 170, rfl⟩
abbrev main_v115 : Ref sig .tc := ⟨.hbm, 171, rfl⟩
abbrev main_v116 : Ref sig .tc := ⟨.hbm, 172, rfl⟩
abbrev main_cst_37 : Ref sig .tc := ⟨.hbm, 173, rfl⟩
abbrev main_cst_38 : Ref sig .tc := ⟨.hbm, 174, rfl⟩
abbrev main_call3_v0 : Ref sig .tc := ⟨.hbm, 175, rfl⟩
abbrev main_call3_v1 : Ref sig .tc := ⟨.hbm, 176, rfl⟩
abbrev main_v117 : Ref sig .tc := ⟨.hbm, 177, rfl⟩
abbrev main_c_39 : Ref sig .tc := ⟨.hbm, 178, rfl⟩
abbrev main_v118 : Ref sig .tc := ⟨.hbm, 179, rfl⟩
abbrev main_v119 : Ref sig .tc := ⟨.hbm, 180, rfl⟩
abbrev main_c_40 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_c_41 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_42 : Ref sig .tc := ⟨.hbm, 189, rfl⟩
abbrev main_v126 : Ref sig .tc := ⟨.hbm, 190, rfl⟩
abbrev main_v127 : Ref sig .tc := ⟨.hbm, 191, rfl⟩
abbrev main_cst_43 : Ref sig .tc := ⟨.hbm, 192, rfl⟩
abbrev main_v128 : Ref sig .tc := ⟨.hbm, 193, rfl⟩
abbrev main_v129 : Ref sig .tc := ⟨.hbm, 194, rfl⟩
abbrev main_cst_44 : Ref sig .tc := ⟨.hbm, 195, rfl⟩
abbrev main_cst_45 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_46 : Ref sig .tc := ⟨.hbm, 203, rfl⟩
abbrev main_v136 : Ref sig .tc := ⟨.hbm, 204, rfl⟩
abbrev main_v137 : Ref sig .tc := ⟨.hbm, 205, rfl⟩
abbrev main_cst_47 : Ref sig .tc := ⟨.hbm, 206, rfl⟩
abbrev main_v138 : Ref sig .tc := ⟨.hbm, 207, rfl⟩
abbrev main_v139 : Ref sig .tc := ⟨.hbm, 208, rfl⟩
abbrev main_cst_48 : Ref sig .tc := ⟨.hbm, 209, rfl⟩
abbrev main_v140 : Ref sig .tc := ⟨.hbm, 210, rfl⟩
abbrev main_v141 : Ref sig .tc := ⟨.hbm, 211, rfl⟩
abbrev main_cst_49 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_cst_50 : Ref sig .tc := ⟨.hbm, 221, rfl⟩
abbrev main_v150 : Ref sig .tc := ⟨.hbm, 222, rfl⟩
abbrev main_v151 : Ref sig .tc := ⟨.hbm, 223, rfl⟩
abbrev main_cst_51 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_c_52 : Ref sig .tc := ⟨.hbm, 235, rfl⟩
abbrev main_v162 : Ref sig .tc := ⟨.hbm, 236, rfl⟩
abbrev main_v163 : Ref sig .tc := ⟨.hbm, 237, rfl⟩
abbrev main_c_53 : Ref sig .tc := ⟨.hbm, 238, rfl⟩
abbrev main_v164 : Ref sig .tc := ⟨.hbm, 239, rfl⟩
abbrev main_v165 : Ref sig .tc := ⟨.hbm, 240, rfl⟩
abbrev main_c_54 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_c_55 : Ref sig .tc := ⟨.hbm, 248, rfl⟩
abbrev main_v172 : Ref sig .tc := ⟨.hbm, 249, rfl⟩
abbrev main_v173 : Ref sig .tc := ⟨.hbm, 250, rfl⟩
abbrev main_cst_56 : Ref sig .tc := ⟨.hbm, 251, rfl⟩
abbrev main_cst_57 : Ref sig .tc := ⟨.hbm, 252, rfl⟩
abbrev main_call5_v0 : Ref sig .tc := ⟨.hbm, 253, rfl⟩
abbrev main_call5_v1 : Ref sig .tc := ⟨.hbm, 254, rfl⟩
abbrev main_v174 : Ref sig .tc := ⟨.hbm, 255, rfl⟩
abbrev main_c_58 : Ref sig .tc := ⟨.hbm, 256, rfl⟩
abbrev main_v175 : Ref sig .tc := ⟨.hbm, 257, rfl⟩
abbrev main_v176 : Ref sig .tc := ⟨.hbm, 258, rfl⟩
abbrev main_c_59 : Ref sig .tc := ⟨.hbm, 259, rfl⟩
abbrev main_v177 : Ref sig .tc := ⟨.hbm, 260, rfl⟩
abbrev main_v178 : Ref sig .tc := ⟨.hbm, 261, rfl⟩
abbrev main_c_60 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_cst_61 : Ref sig .tc := ⟨.hbm, 271, rfl⟩
abbrev main_v187 : Ref sig .tc := ⟨.hbm, 272, rfl⟩
abbrev main_v188 : Ref sig .tc := ⟨.hbm, 273, rfl⟩
abbrev main_cst_62 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_c_63 : Ref sig .tc := ⟨.hbm, 292, rfl⟩
abbrev main_v206 : Ref sig .tc := ⟨.hbm, 293, rfl⟩
abbrev main_v207 : Ref sig .tc := ⟨.hbm, 294, rfl⟩
abbrev main_c_64 : Ref sig .tc := ⟨.hbm, 295, rfl⟩
abbrev main_v208 : Ref sig .tc := ⟨.hbm, 296, rfl⟩
abbrev main_v209 : Ref sig .tc := ⟨.hbm, 297, rfl⟩
abbrev main_c_65 : Ref sig .tc := ⟨.hbm, 298, rfl⟩
abbrev main_v210 : Ref sig .tc := ⟨.hbm, 299, rfl⟩
abbrev main_v211 : Ref sig .tc := ⟨.hbm, 300, rfl⟩
abbrev main_c_66 : Ref sig .tc := ⟨.hbm, 301, rfl⟩
abbrev main_v212 : Ref sig .tc := ⟨.hbm, 302, rfl⟩
abbrev main_v213 : Ref sig .tc := ⟨.hbm, 303, rfl⟩
abbrev main_c_67 : Ref sig .tc := ⟨.hbm, 304, rfl⟩
abbrev main_v214 : Ref sig .tc := ⟨.hbm, 305, rfl⟩
abbrev main_v215 : Ref sig .tc := ⟨.hbm, 306, rfl⟩
abbrev main_v216 : Ref sig .tc := ⟨.hbm, 307, rfl⟩
abbrev main_c_68 : Ref sig .tc := ⟨.hbm, 308, rfl⟩
abbrev main_v217 : Ref sig .tc := ⟨.hbm, 309, rfl⟩
abbrev main_v218 : Ref sig .tc := ⟨.hbm, 310, rfl⟩
abbrev main_c_69 : Ref sig .tc := ⟨.hbm, 311, rfl⟩
abbrev main_v219 : Ref sig .tc := ⟨.hbm, 312, rfl⟩
abbrev main_v220 : Ref sig .tc := ⟨.hbm, 313, rfl⟩
abbrev main_c_70 : Ref sig .tc := ⟨.hbm, 314, rfl⟩
abbrev main_v221 : Ref sig .tc := ⟨.hbm, 315, rfl⟩
abbrev main_v222 : Ref sig .tc := ⟨.hbm, 316, rfl⟩
abbrev main_c_71 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_c_72 : Ref sig .tc := ⟨.hbm, 321, rfl⟩
abbrev main_v226 : Ref sig .tc := ⟨.hbm, 322, rfl⟩
abbrev main_v227 : Ref sig .tc := ⟨.hbm, 323, rfl⟩
abbrev main_c_73 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_c_74 : Ref sig .tc := ⟨.hbm, 333, rfl⟩
abbrev main_v236 : Ref sig .tc := ⟨.hbm, 334, rfl⟩
abbrev main_v237 : Ref sig .tc := ⟨.hbm, 335, rfl⟩
abbrev main_cst_75 : Ref sig .tc := ⟨.hbm, 336, rfl⟩
abbrev main_cst_76 : Ref sig .tc := ⟨.hbm, 337, rfl⟩
abbrev main_call6_v0 : Ref sig .tc := ⟨.hbm, 338, rfl⟩
abbrev main_call6_v1 : Ref sig .tc := ⟨.hbm, 339, rfl⟩
abbrev main_v238 : Ref sig .tc := ⟨.hbm, 340, rfl⟩
abbrev main_c_77 : Ref sig .tc := ⟨.hbm, 341, rfl⟩
abbrev main_v239 : Ref sig .tc := ⟨.hbm, 342, rfl⟩
abbrev main_v240 : Ref sig .tc := ⟨.hbm, 343, rfl⟩
abbrev main_c_78 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_c_79 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_cst_80 : Ref sig .tc := ⟨.hbm, 352, rfl⟩
abbrev main_v247 : Ref sig .tc := ⟨.hbm, 353, rfl⟩
abbrev main_v248 : Ref sig .tc := ⟨.hbm, 354, rfl⟩
abbrev main_cst_81 : Ref sig .tc := ⟨.hbm, 355, rfl⟩
abbrev main_v249 : Ref sig .tc := ⟨.hbm, 356, rfl⟩
abbrev main_v250 : Ref sig .tc := ⟨.hbm, 357, rfl⟩
abbrev main_cst_82 : Ref sig .tc := ⟨.hbm, 358, rfl⟩
abbrev main_v251 : Ref sig .tc := ⟨.hbm, 359, rfl⟩
abbrev main_v252 : Ref sig .tc := ⟨.hbm, 360, rfl⟩
abbrev main_cst_83 : Ref sig .tc := ⟨.hbm, 361, rfl⟩
abbrev main_v253 : Ref sig .tc := ⟨.hbm, 362, rfl⟩
abbrev main_v254 : Ref sig .tc := ⟨.hbm, 363, rfl⟩
abbrev main_cst_84 : Ref sig .tc := ⟨.hbm, 364, rfl⟩
abbrev main_v255 : Ref sig .tc := ⟨.hbm, 365, rfl⟩
abbrev main_v256 : Ref sig .tc := ⟨.hbm, 366, rfl⟩
abbrev main_cst_85 : Ref sig .tc := ⟨.hbm, 367, rfl⟩
abbrev main_v257 : Ref sig .tc := ⟨.hbm, 368, rfl⟩
abbrev main_v258 : Ref sig .tc := ⟨.hbm, 369, rfl⟩
abbrev main_cst_86 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_cst_87 : Ref sig .tc := ⟨.hbm, 379, rfl⟩
abbrev main_v267 : Ref sig .tc := ⟨.hbm, 380, rfl⟩
abbrev main_v268 : Ref sig .tc := ⟨.hbm, 381, rfl⟩
abbrev main_cst_88 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_c_89 : Ref sig .tc := ⟨.hbm, 393, rfl⟩
abbrev main_v279 : Ref sig .tc := ⟨.hbm, 394, rfl⟩
abbrev main_v280 : Ref sig .tc := ⟨.hbm, 395, rfl⟩
abbrev main_cst_90 : Ref sig .tc := ⟨.hbm, 396, rfl⟩
abbrev main_cst_91 : Ref sig .tc := ⟨.hbm, 397, rfl⟩
abbrev main_call8_v0 : Ref sig .tc := ⟨.hbm, 398, rfl⟩
abbrev main_call8_v1 : Ref sig .tc := ⟨.hbm, 399, rfl⟩
abbrev main_v281 : Ref sig .tc := ⟨.hbm, 400, rfl⟩
abbrev main_c_92 : Ref sig .tc := ⟨.hbm, 401, rfl⟩
abbrev main_v282 : Ref sig .tc := ⟨.hbm, 402, rfl⟩
abbrev main_v283 : Ref sig .tc := ⟨.hbm, 403, rfl⟩
abbrev main_c_93 : Ref sig .tc := ⟨.hbm, 404, rfl⟩
abbrev main_v284 : Ref sig .tc := ⟨.hbm, 405, rfl⟩
abbrev main_v285 : Ref sig .tc := ⟨.hbm, 406, rfl⟩
abbrev main_v286 : Ref sig .tc := ⟨.hbm, 407, rfl⟩
abbrev main_c_94 : Ref sig .tc := ⟨.hbm, 408, rfl⟩
abbrev main_v287 : Ref sig .tc := ⟨.hbm, 409, rfl⟩
abbrev main_v288 : Ref sig .tc := ⟨.hbm, 410, rfl⟩
abbrev main_v289 : Ref sig .tc := ⟨.hbm, 411, rfl⟩
abbrev main_cst_95 : Ref sig .tc := ⟨.hbm, 412, rfl⟩
abbrev main_v290 : Ref sig .tc := ⟨.hbm, 413, rfl⟩
abbrev main_v291 : Ref sig .tc := ⟨.hbm, 414, rfl⟩
abbrev main_cst_96 : Ref sig .tc := ⟨.hbm, 415, rfl⟩
abbrev main_v292 : Ref sig .tc := ⟨.hbm, 416, rfl⟩
abbrev main_v293 : Ref sig .tc := ⟨.hbm, 417, rfl⟩
abbrev main_cst_97 : Ref sig .tc := ⟨.hbm, 418, rfl⟩
abbrev main_cst_98 : Ref sig .tc := ⟨.hbm, 419, rfl⟩
abbrev main_v294 : Ref sig .tc := ⟨.hbm, 420, rfl⟩
abbrev main_v295 : Ref sig .tc := ⟨.hbm, 421, rfl⟩
abbrev main_v296 : Ref sig .tc := ⟨.hbm, 422, rfl⟩
abbrev main_v297 : Ref sig .tc := ⟨.hbm, 423, rfl⟩
abbrev main_v298 : Ref sig .tc := ⟨.hbm, 424, rfl⟩
abbrev main_v299 : Ref sig .tc := ⟨.hbm, 425, rfl⟩
abbrev main_cst_99 : Ref sig .tc := ⟨.hbm, 426, rfl⟩
abbrev main_v300 : Ref sig .tc := ⟨.hbm, 427, rfl⟩
abbrev main_v301 : Ref sig .tc := ⟨.hbm, 428, rfl⟩
abbrev main_cst_100 : Ref sig .tc := ⟨.hbm, 429, rfl⟩
abbrev main_v302 : Ref sig .tc := ⟨.hbm, 430, rfl⟩
abbrev main_v303 : Ref sig .tc := ⟨.hbm, 431, rfl⟩
abbrev main_cst_101 : Ref sig .tc := ⟨.hbm, 432, rfl⟩
abbrev main_v304 : Ref sig .tc := ⟨.hbm, 433, rfl⟩
abbrev main_v305 : Ref sig .tc := ⟨.hbm, 434, rfl⟩
abbrev main_cst_102 : Ref sig .tc := ⟨.hbm, 435, rfl⟩
abbrev main_v306 : Ref sig .tc := ⟨.hbm, 436, rfl⟩
abbrev main_v307 : Ref sig .tc := ⟨.hbm, 437, rfl⟩
abbrev main_v308 : Ref sig .tc := ⟨.hbm, 438, rfl⟩
abbrev main_v309 : Ref sig .tc := ⟨.hbm, 439, rfl⟩
abbrev main_v310 : Ref sig .tc := ⟨.hbm, 440, rfl⟩
abbrev main_v311 : Ref sig .tc := ⟨.hbm, 441, rfl⟩
abbrev main_v312 : Ref sig .tc := ⟨.hbm, 442, rfl⟩
abbrev main_v313 : Ref sig .tc := ⟨.hbm, 443, rfl⟩
abbrev main_cst_103 : Ref sig .tc := ⟨.hbm, 444, rfl⟩
abbrev main_v314 : Ref sig .tc := ⟨.hbm, 445, rfl⟩
abbrev main_v315 : Ref sig .tc := ⟨.hbm, 446, rfl⟩
abbrev main_cst_104 : Ref sig .tc := ⟨.hbm, 447, rfl⟩
abbrev main_v316 : Ref sig .tc := ⟨.hbm, 448, rfl⟩
abbrev main_v317 : Ref sig .tc := ⟨.hbm, 449, rfl⟩
abbrev main_v318 : Ref sig .tc := ⟨.hbm, 450, rfl⟩
abbrev main_v319 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_v326 : Ref sig .tc := ⟨.hbm, 458, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S4096x1536 : S_.BroadcastsInDim S4096x1536 (![] : Fin 0 → Fin S4096x1536.rank)
  bcast_S4096x1536_S4096x1536x1_0_1 : S4096x1536.BroadcastsInDim S4096x1536x1 (![0, 1] : Fin 2 → Fin S4096x1536x1.rank)
  concatenates_S4096x1536x1_S4096x1536x1_S4096x1536x2_d2 : Shape.Concatenates [S4096x1536x1, S4096x1536x1] S4096x1536x2 2
  shapeCasts_S4096x1536x2_S4096x3072 : S4096x1536x2.ShapeCasts S4096x3072
  bcast_S_S4096x3072 : S_.BroadcastsInDim S4096x3072 (![] : Fin 0 → Fin S4096x3072.rank)
  bcast_S4096x3072_S4096x3072x1_0_1 : S4096x3072.BroadcastsInDim S4096x3072x1 (![0, 1] : Fin 2 → Fin S4096x3072x1.rank)
  bcast_S_S4096x96 : S_.BroadcastsInDim S4096x96 (![] : Fin 0 → Fin S4096x96.rank)
  shapeCasts_S4096x3072_S4096x96x32 : S4096x3072.ShapeCasts S4096x96x32
  bcast_S4096x96_S4096x96x1_0_1 : S4096x96.BroadcastsInDim S4096x96x1 (![0, 1] : Fin 2 → Fin S4096x96x1.rank)
  bcast_S4096x96x1_S4096x96x32_0_1_2 : S4096x96x1.BroadcastsInDim S4096x96x32 (![0, 1, 2] : Fin 3 → Fin S4096x96x32.rank)
  shapeCasts_S4096x96x32_S4096x3072 : S4096x96x32.ShapeCasts S4096x3072
  bitsLt_bf16_f32 : FTy.bits .bf16 < FTy.bits .f32
  shapeCasts_S4096x576_S4096x192x3 : S4096x576.ShapeCasts S4096x192x3
  slices_S4096x192x3_S4096x192x1_0_0_0 : S4096x192x3.Slices ![0, 0, 0] S4096x192x1
  shapeCasts_S4096x192x1_S4096x192 : S4096x192x1.ShapeCasts S4096x192
  slices_S4096x192x3_S4096x192x1_0_0_1 : S4096x192x3.Slices ![0, 0, 1] S4096x192x1
  slices_S4096x192x3_S4096x192x1_0_0_2 : S4096x192x3.Slices ![0, 0, 2] S4096x192x1
  bcast_S_S4096x192 : S_.BroadcastsInDim S4096x192 (![] : Fin 0 → Fin S4096x192.rank)
  bcast_S4096x192_S4096x192x1_0_1 : S4096x192.BroadcastsInDim S4096x192x1 (![0, 1] : Fin 2 → Fin S4096x192x1.rank)
  concatenates_S4096x192x1_S4096x192x1_S4096x192x1_S4096x192x1_S4096x192x4_d2 : Shape.Concatenates [S4096x192x1, S4096x192x1, S4096x192x1, S4096x192x1] S4096x192x4 2
  shapeCasts_S4096x192x4_S4096x768 : S4096x192x4.ShapeCasts S4096x768
  bcast_S_S4096x768 : S_.BroadcastsInDim S4096x768 (![] : Fin 0 → Fin S4096x768.rank)
  bcast_S_S4096x24 : S_.BroadcastsInDim S4096x24 (![] : Fin 0 → Fin S4096x24.rank)
  shapeCasts_S4096x768_S4096x24x32 : S4096x768.ShapeCasts S4096x24x32
  bcast_S4096x24_S4096x24x1_0_1 : S4096x24.BroadcastsInDim S4096x24x1 (![0, 1] : Fin 2 → Fin S4096x24x1.rank)
  bcast_S4096x24x1_S4096x24x32_0_1_2 : S4096x24x1.BroadcastsInDim S4096x24x32 (![0, 1, 2] : Fin 3 → Fin S4096x24x32.rank)
  shapeCasts_S4096x24x32_S4096x768 : S4096x24x32.ShapeCasts S4096x768
  bcast_S_S4096x256 : S_.BroadcastsInDim S4096x256 (![] : Fin 0 → Fin S4096x256.rank)
  bcast_S_S_ : S_.BroadcastsInDim S_ (![] : Fin 0 → Fin S_.rank)
  bcast_S_S4096x8 : S_.BroadcastsInDim S4096x8 (![] : Fin 0 → Fin S4096x8.rank)
  shapeCasts_S4096x256_S4096x8x32 : S4096x256.ShapeCasts S4096x8x32
  bcast_S4096x8_S4096x8x1_0_1 : S4096x8.BroadcastsInDim S4096x8x1 (![0, 1] : Fin 2 → Fin S4096x8x1.rank)
  bcast_S4096x8x1_S4096x8x32_0_1_2 : S4096x8x1.BroadcastsInDim S4096x8x32 (![0, 1, 2] : Fin 3 → Fin S4096x8x32.rank)
  shapeCasts_S4096x8x32_S4096x256 : S4096x8x32.ShapeCasts S4096x256
  shapeCasts_S393216_S4096x96 : S393216.ShapeCasts S4096x96
  shapeCasts_S98304_S4096x24 : S98304.ShapeCasts S4096x24
  shapeCasts_S32768_S4096x8 : S32768.ShapeCasts S4096x8
  shapeCasts_S4096_S1x4096 : S4096.ShapeCasts S1x4096
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  gather_S8_S4096x3072x1_S4096x3072_n_0_n_n_0_2_1_wf : GatherDims.WF S8 S4096x3072x1 S4096x3072 [] [0] [] [0] [] 2 ![1]
  dot_S1024x3072_S512x3072_S1024x512_1_1_0_0_n_n_wf : DotDims.WF S1024x3072 S512x3072 S1024x512 [1] [1] [0] [0] [] []
  dot_S1024x768_S512x768_S1024x512_1_1_0_0_n_n_wf : DotDims.WF S1024x768 S512x768 S1024x512 [1] [1] [0] [0] [] []
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S4096x3072.size a
  hwx0_0 : ∀ i : grid0.Coords, EltTy.bits .bf16 = 32 ∨ (Rect.block (s := S4096x3072) S1024x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S4096x768.size a
  hwx0_1 : ∀ i : grid0.Coords, EltTy.bits .bf16 = 32 ∨ (Rect.block (s := S4096x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S4096x768.size a
  hwx0_4 : ∀ i : grid0.Coords, EltTy.bits .bf16 = 32 ∨ (Rect.block (s := S4096x768) S512x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x256.size a
  hwx0_5 : ∀ i : grid0.Coords, EltTy.bits .bf16 = 32 ∨ (Rect.block (s := S4096x256) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x4096.size a
  hwx0_7 : ∀ i : grid0.Coords, EltTy.bits .f32 = 32 ∨ (Rect.block (s := S4096x4096) S1024x512.size (cc0_transform_7 i) (hinb0_7 i)).WholeWords (EltTy.packing .f32)

variable [Facts₀]

def gather_S8_S4096x3072x1_S4096x3072_n_0_n_n_0_2_1 : GatherDims S8 S4096x3072x1 S4096x3072 where
  offsetDims := []
  collapsedSliceDims := [0]
  operandBatchingDims := []
  startIndicesBatchingDims := []
  startIndexMap := [0]
  indexVectorDim := 2
  sliceSizes := ![1]
  wf := gather_S8_S4096x3072x1_S4096x3072_n_0_n_n_0_2_1_wf
def dot_S1024x3072_S512x3072_S1024x512_1_1_0_0_n_n : DotDims S1024x3072 S512x3072 S1024x512 where
  lhsContracting := [1]
  rhsContracting := [1]
  lhsNonContracting := [0]
  rhsNonContracting := [0]
  lhsBatch := []
  rhsBatch := []
  wf := dot_S1024x3072_S512x3072_S1024x512_1_1_0_0_n_n_wf
def dot_S1024x768_S512x768_S1024x512_1_1_0_0_n_n : DotDims S1024x768 S512x768 S1024x512 where
  lhsContracting := [1]
  rhsContracting := [1]
  lhsNonContracting := [0]
  rhsNonContracting := [0]
  lhsBatch := []
  rhsBatch := []
  wf := dot_S1024x768_S512x768_S1024x512_1_1_0_0_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v35) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v114) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v160) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v197) S512x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v277) S512x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v324) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v325) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v326) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1536 : Shape := ⟨2, ![4096, 1536]⟩
abbrev S4096x576 : Shape := ⟨2, ![4096, 576]⟩
abbrev S4096x256 : Shape := ⟨2, ![4096, 256]⟩
abbrev S4096x96 : Shape := ⟨2, ![4096, 96]⟩
abbrev S4096x24 : Shape := ⟨2, ![4096, 24]⟩
abbrev S4096x8 : Shape := ⟨2, ![4096, 8]⟩
abbrev S393216 : Shape := ⟨1, ![393216]⟩
abbrev S98304 : Shape := ⟨1, ![98304]⟩
abbrev S32768 : Shape := ⟨1, ![32768]⟩
abbrev S4096 : Shape := ⟨1, ![4096]⟩
abbrev S8 : Shape := ⟨1, ![8]⟩
abbrev S_ : Shape := ⟨0, ![]⟩
abbrev S4096x1536x1 : Shape := ⟨3, ![4096, 1536, 1]⟩
abbrev S4096x1536x2 : Shape := ⟨3, ![4096, 1536, 2]⟩
abbrev S4096x3072 : Shape := ⟨2, ![4096, 3072]⟩
abbrev S4096x3072x1 : Shape := ⟨3, ![4096, 3072, 1]⟩
abbrev S4096x96x32 : Shape := ⟨3, ![4096, 96, 32]⟩
abbrev S4096x96x1 : Shape := ⟨3, ![4096, 96, 1]⟩
abbrev S4096x192x3 : Shape := ⟨3, ![4096, 192, 3]⟩
abbrev S4096x192x1 : Shape := ⟨3, ![4096, 192, 1]⟩
abbrev S4096x192 : Shape := ⟨2, ![4096, 192]⟩
abbrev S4096x192x4 : Shape := ⟨3, ![4096, 192, 4]⟩
abbrev S4096x768 : Shape := ⟨2, ![4096, 768]⟩
abbrev S4096x24x32 : Shape := ⟨3, ![4096, 24, 32]⟩
abbrev S4096x24x1 : Shape := ⟨3, ![4096, 24, 1]⟩
abbrev S4096x8x32 : Shape := ⟨3, ![4096, 8, 32]⟩
abbrev S4096x8x1 : Shape := ⟨3, ![4096, 8, 1]⟩
abbrev S3072x4096 : Shape := ⟨2, ![3072, 4096]⟩
abbrev S4096x4096 : Shape := ⟨2, ![4096, 4096]⟩
abbrev S768x4096 : Shape := ⟨2, ![768, 4096]⟩
abbrev S256x4096 : Shape := ⟨2, ![256, 4096]⟩
abbrev S1x4096 : Shape := ⟨2, ![1, 4096]⟩

abbrev nBuf : Space → Nat
  | .hbm => 462
  | .vmem => 0
  | .smem => 0
  | _ => 0

abbrev hbmTy0_0 (i : Nat) : BufTy := match i % 128 with
  | 0 => ⟨S4096x1536, .i32⟩
  | 1 => ⟨S4096x576, .i32⟩
  | 2 => ⟨S4096x256, .i32⟩
  | 3 => ⟨S4096x96, .i32⟩
  | 4 => ⟨S4096x24, .i32⟩
  | 5 => ⟨S4096x8, .i32⟩
  | 6 => ⟨S4096x1536, .i32⟩
  | 7 => ⟨S4096x576, .i32⟩
  | 8 => ⟨S4096x256, .i32⟩
  | 9 => ⟨S393216, .i32⟩
  | 10 => ⟨S98304, .i32⟩
  | 11 => ⟨S32768, .i32⟩
  | 12 => ⟨S4096, .f32⟩
  | 13 => ⟨S8, .f32⟩
  | 14 => ⟨S_, .i32⟩
  | 15 => ⟨S4096x1536, .i32⟩
  | 16 => ⟨S4096x1536, .i32⟩
  | 17 => ⟨S_, .i32⟩
  | 18 => ⟨S4096x1536, .i32⟩
  | 19 => ⟨S4096x1536, .i32⟩
  | 20 => ⟨S_, .i32⟩
  | 21 => ⟨S4096x1536, .i32⟩
  | 22 => ⟨S4096x1536, .i32⟩
  | 23 => ⟨S4096x1536x1, .i32⟩
  | 24 => ⟨S4096x1536x1, .i32⟩
  | 25 => ⟨S4096x1536x2, .i32⟩
  | 26 => ⟨S4096x3072, .i32⟩
  | 27 => ⟨S_, .i32⟩
  | 28 => ⟨S4096x3072, .i32⟩
  | 29 => ⟨S4096x3072, .i1⟩
  | 30 => ⟨S_, .f32⟩
  | 31 => ⟨S_, .f32⟩
  | 32 => ⟨S4096x3072, .f32⟩
  | 33 => ⟨S4096x3072, .f32⟩
  | 34 => ⟨S4096x3072, .f32⟩
  | 35 => ⟨S_, .i32⟩
  | 36 => ⟨S4096x3072, .i32⟩
  | 37 => ⟨S4096x3072, .i32⟩
  | 38 => ⟨S_, .i32⟩
  | 39 => ⟨S4096x3072, .i32⟩
  | 40 => ⟨S4096x3072, .i1⟩
  | 41 => ⟨S_, .i32⟩
  | 42 => ⟨S4096x3072, .i32⟩
  | 43 => ⟨S4096x3072, .i32⟩
  | 44 => ⟨S4096x3072, .i32⟩
  | 45 => ⟨S4096x3072x1, .i32⟩
  | 46 => ⟨S4096x3072, .f32⟩
  | 47 => ⟨S4096x3072, .f32⟩
  | 48 => ⟨S4096x3072, .f32⟩
  | 49 => ⟨S4096x96, .f32⟩
  | 50 => ⟨S_, .f32⟩
  | 51 => ⟨S4096x96, .f32⟩
  | 52 => ⟨S4096x96, .f32⟩
  | 53 => ⟨S_, .f32⟩
  | 54 => ⟨S4096x96, .f32⟩
  | 55 => ⟨S4096x96, .f32⟩
  | 56 => ⟨S4096x96, .f32⟩
  | 57 => ⟨S4096x96x32, .f32⟩
  | 58 => ⟨S4096x96x1, .f32⟩
  | 59 => ⟨S4096x96x32, .f32⟩
  | 60 => ⟨S4096x96x32, .f32⟩
  | 61 => ⟨S4096x3072, .f32⟩
  | 62 => ⟨S4096x96, .i32⟩
  | 63 => ⟨S_, .i32⟩
  | 64 => ⟨S4096x1536, .i32⟩
  | 65 => ⟨S4096x1536, .i32⟩
  | 66 => ⟨S_, .i32⟩
  | 67 => ⟨S4096x1536, .i32⟩
  | 68 => ⟨S4096x1536, .i32⟩
  | 69 => ⟨S_, .i32⟩
  | 70 => ⟨S4096x1536, .i32⟩
  | 71 => ⟨S4096x1536, .i32⟩
  | 72 => ⟨S4096x1536x1, .i32⟩
  | 73 => ⟨S4096x1536x1, .i32⟩
  | 74 => ⟨S4096x1536x2, .i32⟩
  | 75 => ⟨S4096x3072, .i32⟩
  | 76 => ⟨S_, .i32⟩
  | 77 => ⟨S4096x3072, .i32⟩
  | 78 => ⟨S4096x3072, .i1⟩
  | 79 => ⟨S_, .f32⟩
  | 80 => ⟨S_, .f32⟩
  | 81 => ⟨S4096x3072, .f32⟩
  | 82 => ⟨S4096x3072, .f32⟩
  | 83 => ⟨S4096x3072, .f32⟩
  | 84 => ⟨S_, .i32⟩
  | 85 => ⟨S4096x3072, .i32⟩
  | 86 => ⟨S4096x3072, .i32⟩
  | 87 => ⟨S_, .i32⟩
  | 88 => ⟨S4096x3072, .i32⟩
  | 89 => ⟨S4096x3072, .i1⟩
  | 90 => ⟨S_, .i32⟩
  | 91 => ⟨S4096x3072, .i32⟩
  | 92 => ⟨S4096x3072, .i32⟩
  | 93 => ⟨S4096x3072, .i32⟩
  | 94 => ⟨S4096x3072x1, .i32⟩
  | 95 => ⟨S4096x3072, .f32⟩
  | 96 => ⟨S4096x3072, .f32⟩
  | 97 => ⟨S4096x3072, .f32⟩
  | 98 => ⟨S4096x96, .f32⟩
  | 99 => ⟨S_, .f32⟩
  | 100 => ⟨S4096x96, .f32⟩
  | 101 => ⟨S4096x96, .f32⟩
  | 102 => ⟨S_, .f32⟩
  | 103 => ⟨S4096x96, .f32⟩
  | 104 => ⟨S4096x96, .f32⟩
  | 105 => ⟨S4096x96, .f32⟩
  | 106 => ⟨S4096x96x32, .f32⟩
  | 107 => ⟨S4096x96x1, .f32⟩
  | 108 => ⟨S4096x96x32, .f32⟩
  | 109 => ⟨S4096x96x32, .f32⟩
  | 110 => ⟨S4096x3072, .f32⟩
  | 111 => ⟨S4096x192x3, .i32⟩
  | 112 => ⟨S4096x192x1, .i32⟩
  | 113 => ⟨S4096x192, .i32⟩
  | 114 => ⟨S4096x192x1, .i32⟩
  | 115 => ⟨S4096x192, .i32⟩
  | 116 => ⟨S4096x192x1, .i32⟩
  | 117 => ⟨S4096x192, .i32⟩
  | 118 => ⟨S_, .i32⟩
  | 119 => ⟨S4096x192, .i32⟩
  | 120 => ⟨S4096x192, .i32⟩
  | 121 => ⟨S_, .i32⟩
  | 122 => ⟨S4096x192, .i32⟩
  | 123 => ⟨S4096x192, .i32⟩
  | 124 => ⟨S_, .i32⟩
  | 125 => ⟨S4096x192, .i32⟩
  | 126 => ⟨S4096x192, .i32⟩
  | 127 => ⟨S_, .i32⟩
  | _ => ⟨S4096x1536, .i32⟩

abbrev hbmTy0_1 (i : Nat) : BufTy := match i % 128 with
  | 0 => ⟨S4096x192, .i32⟩
  | 1 => ⟨S4096x192, .i32⟩
  | 2 => ⟨S_, .i32⟩
  | 3 => ⟨S4096x192, .i32⟩
  | 4 => ⟨S4096x192, .i32⟩
  | 5 => ⟨S4096x192, .i32⟩
  | 6 => ⟨S_, .i32⟩
  | 7 => ⟨S4096x192, .i32⟩
  | 8 => ⟨S4096x192, .i32⟩
  | 9 => ⟨S_, .i32⟩
  | 10 => ⟨S4096x192, .i32⟩
  | 11 => ⟨S4096x192, .i32⟩
  | 12 => ⟨S_, .i32⟩
  | 13 => ⟨S4096x192, .i32⟩
  | 14 => ⟨S4096x192, .i32⟩
  | 15 => ⟨S_, .i32⟩
  | 16 => ⟨S4096x192, .i32⟩
  | 17 => ⟨S4096x192, .i32⟩
  | 18 => ⟨S4096x192, .i32⟩
  | 19 => ⟨S_, .i32⟩
  | 20 => ⟨S4096x192, .i32⟩
  | 21 => ⟨S4096x192, .i32⟩
  | 22 => ⟨S_, .i32⟩
  | 23 => ⟨S4096x192, .i32⟩
  | 24 => ⟨S4096x192, .i32⟩
  | 25 => ⟨S4096x192x1, .i32⟩
  | 26 => ⟨S4096x192x1, .i32⟩
  | 27 => ⟨S4096x192x1, .i32⟩
  | 28 => ⟨S4096x192x1, .i32⟩
  | 29 => ⟨S4096x192x4, .i32⟩
  | 30 => ⟨S4096x768, .i32⟩
  | 31 => ⟨S_, .i32⟩
  | 32 => ⟨S4096x768, .i32⟩
  | 33 => ⟨S4096x768, .i1⟩
  | 34 => ⟨S_, .f32⟩
  | 35 => ⟨S_, .f32⟩
  | 36 => ⟨S4096x768, .f32⟩
  | 37 => ⟨S4096x768, .f32⟩
  | 38 => ⟨S4096x768, .f32⟩
  | 39 => ⟨S_, .i32⟩
  | 40 => ⟨S4096x768, .i32⟩
  | 41 => ⟨S4096x768, .i32⟩
  | 42 => ⟨S_, .i32⟩
  | 43 => ⟨S4096x768, .i32⟩
  | 44 => ⟨S4096x768, .i32⟩
  | 45 => ⟨S4096x768, .f32⟩
  | 46 => ⟨S_, .i32⟩
  | 47 => ⟨S4096x768, .i32⟩
  | 48 => ⟨S4096x768, .i32⟩
  | 49 => ⟨S4096x768, .f32⟩
  | 50 => ⟨S_, .f32⟩
  | 51 => ⟨S4096x768, .f32⟩
  | 52 => ⟨S4096x768, .i1⟩
  | 53 => ⟨S_, .f32⟩
  | 54 => ⟨S4096x768, .f32⟩
  | 55 => ⟨S4096x768, .f32⟩
  | 56 => ⟨S_, .f32⟩
  | 57 => ⟨S4096x768, .f32⟩
  | 58 => ⟨S4096x768, .f32⟩
  | 59 => ⟨S_, .f32⟩
  | 60 => ⟨S4096x768, .f32⟩
  | 61 => ⟨S4096x768, .f32⟩
  | 62 => ⟨S_, .f32⟩
  | 63 => ⟨S4096x768, .f32⟩
  | 64 => ⟨S4096x768, .f32⟩
  | 65 => ⟨S_, .f32⟩
  | 66 => ⟨S4096x768, .f32⟩
  | 67 => ⟨S4096x768, .f32⟩
  | 68 => ⟨S_, .f32⟩
  | 69 => ⟨S4096x768, .f32⟩
  | 70 => ⟨S4096x768, .f32⟩
  | 71 => ⟨S4096x768, .f32⟩
  | 72 => ⟨S4096x768, .f32⟩
  | 73 => ⟨S4096x768, .f32⟩
  | 74 => ⟨S4096x768, .f32⟩
  | 75 => ⟨S4096x768, .f32⟩
  | 76 => ⟨S4096x24, .f32⟩
  | 77 => ⟨S_, .f32⟩
  | 78 => ⟨S4096x24, .f32⟩
  | 79 => ⟨S4096x24, .f32⟩
  | 80 => ⟨S_, .f32⟩
  | 81 => ⟨S4096x24, .f32⟩
  | 82 => ⟨S4096x24, .f32⟩
  | 83 => ⟨S4096x24, .f32⟩
  | 84 => ⟨S4096x24x32, .f32⟩
  | 85 => ⟨S4096x24x1, .f32⟩
  | 86 => ⟨S4096x24x32, .f32⟩
  | 87 => ⟨S4096x24x32, .f32⟩
  | 88 => ⟨S4096x768, .f32⟩
  | 89 => ⟨S4096x24, .i32⟩
  | 90 => ⟨S4096x192x3, .i32⟩
  | 91 => ⟨S4096x192x1, .i32⟩
  | 92 => ⟨S4096x192, .i32⟩
  | 93 => ⟨S4096x192x1, .i32⟩
  | 94 => ⟨S4096x192, .i32⟩
  | 95 => ⟨S4096x192x1, .i32⟩
  | 96 => ⟨S4096x192, .i32⟩
  | 97 => ⟨S_, .i32⟩
  | 98 => ⟨S4096x192, .i32⟩
  | 99 => ⟨S4096x192, .i32⟩
  | 100 => ⟨S_, .i32⟩
  | 101 => ⟨S4096x192, .i32⟩
  | 102 => ⟨S4096x192, .i32⟩
  | 103 => ⟨S_, .i32⟩
  | 104 => ⟨S4096x192, .i32⟩
  | 105 => ⟨S4096x192, .i32⟩
  | 106 => ⟨S_, .i32⟩
  | 107 => ⟨S4096x192, .i32⟩
  | 108 => ⟨S4096x192, .i32⟩
  | 109 => ⟨S_, .i32⟩
  | 110 => ⟨S4096x192, .i32⟩
  | 111 => ⟨S4096x192, .i32⟩
  | 112 => ⟨S4096x192, .i32⟩
  | 113 => ⟨S_, .i32⟩
  | 114 => ⟨S4096x192, .i32⟩
  | 115 => ⟨S4096x192, .i32⟩
  | 116 => ⟨S_, .i32⟩
  | 117 => ⟨S4096x192, .i32⟩
  | 118 => ⟨S4096x192, .i32⟩
  | 119 => ⟨S_, .i32⟩
  | 120 => ⟨S4096x192, .i32⟩
  | 121 => ⟨S4096x192, .i32⟩
  | 122 => ⟨S_, .i32⟩
  | 123 => ⟨S4096x192, .i32⟩
  | 124 => ⟨S4096x192, .i32⟩
  | 125 => ⟨S4096x192, .i32⟩
  | 126 => ⟨S_, .i32⟩
  | 127 => ⟨S4096x192, .i32⟩
  | _ => ⟨S4096x1536, .i32⟩

abbrev hbmTy0_2 (i : Nat) : BufTy := match i % 128 with
  | 0 => ⟨S4096x192, .i32⟩
  | 1 => ⟨S_, .i32⟩
  | 2 => ⟨S4096x192, .i32⟩
  | 3 => ⟨S4096x192, .i32⟩
  | 4 => ⟨S4096x192x1, .i32⟩
  | 5 => ⟨S4096x192x1, .i32⟩
  | 6 => ⟨S4096x192x1, .i32⟩
  | 7 => ⟨S4096x192x1, .i32⟩
  | 8 => ⟨S4096x192x4, .i32⟩
  | 9 => ⟨S4096x768, .i32⟩
  | 10 => ⟨S_, .i32⟩
  | 11 => ⟨S4096x768, .i32⟩
  | 12 => ⟨S4096x768, .i1⟩
  | 13 => ⟨S_, .f32⟩
  | 14 => ⟨S_, .f32⟩
  | 15 => ⟨S4096x768, .f32⟩
  | 16 => ⟨S4096x768, .f32⟩
  | 17 => ⟨S4096x768, .f32⟩
  | 18 => ⟨S_, .i32⟩
  | 19 => ⟨S4096x768, .i32⟩
  | 20 => ⟨S4096x768, .i32⟩
  | 21 => ⟨S_, .i32⟩
  | 22 => ⟨S4096x768, .i32⟩
  | 23 => ⟨S4096x768, .i32⟩
  | 24 => ⟨S4096x768, .f32⟩
  | 25 => ⟨S_, .i32⟩
  | 26 => ⟨S4096x768, .i32⟩
  | 27 => ⟨S4096x768, .i32⟩
  | 28 => ⟨S4096x768, .f32⟩
  | 29 => ⟨S_, .f32⟩
  | 30 => ⟨S4096x768, .f32⟩
  | 31 => ⟨S4096x768, .i1⟩
  | 32 => ⟨S_, .f32⟩
  | 33 => ⟨S4096x768, .f32⟩
  | 34 => ⟨S4096x768, .f32⟩
  | 35 => ⟨S_, .f32⟩
  | 36 => ⟨S4096x768, .f32⟩
  | 37 => ⟨S4096x768, .f32⟩
  | 38 => ⟨S_, .f32⟩
  | 39 => ⟨S4096x768, .f32⟩
  | 40 => ⟨S4096x768, .f32⟩
  | 41 => ⟨S_, .f32⟩
  | 42 => ⟨S4096x768, .f32⟩
  | 43 => ⟨S4096x768, .f32⟩
  | 44 => ⟨S_, .f32⟩
  | 45 => ⟨S4096x768, .f32⟩
  | 46 => ⟨S4096x768, .f32⟩
  | 47 => ⟨S_, .f32⟩
  | 48 => ⟨S4096x768, .f32⟩
  | 49 => ⟨S4096x768, .f32⟩
  | 50 => ⟨S4096x768, .f32⟩
  | 51 => ⟨S4096x768, .f32⟩
  | 52 => ⟨S4096x768, .f32⟩
  | 53 => ⟨S4096x768, .f32⟩
  | 54 => ⟨S4096x768, .f32⟩
  | 55 => ⟨S4096x24, .f32⟩
  | 56 => ⟨S_, .f32⟩
  | 57 => ⟨S4096x24, .f32⟩
  | 58 => ⟨S4096x24, .f32⟩
  | 59 => ⟨S_, .f32⟩
  | 60 => ⟨S4096x24, .f32⟩
  | 61 => ⟨S4096x24, .f32⟩
  | 62 => ⟨S4096x24, .f32⟩
  | 63 => ⟨S4096x24x32, .f32⟩
  | 64 => ⟨S4096x24x1, .f32⟩
  | 65 => ⟨S4096x24x32, .f32⟩
  | 66 => ⟨S4096x24x32, .f32⟩
  | 67 => ⟨S4096x768, .f32⟩
  | 68 => ⟨S_, .i32⟩
  | 69 => ⟨S4096x256, .i32⟩
  | 70 => ⟨S4096x256, .i1⟩
  | 71 => ⟨S_, .f32⟩
  | 72 => ⟨S_, .f32⟩
  | 73 => ⟨S4096x256, .f32⟩
  | 74 => ⟨S4096x256, .f32⟩
  | 75 => ⟨S4096x256, .f32⟩
  | 76 => ⟨S_, .i32⟩
  | 77 => ⟨S4096x256, .i32⟩
  | 78 => ⟨S4096x256, .i32⟩
  | 79 => ⟨S_, .i32⟩
  | 80 => ⟨S4096x256, .i32⟩
  | 81 => ⟨S4096x256, .i32⟩
  | 82 => ⟨S4096x256, .f32⟩
  | 83 => ⟨S_, .i32⟩
  | 84 => ⟨S4096x256, .i32⟩
  | 85 => ⟨S4096x256, .i32⟩
  | 86 => ⟨S4096x256, .f32⟩
  | 87 => ⟨S_, .f32⟩
  | 88 => ⟨S4096x256, .f32⟩
  | 89 => ⟨S4096x256, .i1⟩
  | 90 => ⟨S_, .f32⟩
  | 91 => ⟨S4096x256, .f32⟩
  | 92 => ⟨S4096x256, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4096x256, .f32⟩
  | 100 => ⟨S4096x256, .f32⟩
  | 101 => ⟨S_, .f32⟩
  | 102 => ⟨S4096x256, .f32⟩
  | 103 => ⟨S4096x256, .f32⟩
  | 104 => ⟨S_, .f32⟩
  | 105 => ⟨S4096x256, .f32⟩
  | 106 => ⟨S4096x256, .f32⟩
  | 107 => ⟨S_, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S4096x256, .f32⟩
  | 114 => ⟨S4096x256, .f32⟩
  | 115 => ⟨S4096x256, .f32⟩
  | 116 => ⟨S4096x256, .f32⟩
  | 117 => ⟨S4096x256, .f32⟩
  | 118 => ⟨S4096x8, .f32⟩
  | 119 => ⟨S_, .f32⟩
  | 120 => ⟨S4096x8, .f32⟩
  | 121 => ⟨S4096x8, .f32⟩
  | 122 => ⟨S_, .f32⟩
  | 123 => ⟨S4096x8, .f32⟩
  | 124 => ⟨S4096x8, .f32⟩
  | 125 => ⟨S4096x8, .f32⟩
  | 126 => ⟨S4096x8x32, .f32⟩
  | 127 => ⟨S4096x8x1, .f32⟩
  | _ => ⟨S4096x1536, .i32⟩

abbrev hbmTy0_3 (i : Nat) : BufTy := match i % 128 with
  | 0 => ⟨S4096x8x32, .f32⟩
  | 1 => ⟨S4096x8x32, .f32⟩
  | 2 => ⟨S4096x256, .f32⟩
  | 3 => ⟨S4096x8, .i32⟩
  | 4 => ⟨S_, .i32⟩
  | 5 => ⟨S4096x256, .i32⟩
  | 6 => ⟨S4096x256, .i1⟩
  | 7 => ⟨S_, .f32⟩
  | 8 => ⟨S_, .f32⟩
  | 9 => ⟨S4096x256, .f32⟩
  | 10 => ⟨S4096x256, .f32⟩
  | 11 => ⟨S4096x256, .f32⟩
  | 12 => ⟨S_, .i32⟩
  | 13 => ⟨S4096x256, .i32⟩
  | 14 => ⟨S4096x256, .i32⟩
  | 15 => ⟨S_, .i32⟩
  | 16 => ⟨S4096x256, .i32⟩
  | 17 => ⟨S4096x256, .i32⟩
  | 18 => ⟨S4096x256, .f32⟩
  | 19 => ⟨S_, .i32⟩
  | 20 => ⟨S4096x256, .i32⟩
  | 21 => ⟨S4096x256, .i32⟩
  | 22 => ⟨S4096x256, .f32⟩
  | 23 => ⟨S_, .f32⟩
  | 24 => ⟨S4096x256, .f32⟩
  | 25 => ⟨S4096x256, .i1⟩
  | 26 => ⟨S_, .f32⟩
  | 27 => ⟨S4096x256, .f32⟩
  | 28 => ⟨S4096x256, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4096x256, .f32⟩
  | 36 => ⟨S4096x256, .f32⟩
  | 37 => ⟨S_, .f32⟩
  | 38 => ⟨S4096x256, .f32⟩
  | 39 => ⟨S4096x256, .f32⟩
  | 40 => ⟨S_, .f32⟩
  | 41 => ⟨S4096x256, .f32⟩
  | 42 => ⟨S4096x256, .f32⟩
  | 43 => ⟨S_, .f32⟩
  | 44 => ⟨S4096x256, .f32⟩
  | 45 => ⟨S4096x256, .f32⟩
  | 46 => ⟨S_, .f32⟩
  | 47 => ⟨S4096x256, .f32⟩
  | 48 => ⟨S4096x256, .f32⟩
  | 49 => ⟨S4096x256, .f32⟩
  | 50 => ⟨S4096x256, .f32⟩
  | 51 => ⟨S4096x256, .f32⟩
  | 52 => ⟨S4096x256, .f32⟩
  | 53 => ⟨S4096x256, .f32⟩
  | 54 => ⟨S4096x8, .f32⟩
  | 55 => ⟨S_, .f32⟩
  | 56 => ⟨S4096x8, .f32⟩
  | 57 => ⟨S4096x8, .f32⟩
  | 58 => ⟨S_, .f32⟩
  | 59 => ⟨S4096x8, .f32⟩
  | 60 => ⟨S4096x8, .f32⟩
  | 61 => ⟨S4096x8, .f32⟩
  | 62 => ⟨S4096x8x32, .f32⟩
  | 63 => ⟨S4096x8x1, .f32⟩
  | 64 => ⟨S4096x8x32, .f32⟩
  | 65 => ⟨S4096x8x32, .f32⟩
  | 66 => ⟨S4096x256, .f32⟩
  | 67 => ⟨S3072x4096, .f32⟩
  | 68 => ⟨S4096x4096, .f32⟩
  | 69 => ⟨S768x4096, .f32⟩
  | 70 => ⟨S4096x4096, .f32⟩
  | 71 => ⟨S4096x4096, .f32⟩
  | 72 => ⟨S256x4096, .f32⟩
  | 73 => ⟨S4096x4096, .f32⟩
  | 74 => ⟨S4096x4096, .f32⟩
  | 75 => ⟨S1x4096, .f32⟩
  | 76 => ⟨S4096x4096, .f32⟩
  | 77 => ⟨S4096x4096, .f32⟩
  | _ => ⟨S4096x1536, .i32⟩

abbrev hbmTy (i : Nat) : BufTy := match i / 128 with
  | 0 => hbmTy0_0 i
  | 1 => hbmTy0_1 i
  | 2 => hbmTy0_2 i
  | 3 => hbmTy0_3 i
  | _ => ⟨S4096x1536, .i32⟩

abbrev bufTy : (tb : Table) → Fin (tcTables nBuf tb) → BufTy
  | .hbm, ⟨i, _⟩ => hbmTy i
  | _, _ => ⟨S4096x1536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_c_5 : Ref sig .tc := ⟨.hbm, 35, rfl⟩
abbrev main_v13 : Ref sig .tc := ⟨.hbm, 36, rfl⟩
abbrev main_v14 : Ref sig .tc := ⟨.hbm, 37, rfl⟩
abbrev main_c_6 : Ref sig .tc := ⟨.hbm, 38, rfl⟩
abbrev main_v15 : Ref sig .tc := ⟨.hbm, 39, rfl⟩
abbrev main_v16 : Ref sig .tc := ⟨.hbm, 40, rfl⟩
abbrev main_c_7 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_v36 : Ref sig .tc := ⟨.hbm, 64, rfl⟩
abbrev main_v37 : Ref sig .tc := ⟨.hbm, 65, rfl⟩
abbrev main_c_11 : Ref sig .tc := ⟨.hbm, 66, rfl⟩
abbrev main_v38 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_13 : Ref sig .tc := ⟨.hbm, 76, rfl⟩
abbrev main_v46 : Ref sig .tc := ⟨.hbm, 77, rfl⟩
abbrev main_v47 : Ref sig .tc := ⟨.hbm, 78, rfl⟩
abbrev main_cst_14 : Ref sig .tc := ⟨.hbm, 79, rfl⟩
abbrev main_cst_15 : Ref sig .tc := ⟨.hbm, 80, rfl⟩
abbrev main_call1_v0 : Ref sig .tc := ⟨.hbm, 81, rfl⟩
abbrev main_call1_v1 : Ref sig .tc := ⟨.hbm, 82, rfl⟩
abbrev main_v48 : Ref sig .tc := ⟨.hbm, 83, rfl⟩
abbrev main_c_16 : Ref sig .tc := ⟨.hbm, 84, rfl⟩
abbrev main_v49 : Ref sig .tc := ⟨.hbm, 85, rfl⟩
abbrev main_v50 : Ref sig .tc := ⟨.hbm, 86, rfl⟩
abbrev main_c_17 : Ref sig .tc := ⟨.hbm, 87, rfl⟩
abbrev main_v51 : Ref sig .tc := ⟨.hbm, 88, rfl⟩
abbrev main_v52 : Ref sig .tc := ⟨.hbm, 89, rfl⟩
abbrev main_c_18 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_19 : Ref sig .tc := ⟨.hbm, 99, rfl⟩
abbrev main_v61 : Ref sig .tc := ⟨.hbm, 100, rfl⟩
abbrev main_v62 : Ref sig .tc := ⟨.hbm, 101, rfl⟩
abbrev main_cst_20 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_c_21 : Ref sig .tc := ⟨.hbm, 118, rfl⟩
abbrev main_v78 : Ref sig .tc := ⟨.hbm, 119, rfl⟩
abbrev main_v79 : Ref sig .tc := ⟨.hbm, 120, rfl⟩
abbrev main_c_22 : Ref sig .tc := ⟨.hbm, 121, rfl⟩
abbrev main_v80 : Ref sig .tc := ⟨.hbm, 122, rfl⟩
abbrev main_v81 : Ref sig .tc := ⟨.hbm, 123, rfl⟩
abbrev main_c_23 : Ref sig .tc := ⟨.hbm, 124, rfl⟩
abbrev main_v82 : Ref sig .tc := ⟨.hbm, 125, rfl⟩
abbrev main_v83 : Ref sig .tc := ⟨.hbm, 126, rfl⟩
abbrev main_c_24 : Ref sig .tc := ⟨.hbm, 127, rfl⟩
abbrev main_v84 : Ref sig .tc := ⟨.hbm, 128, rfl⟩
abbrev main_v85 : Ref sig .tc := ⟨.hbm, 129, rfl⟩
abbrev main_c_25 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_26 : Ref sig .tc := ⟨.hbm, 134, rfl⟩
abbrev main_v89 : Ref sig .tc := ⟨.hbm, 135, rfl⟩
abbrev main_v90 : Ref sig .tc := ⟨.hbm, 136, rfl⟩
abbrev main_c_27 : Ref sig .tc := ⟨.hbm, 137, rfl⟩
abbrev main_v91 : Ref sig .tc := ⟨.hbm, 138, rfl⟩
abbrev main_v92 : Ref sig .tc := ⟨.hbm, 139, rfl⟩
abbrev main_c_28 : Ref sig .tc := ⟨.hbm, 140, rfl⟩
abbrev main_v93 : Ref sig .tc := ⟨.hbm, 141, rfl⟩
abbrev main_v94 : Ref sig .tc := ⟨.hbm, 142, rfl⟩
abbrev main_c_29 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_c_30 : Ref sig .tc := ⟨.hbm, 147, rfl⟩
abbrev main_v98 : Ref sig .tc := ⟨.hbm, 148, rfl⟩
abbrev main_v99 : Ref sig .tc := ⟨.hbm, 149, rfl⟩
abbrev main_c_31 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_32 : Ref sig .tc := ⟨.hbm, 159, rfl⟩
abbrev main_v108 : Ref sig .tc := ⟨.hbm, 160, rfl⟩
abbrev main_v109 : Ref sig .tc := ⟨.hbm, 161, rfl⟩
abbrev main_cst_33 : Ref sig .tc := ⟨.hbm, 162, rfl⟩
abbrev main_cst_34 : Ref sig .tc := ⟨.hbm, 163, rfl⟩
abbrev main_call2_v0 : Ref sig .tc := ⟨.hbm, 164, rfl⟩
abbrev main_call2_v1 : Ref sig .tc := ⟨.hbm, 165, rfl⟩
abbrev main_v110 : Ref sig .tc := ⟨.hbm, 166, rfl⟩
abbrev main_c_35 : Ref sig .tc := ⟨.hbm, 167, rfl⟩
abbrev main_v111 : Ref sig .tc := ⟨.hbm, 168, rfl⟩
abbrev main_v112 : Ref sig .tc := ⟨.hbm, 169, rfl⟩
abbrev main_c_36 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_37 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_38 : Ref sig .tc := ⟨.hbm, 178, rfl⟩
abbrev main_v119 : Ref sig .tc := ⟨.hbm, 179, rfl⟩
abbrev main_v120 : Ref sig .tc := ⟨.hbm, 180, rfl⟩
abbrev main_cst_39 : Ref sig .tc := ⟨.hbm, 181, rfl⟩
abbrev main_v121 : Ref sig .tc := ⟨.hbm, 182, rfl⟩
abbrev main_v122 : Ref sig .tc := ⟨.hbm, 183, rfl⟩
abbrev main_cst_40 : Ref sig .tc := ⟨.hbm, 184, rfl⟩
abbrev main_v123 : Ref sig .tc := ⟨.hbm, 185, rfl⟩
abbrev main_v124 : Ref sig .tc := ⟨.hbm, 186, rfl⟩
abbrev main_cst_41 : Ref sig .tc := ⟨.hbm, 187, rfl⟩
abbrev main_v125 : Ref sig .tc := ⟨.hbm, 188, rfl⟩
abbrev main_v126 : Ref sig .tc := ⟨.hbm, 189, rfl⟩
abbrev main_cst_42 : Ref sig .tc := ⟨.hbm, 190, rfl⟩
abbrev main_v127 : Ref sig .tc := ⟨.hbm, 191, rfl⟩
abbrev main_v128 : Ref sig .tc := ⟨.hbm, 192, rfl⟩
abbrev main_cst_43 : Ref sig .tc := ⟨.hbm, 193, rfl⟩
abbrev main_v129 : Ref sig .tc := ⟨.hbm, 194, rfl⟩
abbrev main_v130 : Ref sig .tc := ⟨.hbm, 195, rfl⟩
abbrev main_cst_44 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_45 : Ref sig .tc := ⟨.hbm, 205, rfl⟩
abbrev main_v139 : Ref sig .tc := ⟨.hbm, 206, rfl⟩
abbrev main_v140 : Ref sig .tc := ⟨.hbm, 207, rfl⟩
abbrev main_cst_46 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_c_47 : Ref sig .tc := ⟨.hbm, 225, rfl⟩
abbrev main_v157 : Ref sig .tc := ⟨.hbm, 226, rfl⟩
abbrev main_v158 : Ref sig .tc := ⟨.hbm, 227, rfl⟩
abbrev main_c_48 : Ref sig .tc := ⟨.hbm, 228, rfl⟩
abbrev main_v159 : Ref sig .tc := ⟨.hbm, 229, rfl⟩
abbrev main_v160 : Ref sig .tc := ⟨.hbm, 230, rfl⟩
abbrev main_c_49 : Ref sig .tc := ⟨.hbm, 231, rfl⟩
abbrev main_v161 : Ref sig .tc := ⟨.hbm, 232, rfl⟩
abbrev main_v162 : Ref sig .tc := ⟨.hbm, 233, rfl⟩
abbrev main_c_50 : Ref sig .tc := ⟨.hbm, 234, rfl⟩
abbrev main_v163 : Ref sig .tc := ⟨.hbm, 235, rfl⟩
abbrev main_v164 : Ref sig .tc := ⟨.hbm, 236, rfl⟩
abbrev main_c_51 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_c_52 : Ref sig .tc := ⟨.hbm, 241, rfl⟩
abbrev main_v168 : Ref sig .tc := ⟨.hbm, 242, rfl⟩
abbrev main_v169 : Ref sig .tc := ⟨.hbm, 243, rfl⟩
abbrev main_c_53 : Ref sig .tc := ⟨.hbm, 244, rfl⟩
abbrev main_v170 : Ref sig .tc := ⟨.hbm, 245, rfl⟩
abbrev main_v171 : Ref sig .tc := ⟨.hbm, 246, rfl⟩
abbrev main_c_54 : Ref sig .tc := ⟨.hbm, 247, rfl⟩
abbrev main_v172 : Ref sig .tc := ⟨.hbm, 248, rfl⟩
abbrev main_v173 : Ref sig .tc := ⟨.hbm, 249, rfl⟩
abbrev main_c_55 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_c_56 : Ref sig .tc := ⟨.hbm, 254, rfl⟩
abbrev main_v177 : Ref sig .tc := ⟨.hbm, 255, rfl⟩
abbrev main_v178 : Ref sig .tc := ⟨.hbm, 256, rfl⟩
abbrev main_c_57 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_c_58 : Ref sig .tc := ⟨.hbm, 266, rfl⟩
abbrev main_v187 : Ref sig .tc := ⟨.hbm, 267, rfl⟩
abbrev main_v188 : Ref sig .tc := ⟨.hbm, 268, rfl⟩
abbrev main_cst_59 : Ref sig .tc := ⟨.hbm, 269, rfl⟩
abbrev main_cst_60 : Ref sig .tc := ⟨.hbm, 270, rfl⟩
abbrev main_call4_v0 : Ref sig .tc := ⟨.hbm, 271, rfl⟩
abbrev main_call4_v1 : Ref sig .tc := ⟨.hbm, 272, rfl⟩
abbrev main_v189 : Ref sig .tc := ⟨.hbm, 273, rfl⟩
abbrev main_c_61 : Ref sig .tc := ⟨.hbm, 274, rfl⟩
abbrev main_v190 : Ref sig .tc := ⟨.hbm, 275, rfl⟩
abbrev main_v191 : Ref sig .tc := ⟨.hbm, 276, rfl⟩
abbrev main_c_62 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_c_63 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_cst_64 : Ref sig .tc := ⟨.hbm, 285, rfl⟩
abbrev main_v198 : Ref sig .tc := ⟨.hbm, 286, rfl⟩
abbrev main_v199 : Ref sig .tc := ⟨.hbm, 287, rfl⟩
abbrev main_cst_65 : Ref sig .tc := ⟨.hbm, 288, rfl⟩
abbrev main_v200 : Ref sig .tc := ⟨.hbm, 289, rfl⟩
abbrev main_v201 : Ref sig .tc := ⟨.hbm, 290, rfl⟩
abbrev main_cst_66 : Ref sig .tc := ⟨.hbm, 291, rfl⟩
abbrev main_v202 : Ref sig .tc := ⟨.hbm, 292, rfl⟩
abbrev main_v203 : Ref sig .tc := ⟨.hbm, 293, rfl⟩
abbrev main_cst_67 : Ref sig .tc := ⟨.hbm, 294, rfl⟩
abbrev main_v204 : Ref sig .tc := ⟨.hbm, 295, rfl⟩
abbrev main_v205 : Ref sig .tc := ⟨.hbm, 296, rfl⟩
abbrev main_cst_68 : Ref sig .tc := ⟨.hbm, 297, rfl⟩
abbrev main_v206 : Ref sig .tc := ⟨.hbm, 298, rfl⟩
abbrev main_v207 : Ref sig .tc := ⟨.hbm, 299, rfl⟩
abbrev main_cst_69 : Ref sig .tc := ⟨.hbm, 300, rfl⟩
abbrev main_v208 : Ref sig .tc := ⟨.hbm, 301, rfl⟩
abbrev main_v209 : Ref sig .tc := ⟨.hbm, 302, rfl⟩
abbrev main_cst_70 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_cst_71 : Ref sig .tc := ⟨.hbm, 312, rfl⟩
abbrev main_v218 : Ref sig .tc := ⟨.hbm, 313, rfl⟩
abbrev main_v219 : Ref sig .tc := ⟨.hbm, 314, rfl⟩
abbrev main_cst_72 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_c_73 : Ref sig .tc := ⟨.hbm, 324, rfl⟩
abbrev main_v228 : Ref sig .tc := ⟨.hbm, 325, rfl⟩
abbrev main_v229 : Ref sig .tc := ⟨.hbm, 326, rfl⟩
abbrev main_cst_74 : Ref sig .tc := ⟨.hbm, 327, rfl⟩
abbrev main_cst_75 : Ref sig .tc := ⟨.hbm, 328, rfl⟩
abbrev main_call6_v0 : Ref sig .tc := ⟨.hbm, 329, rfl⟩
abbrev main_call6_v1 : Ref sig .tc := ⟨.hbm, 330, rfl⟩
abbrev main_v230 : Ref sig .tc := ⟨.hbm, 331, rfl⟩
abbrev main_c_76 : Ref sig .tc := ⟨.hbm, 332, rfl⟩
abbrev main_v231 : Ref sig .tc := ⟨.hbm, 333, rfl⟩
abbrev main_v232 : Ref sig .tc := ⟨.hbm, 334, rfl⟩
abbrev main_c_77 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_c_78 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_cst_79 : Ref sig .tc := ⟨.hbm, 343, rfl⟩
abbrev main_v239 : Ref sig .tc := ⟨.hbm, 344, rfl⟩
abbrev main_v240 : Ref sig .tc := ⟨.hbm, 345, rfl⟩
abbrev main_cst_80 : Ref sig .tc := ⟨.hbm, 346, rfl⟩
abbrev main_v241 : Ref sig .tc := ⟨.hbm, 347, rfl⟩
abbrev main_v242 : Ref sig .tc := ⟨.hbm, 348, rfl⟩
abbrev main_cst_81 : Ref sig .tc := ⟨.hbm, 349, rfl⟩
abbrev main_cst_82 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_cst_83 : Ref sig .tc := ⟨.hbm, 357, rfl⟩
abbrev main_v249 : Ref sig .tc := ⟨.hbm, 358, rfl⟩
abbrev main_v250 : Ref sig .tc := ⟨.hbm, 359, rfl⟩
abbrev main_cst_84 : Ref sig .tc := ⟨.hbm, 360, rfl⟩
abbrev main_v251 : Ref sig .tc := ⟨.hbm, 361, rfl⟩
abbrev main_v252 : Ref sig .tc := ⟨.hbm, 362, rfl⟩
abbrev main_cst_85 : Ref sig .tc := ⟨.hbm, 363, rfl⟩
abbrev main_v253 : Ref sig .tc := ⟨.hbm, 364, rfl⟩
abbrev main_v254 : Ref sig .tc := ⟨.hbm, 365, rfl⟩
abbrev main_cst_86 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_cst_87 : Ref sig .tc := ⟨.hbm, 375, rfl⟩
abbrev main_v263 : Ref sig .tc := ⟨.hbm, 376, rfl⟩
abbrev main_v264 : Ref sig .tc := ⟨.hbm, 377, rfl⟩
abbrev main_cst_88 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_c_89 : Ref sig .tc := ⟨.hbm, 388, rfl⟩
abbrev main_v274 : Ref sig .tc := ⟨.hbm, 389, rfl⟩
abbrev main_v275 : Ref sig .tc := ⟨.hbm, 390, rfl⟩
abbrev main_cst_90 : Ref sig .tc := ⟨.hbm, 391, rfl⟩
abbrev main_cst_91 : Ref sig .tc := ⟨.hbm, 392, rfl⟩
abbrev main_call8_v0 : Ref sig .tc := ⟨.hbm, 393, rfl⟩
abbrev main_call8_v1 : Ref sig .tc := ⟨.hbm, 394, rfl⟩
abbrev main_v276 : Ref sig .tc := ⟨.hbm, 395, rfl⟩
abbrev main_c_92 : Ref sig .tc := ⟨.hbm, 396, rfl⟩
abbrev main_v277 : Ref sig .tc := ⟨.hbm, 397, rfl⟩
abbrev main_v278 : Ref sig .tc := ⟨.hbm, 398, rfl⟩
abbrev main_c_93 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_c_94 : Ref sig .tc := ⟨.hbm, 403, rfl⟩
abbrev main_v282 : Ref sig .tc := ⟨.hbm, 404, rfl⟩
abbrev main_v283 : Ref sig .tc := ⟨.hbm, 405, rfl⟩
abbrev main_v284 : Ref sig .tc := ⟨.hbm, 406, rfl⟩
abbrev main_cst_95 : Ref sig .tc := ⟨.hbm, 407, rfl⟩
abbrev main_v285 : Ref sig .tc := ⟨.hbm, 408, rfl⟩
abbrev main_v286 : Ref sig .tc := ⟨.hbm, 409, rfl⟩
abbrev main_cst_96 : Ref sig .tc := ⟨.hbm, 410, rfl⟩
abbrev main_v287 : Ref sig .tc := ⟨.hbm, 411, rfl⟩
abbrev main_v288 : Ref sig .tc := ⟨.hbm, 412, rfl⟩
abbrev main_cst_97 : Ref sig .tc := ⟨.hbm, 413, rfl⟩
abbrev main_cst_98 : Ref sig .tc := ⟨.hbm, 414, rfl⟩
abbrev main_v289 : Ref sig .tc := ⟨.hbm, 415, rfl⟩
abbrev main_v290 : Ref sig .tc := ⟨.hbm, 416, rfl⟩
abbrev main_v291 : Ref sig .tc := ⟨.hbm, 417, rfl⟩
abbrev main_v292 : Ref sig .tc := ⟨.hbm, 418, rfl⟩
abbrev main_v293 : Ref sig .tc := ⟨.hbm, 419, rfl⟩
abbrev main_v294 : Ref sig .tc := ⟨.hbm, 420, rfl⟩
abbrev main_cst_99 : Ref sig .tc := ⟨.hbm, 421, rfl⟩
abbrev main_v295 : Ref sig .tc := ⟨.hbm, 422, rfl⟩
abbrev main_v296 : Ref sig .tc := ⟨.hbm, 423, rfl⟩
abbrev main_cst_100 : Ref sig .tc := ⟨.hbm, 424, rfl⟩
abbrev main_v297 : Ref sig .tc := ⟨.hbm, 425, rfl⟩
abbrev main_v298 : Ref sig .tc := ⟨.hbm, 426, rfl⟩
abbrev main_cst_101 : Ref sig .tc := ⟨.hbm, 427, rfl⟩
abbrev main_v299 : Ref sig .tc := ⟨.hbm, 428, rfl⟩
abbrev main_v300 : Ref sig .tc := ⟨.hbm, 429, rfl⟩
abbrev main_cst_102 : Ref sig .tc := ⟨.hbm, 430, rfl⟩
abbrev main_v301 : Ref sig .tc := ⟨.hbm, 431, rfl⟩
abbrev main_v302 : Ref sig .tc := ⟨.hbm, 432, rfl⟩
abbrev main_v303 : Ref sig .tc := ⟨.hbm, 433, rfl⟩
abbrev main_v304 : Ref sig .tc := ⟨.hbm, 434, rfl⟩
abbrev main_v305 : Ref sig .tc := ⟨.hbm, 435, rfl⟩
abbrev main_v306 : Ref sig .tc := ⟨.hbm, 436, rfl⟩
abbrev main_v307 : Ref sig .tc := ⟨.hbm, 437, rfl⟩
abbrev main_v308 : Ref sig .tc := ⟨.hbm, 438, rfl⟩
abbrev main_cst_103 : Ref sig .tc := ⟨.hbm, 439, rfl⟩
abbrev main_v309 : Ref sig .tc := ⟨.hbm, 440, rfl⟩
abbrev main_v310 : Ref sig .tc := ⟨.hbm, 441, rfl⟩
abbrev main_cst_104 : Ref sig .tc := ⟨.hbm, 442, rfl⟩
abbrev main_v311 : Ref sig .tc := ⟨.hbm, 443, rfl⟩
abbrev main_v312 : Ref sig .tc := ⟨.hbm, 444, rfl⟩
abbrev main_v313 : Ref sig .tc := ⟨.hbm, 445, rfl⟩
abbrev main_v314 : Ref sig .tc := ⟨.hbm, 446, rfl⟩
abbrev main_v315 : Ref sig .tc := ⟨.hbm, 447, rfl⟩
abbrev main_v316 : Ref sig .tc := ⟨.hbm, 448, rfl⟩
abbrev main_v317 : Ref sig .tc := ⟨.hbm, 449, rfl⟩
abbrev main_v318 : Ref sig .tc := ⟨.hbm, 450, rfl⟩
abbrev main_v319 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_v325 : Ref sig .tc := ⟨.hbm, 457, rfl⟩
abbrev main_v326 : Ref sig .tc := ⟨.hbm, 458, rfl⟩
abbrev main_v327 : Ref sig .tc := ⟨.hbm, 459, rfl⟩
abbrev main_v328 : Ref sig .tc := ⟨.hbm, 460, rfl⟩
abbrev main_v329 : Ref sig .tc := ⟨.hbm, 461, rfl⟩

abbrev nD : Nat := 1
abbrev τ : Topo := Topo.v7x

variable {F : FTy → Type} [FloatOps F]

class Facts₀ : Prop where
  bcast_S_S4096x1536 : S_.BroadcastsInDim S4096x1536 (![] : Fin 0 → Fin S4096x1536.rank)
  bcast_S4096x1536_S4096x1536x1_0_1 : S4096x1536.BroadcastsInDim S4096x1536x1 (![0, 1] : Fin 2 → Fin S4096x1536x1.rank)
  concatenates_S4096x1536x1_S4096x1536x1_S4096x1536x2_d2 : Shape.Concatenates [S4096x1536x1, S4096x1536x1] S4096x1536x2 2
  shapeCasts_S4096x1536x2_S4096x3072 : S4096x1536x2.ShapeCasts S4096x3072
  bcast_S_S4096x3072 : S_.BroadcastsInDim S4096x3072 (![] : Fin 0 → Fin S4096x3072.rank)
  bcast_S4096x3072_S4096x3072x1_0_1 : S4096x3072.BroadcastsInDim S4096x3072x1 (![0, 1] : Fin 2 → Fin S4096x3072x1.rank)
  bcast_S_S4096x96 : S_.BroadcastsInDim S4096x96 (![] : Fin 0 → Fin S4096x96.rank)
  shapeCasts_S4096x3072_S4096x96x32 : S4096x3072.ShapeCasts S4096x96x32
  bcast_S4096x96_S4096x96x1_0_1 : S4096x96.BroadcastsInDim S4096x96x1 (![0, 1] : Fin 2 → Fin S4096x96x1.rank)
  bcast_S4096x96x1_S4096x96x32_0_1_2 : S4096x96x1.BroadcastsInDim S4096x96x32 (![0, 1, 2] : Fin 3 → Fin S4096x96x32.rank)
  shapeCasts_S4096x96x32_S4096x3072 : S4096x96x32.ShapeCasts S4096x3072
  shapeCasts_S393216_S4096x96 : S393216.ShapeCasts S4096x96
  shapeCasts_S4096x576_S4096x192x3 : S4096x576.ShapeCasts S4096x192x3
  slices_S4096x192x3_S4096x192x1_0_0_0 : S4096x192x3.Slices ![0, 0, 0] S4096x192x1
  shapeCasts_S4096x192x1_S4096x192 : S4096x192x1.ShapeCasts S4096x192
  slices_S4096x192x3_S4096x192x1_0_0_1 : S4096x192x3.Slices ![0, 0, 1] S4096x192x1
  slices_S4096x192x3_S4096x192x1_0_0_2 : S4096x192x3.Slices ![0, 0, 2] S4096x192x1
  bcast_S_S4096x192 : S_.BroadcastsInDim S4096x192 (![] : Fin 0 → Fin S4096x192.rank)
  bcast_S4096x192_S4096x192x1_0_1 : S4096x192.BroadcastsInDim S4096x192x1 (![0, 1] : Fin 2 → Fin S4096x192x1.rank)
  concatenates_S4096x192x1_S4096x192x1_S4096x192x1_S4096x192x1_S4096x192x4_d2 : Shape.Concatenates [S4096x192x1, S4096x192x1, S4096x192x1, S4096x192x1] S4096x192x4 2
  shapeCasts_S4096x192x4_S4096x768 : S4096x192x4.ShapeCasts S4096x768
  bcast_S_S4096x768 : S_.BroadcastsInDim S4096x768 (![] : Fin 0 → Fin S4096x768.rank)
  bcast_S_S4096x24 : S_.BroadcastsInDim S4096x24 (![] : Fin 0 → Fin S4096x24.rank)
  shapeCasts_S4096x768_S4096x24x32 : S4096x768.ShapeCasts S4096x24x32
  bcast_S4096x24_S4096x24x1_0_1 : S4096x24.BroadcastsInDim S4096x24x1 (![0, 1] : Fin 2 → Fin S4096x24x1.rank)
  bcast_S4096x24x1_S4096x24x32_0_1_2 : S4096x24x1.BroadcastsInDim S4096x24x32 (![0, 1, 2] : Fin 3 → Fin S4096x24x32.rank)
  shapeCasts_S4096x24x32_S4096x768 : S4096x24x32.ShapeCasts S4096x768
  shapeCasts_S98304_S4096x24 : S98304.ShapeCasts S4096x24
  bcast_S_S4096x256 : S_.BroadcastsInDim S4096x256 (![] : Fin 0 → Fin S4096x256.rank)
  bcast_S_S_ : S_.BroadcastsInDim S_ (![] : Fin 0 → Fin S_.rank)
  bcast_S_S4096x8 : S_.BroadcastsInDim S4096x8 (![] : Fin 0 → Fin S4096x8.rank)
  shapeCasts_S4096x256_S4096x8x32 : S4096x256.ShapeCasts S4096x8x32
  bcast_S4096x8_S4096x8x1_0_1 : S4096x8.BroadcastsInDim S4096x8x1 (![0, 1] : Fin 2 → Fin S4096x8x1.rank)
  bcast_S4096x8x1_S4096x8x32_0_1_2 : S4096x8x1.BroadcastsInDim S4096x8x32 (![0, 1, 2] : Fin 3 → Fin S4096x8x32.rank)
  shapeCasts_S4096x8x32_S4096x256 : S4096x8x32.ShapeCasts S4096x256
  shapeCasts_S32768_S4096x8 : S32768.ShapeCasts S4096x8
  transposes_S4096x3072_S3072x4096_1_0 : S4096x3072.Transposes [1, 0] S3072x4096
  transposes_S4096x768_S768x4096_1_0 : S4096x768.Transposes [1, 0] S768x4096
  transposes_S4096x256_S256x4096_1_0 : S4096x256.Transposes [1, 0] S256x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  gather_S8_S4096x3072x1_S4096x3072_n_0_n_n_0_2_1_wf : GatherDims.WF S8 S4096x3072x1 S4096x3072 [] [0] [] [0] [] 2 ![1]
  dot_S4096x3072_S3072x4096_S4096x4096_1_0_0_1_n_n_wf : DotDims.WF S4096x3072 S3072x4096 S4096x4096 [1] [0] [0] [1] [] []
  dot_S4096x768_S768x4096_S4096x4096_1_0_0_1_n_n_wf : DotDims.WF S4096x768 S768x4096 S4096x4096 [1] [0] [0] [1] [] []
  dot_S4096x256_S256x4096_S4096x4096_1_0_0_1_n_n_wf : DotDims.WF S4096x256 S256x4096 S4096x4096 [1] [0] [0] [1] [] []

variable [Facts₀]

def gather_S8_S4096x3072x1_S4096x3072_n_0_n_n_0_2_1 : GatherDims S8 S4096x3072x1 S4096x3072 where
  offsetDims := []
  collapsedSliceDims := [0]
  operandBatchingDims := []
  startIndicesBatchingDims := []
  startIndexMap := [0]
  indexVectorDim := 2
  sliceSizes := ![1]
  wf := gather_S8_S4096x3072x1_S4096x3072_n_0_n_n_0_2_1_wf
def dot_S4096x3072_S3072x4096_S4096x4096_1_0_0_1_n_n : DotDims S4096x3072 S3072x4096 S4096x4096 where
  lhsContracting := [1]
  rhsContracting := [0]
  lhsNonContracting := [0]
  rhsNonContracting := [1]
  lhsBatch := []
  rhsBatch := []
  wf := dot_S4096x3072_S3072x4096_S4096x4096_1_0_0_1_n_n_wf
def dot_S4096x768_S768x4096_S4096x4096_1_0_0_1_n_n : DotDims S4096x768 S768x4096 S4096x4096 where
  lhsContracting := [1]
  rhsContracting := [0]
  lhsNonContracting := [0]
  rhsNonContracting := [1]
  lhsBatch := []
  rhsBatch := []
  wf := dot_S4096x768_S768x4096_S4096x4096_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Entry.lean ====
/-
  The host part of @main of `Kernel`, before its one pallas_call: twenty-one straight lines of StableHLO operations
  (the dequantisation of the six code tensors and the bias row), read as one fold over the device's buffers.
  `V m c b` is what buffer `b` of core `c` holds when the region is entered. Two facts about that fold are
  proved here: @main reduces to the region run from `V` (`hmain`), and no operation of the host part writes an
  argument array, so each argument is found as launched (`V_main_argK`). The second is one pass over the
  operations: every buffer they write has index at least 13 in the HBM table, while the thirteen arguments are
  the buffers 0 … 12.
-/
import proofs.«422557_j67190468379216_3_alg».proof.Proof.Gen.Kernel.Launch
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The host operations before the region, stretch by stretch (a module-local function's body is a stretch of its own). -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Core `c`'s TensorCore buffers when the region is entered: the launch contents after every host operation. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is the host stretches, then the region: it reduces to the region run from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-! ## The arguments are found as launched -/

/-- Every buffer a host operation writes lies at index 13 or later of its table. -/
def WritesHigh (op : HloOp τ sig (Elt F)) : Prop := ∀ d ∈ op.writes, 13 ≤ d.idx.val

set_option maxHeartbeats 4000000 in
theorem hostOps0_high : (hostOps0 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_1_high : (hostOps0_1 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_2_high : (hostOps0_2 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_3_high : (hostOps0_3 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_4_high : (hostOps0_4 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_5_high : (hostOps0_5 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_6_high : (hostOps0_6 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_7_high : (hostOps0_7 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_8_high : (hostOps0_8 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_9_high : (hostOps0_9 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_10_high : (hostOps0_10 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_11_high : (hostOps0_11 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_12_high : (hostOps0_12 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_13_high : (hostOps0_13 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_14_high : (hostOps0_14 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_15_high : (hostOps0_15 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_16_high : (hostOps0_16 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_17_high : (hostOps0_17 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_18_high : (hostOps0_18 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_19_high : (hostOps0_19 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_20_high : (hostOps0_20 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide

theorem stretches_high : ∀ op ∈ List.flatten (stretches (F := F)), WritesHigh op := by
  intro op hop
  obtain ⟨l, hl, hop⟩ := List.mem_flatten.mp hop
  simp only [List.mem_cons, List.not_mem_nil, or_false] at hl
  rcases hl with rfl | rfl | rfl | rfl | rfl | rfl | rfl | rfl | rfl | rfl | rfl | rfl | rfl | rfl | rfl | rfl | rfl | rfl | rfl | rfl | rfl
  · exact (List.forall_iff_forall_mem.mp hostOps0_high) op hop
  · exact (List.forall_iff_forall_mem.mp hostOps0_1_high) op hop
  · exact (List.forall_iff_forall_mem.mp hostOps0_2_high) op hop
  · exact (List.forall_iff_forall_mem.mp hostOps0_3_high) op hop
  · exact (List.forall_iff_forall_mem.mp hostOps0_4_high) op hop
  · exact (List.forall_iff_forall_mem.mp hostOps0_5_high) op hop
  · exact (List.forall_iff_forall_mem.mp hostOps0_6_high) op hop
  · exact (List.forall_iff_forall_mem.mp hostOps0_7_high) op hop
  · exact (List.forall_iff_forall_mem.mp hostOps0_8_high) op hop
  · exact (List.forall_iff_forall_mem.mp hostOps0_9_high) op hop
  · exact (List.forall_iff_forall_mem.mp hostOps0_10_high) op hop
  · exact (List.forall_iff_forall_mem.mp hostOps0_11_high) op hop
  · exact (List.forall_iff_forall_mem.mp hostOps0_12_high) op hop
  · exact (List.forall_iff_forall_mem.mp hostOps0_13_high) op hop
  · exact (List.forall_iff_forall_mem.mp hostOps0_14_high) op hop
  · exact (List.forall_iff_forall_mem.mp hostOps0_15_high) op hop
  · exact (List.forall_iff_forall_mem.mp hostOps0_16_high) op hop
  · exact (List.forall_iff_forall_mem.mp hostOps0_17_high) op hop
  · exact (List.forall_iff_forall_mem.mp hostOps0_18_high) op hop
  · exact (List.forall_iff_forall_mem.mp hostOps0_19_high) op hop
  · exact (List.forall_iff_forall_mem.mp hostOps0_20_high) op hop

/-- A buffer of index below 13 is written by no host operation: the region finds it as launched. -/
theorem V_of_low (c : Dev nD) (b : Ref sig .tc) (hb : (Proc.devRef (τ := τ) .tc b).idx.val < 13) :
    V m c b = m ((c : Thread nD τ).loc b) :=
  StableHlo.after_of_forall_not_mem (b := Proc.devRef .tc b) _ _ fun op hop hmem =>
    absurd (stretches_high op hop _ hmem) (Nat.not_le.mpr hb)

theorem V_main_arg0 (c : Dev nD) : V m c main_arg0 = m ((c : Thread nD τ).loc main_arg0) := V_of_low m c main_arg0 (by decide)
theorem V_main_arg1 (c : Dev nD) : V m c main_arg1 = m ((c : Thread nD τ).loc main_arg1) := V_of_low m c main_arg1 (by decide)
theorem V_main_arg2 (c : Dev nD) : V m c main_arg2 = m ((c : Thread nD τ).loc main_arg2) := V_of_low m c main_arg2 (by decide)
theorem V_main_arg3 (c : Dev nD) : V m c main_arg3 = m ((c : Thread nD τ).loc main_arg3) := V_of_low m c main_arg3 (by decide)
theorem V_main_arg4 (c : Dev nD) : V m c main_arg4 = m ((c : Thread nD τ).loc main_arg4) := V_of_low m c main_arg4 (by decide)
theorem V_main_arg5 (c : Dev nD) : V m c main_arg5 = m ((c : Thread nD τ).loc main_arg5) := V_of_low m c main_arg5 (by decide)
theorem V_main_arg6 (c : Dev nD) : V m c main_arg6 = m ((c : Thread nD τ).loc main_arg6) := V_of_low m c main_arg6 (by decide)
theorem V_main_arg7 (c : Dev nD) : V m c main_arg7 = m ((c : Thread nD τ).loc main_arg7) := V_of_low m c main_arg7 (by decide)
theorem V_main_arg8 (c : Dev nD) : V m c main_arg8 = m ((c : Thread nD τ).loc main_arg8) := V_of_low m c main_arg8 (by decide)
theorem V_main_arg9 (c : Dev nD) : V m c main_arg9 = m ((c : Thread nD τ).loc main_arg9) := V_of_low m c main_arg9 (by decide)
theorem V_main_arg10 (c : Dev nD) : V m c main_arg10 = m ((c : Thread nD τ).loc main_arg10) := V_of_low m c main_arg10 (by decide)
theorem V_main_arg11 (c : Dev nD) : V m c main_arg11 = m ((c : Thread nD τ).loc main_arg11) := V_of_low m c main_arg11 (by decide)
theorem V_main_arg12 (c : Dev nD) : V m c main_arg12 = m ((c : Thread nD τ).loc main_arg12) := V_of_low m c main_arg12 (by decide)

end Cert.Kernel.Hand

end
-- ==== Proof.K.Body.lean ====
/-
  One grid point of `Kernel`'s matmul kernel, run on whole staging buffers. The body loads the three activation
  blocks (4-, 6- and 8-bit groups), the three weight blocks and the bias row, and stores ONE value over the whole
  output block: the sum of the three products, each contracted over the last axis of both operands, plus the bias row
  broadcast down the rows. `tile` names what the output buffer holds afterwards as a function of the seven input
  blocks; `sound_kernel` is the body's triple: the input buffers are handed back as found, the output buffer at `tile`.
-/
import proofs.«422557_j67190468379216_3_alg».proof.Proof.Gen.Kernel.Skeleton
import proofs.«422557_j67190468379216_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body reads and writes through -/

abbrev rect0 : Rect S1024x3072 := Rect.unit (s := S1024x3072) ![0, 0] S1024x3072.size inb_S1024x3072_S1024x3072_0_0
abbrev rect1 : Rect S1024x768 := Rect.unit (s := S1024x768) ![0, 0] S1024x768.size inb_S1024x768_S1024x768_0_0
abbrev rect2 : Rect S1024x256 := Rect.unit (s := S1024x256) ![0, 0] S1024x256.size inb_S1024x256_S1024x256_0_0
abbrev rect3 : Rect S512x3072 := Rect.unit (s := S512x3072) ![0, 0] S512x3072.size inb_S512x3072_S512x3072_0_0
abbrev rect4 : Rect S512x768 := Rect.unit (s := S512x768) ![0, 0] S512x768.size inb_S512x768_S512x768_0_0
abbrev rect5 : Rect S512x256 := Rect.unit (s := S512x256) ![0, 0] S512x256.size inb_S512x256_S512x256_0_0
abbrev rect6 : Rect S1x512 := Rect.unit (s := S1x512) ![0, 0] S1x512.size inb_S1x512_S1x512_0_0
abbrev rect7 : Rect S1024x512 := Rect.unit (s := S1024x512) ![0, 0] S1024x512.size inb_S1024x512_S1024x512_0_0

/-- The output block after the body, from the seven input blocks: the one store's value over the whole block. The
    arguments are in window order (activations 4/6/8, weights 4/6/8, bias); the payload takes them in load order. -/
def tile (x0 : Vec F S1024x3072 .bf16) (x1 : Vec F S1024x768 .bf16) (x2 : Vec F S1024x256 .bf16)
    (x3 : Vec F S512x3072 .bf16) (x4 : Vec F S512x768 .bf16) (x5 : Vec F S512x256 .bf16) (x6 : Vec F S1x512 .f32) :
    Vec F S1024x512 .f32 :=
  View.canon [⟨rect7, k0_pay1 (View.ld x0 rect0) (View.ld x3 rect3) (View.ld x1 rect1) (View.ld x4 rect4)
    (View.ld x2 rect2) (View.ld x5 rect5) (View.ld x6 rect6)⟩]

/-- The one store covers the output block. -/
theorem tile_cover (p0 : Vec F S1024x512 .f32) (y : S1024x512.Idx) :
    ∃ pc ∈ ([⟨rect7, p0⟩] : List (View.Piece (Elt F) S1024x512 .f32)), y ∈ pc.1.set :=
  View.cover_of_tiled [⟨rect7, p0⟩] S1024x512.size (by rfl) y

set_option maxHeartbeats 4000000 in
/-- The body on whole staging buffers, the inputs' at contents `xW` and the output's at anything, runs to the
    continuation holding the inputs' as they were and the output's at `tile` of the inputs'. -/
theorem sound_kernel (c : Dev nD) (E : Set ℕ) (i : grid0.Coords)
    (arg2 : Memref sig .tc .vmem S1024x3072 .bf16) (harg2 : arg2.IsWhole) (arg3 : Memref sig .tc .vmem S1024x768 .bf16) (harg3 : arg3.IsWhole) (arg4 : Memref sig .tc .vmem S1024x256 .bf16) (harg4 : arg4.IsWhole) (arg5 : Memref sig .tc .vmem S512x3072 .bf16) (harg5 : arg5.IsWhole) (arg6 : Memref sig .tc .vmem S512x768 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1024x512 .f32) (harg9 : arg9.IsWhole)
    (x0 : Vec F S1024x3072 .bf16) (x1 : Vec F S1024x768 .bf16) (x2 : Vec F S1024x256 .bf16) (x3 : Vec F S512x3072 .bf16) (x4 : Vec F S512x768 .bf16) (x5 : Vec F S512x256 .bf16) (x6 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile x0 x1 x2 x3 x4 x5 x6)) -∗ K ⟨⟩))
      ⊢ wp frame (wpE (defs₀ (F := F)) Variants.none c none) E (cc0__matmul_kernel i arg2 harg2 arg3 harg3 arg4 harg4 arg5 harg5 arg6 harg6 arg7 harg7 arg8 harg8 arg9 harg9) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tile_cover _)

end Cert.Kernel.Hand

end
-- ==== Proof.K.Frame.lean ====
/-
  The frame of `Kernel`: every weakly fair execution of @main terminates without a fault and leaves the thirteen
  argument arrays as launched. The pipeline's proof data says what each window's staging buffer holds after the body
  at grid point `t`: an input window its block of the array the host part computed (`iblk`), the output window
  `tile` of the seven input blocks. With the body's triple at every point this gives the library's run of the one
  region (`run_main`), whose post names every array of the pipeline; the arguments are read off it.
-/
import proofs.«422557_j67190468379216_3_alg».proof.Proof.K.Entry
import proofs.«422557_j67190468379216_3_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The pipeline's proof data -/

/-- After the body at point `t`: each input's buffer at its block, the output's at `tile` of the input blocks; the
    invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tile (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = tile (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `Kernel`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.KI.Entry.lean ====
/-
  The host part of @main of `KernelIdeal`, before its one pallas_call: twenty-one straight lines of StableHLO operations
  (the dequantisation of the six code tensors and the bias row), read as one fold over the device's buffers.
  `V m c b` is what buffer `b` of core `c` holds when the region is entered. Two facts about that fold are
  proved here: @main reduces to the region run from `V` (`hmain`), and no operation of the host part writes an
  argument array, so each argument is found as launched (`V_main_argK`). The second is one pass over the
  operations: every buffer they write has index at least 13 in the HBM table, while the thirteen arguments are
  the buffers 0 … 12.
-/
import proofs.«422557_j67190468379216_3_alg».proof.Proof.Gen.KernelIdeal.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The host operations before the region, stretch by stretch (a module-local function's body is a stretch of its own). -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

/-- Core `c`'s TensorCore buffers when the region is entered: the launch contents after every host operation. -/
abbrev V (c : Dev nD) (b : Ref sig .tc) : Buf (Elt F) ((c : Thread nD τ).loc b) :=
  StableHlo.after (List.flatten (stretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor

/-- @main is the host stretches, then the region: it reduces to the region run from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-! ## The arguments are found as launched -/

/-- Every buffer a host operation writes lies at index 13 or later of its table. -/
def WritesHigh (op : HloOp τ sig (Elt F)) : Prop := ∀ d ∈ op.writes, 13 ≤ d.idx.val

set_option maxHeartbeats 4000000 in
theorem hostOps0_high : (hostOps0 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_1_high : (hostOps0_1 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_2_high : (hostOps0_2 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_3_high : (hostOps0_3 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_4_high : (hostOps0_4 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_5_high : (hostOps0_5 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_6_high : (hostOps0_6 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_7_high : (hostOps0_7 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_8_high : (hostOps0_8 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_9_high : (hostOps0_9 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_10_high : (hostOps0_10 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_11_high : (hostOps0_11 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_12_high : (hostOps0_12 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_13_high : (hostOps0_13 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_14_high : (hostOps0_14 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_15_high : (hostOps0_15 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_16_high : (hostOps0_16 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_17_high : (hostOps0_17 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_18_high : (hostOps0_18 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_19_high : (hostOps0_19 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem hostOps0_20_high : (hostOps0_20 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide

theorem stretches_high : ∀ op ∈ List.flatten (stretches (F := F)), WritesHigh op := by
  intro op hop
  obtain ⟨l, hl, hop⟩ := List.mem_flatten.mp hop
  simp only [List.mem_cons, List.not_mem_nil, or_false] at hl
  rcases hl with rfl | rfl | rfl | rfl | rfl | rfl | rfl | rfl | rfl | rfl | rfl | rfl | rfl | rfl | rfl | rfl | rfl | rfl | rfl | rfl | rfl
  · exact (List.forall_iff_forall_mem.mp hostOps0_high) op hop
  · exact (List.forall_iff_forall_mem.mp hostOps0_1_high) op hop
  · exact (List.forall_iff_forall_mem.mp hostOps0_2_high) op hop
  · exact (List.forall_iff_forall_mem.mp hostOps0_3_high) op hop
  · exact (List.forall_iff_forall_mem.mp hostOps0_4_high) op hop
  · exact (List.forall_iff_forall_mem.mp hostOps0_5_high) op hop
  · exact (List.forall_iff_forall_mem.mp hostOps0_6_high) op hop
  · exact (List.forall_iff_forall_mem.mp hostOps0_7_high) op hop
  · exact (List.forall_iff_forall_mem.mp hostOps0_8_high) op hop
  · exact (List.forall_iff_forall_mem.mp hostOps0_9_high) op hop
  · exact (List.forall_iff_forall_mem.mp hostOps0_10_high) op hop
  · exact (List.forall_iff_forall_mem.mp hostOps0_11_high) op hop
  · exact (List.forall_iff_forall_mem.mp hostOps0_12_high) op hop
  · exact (List.forall_iff_forall_mem.mp hostOps0_13_high) op hop
  · exact (List.forall_iff_forall_mem.mp hostOps0_14_high) op hop
  · exact (List.forall_iff_forall_mem.mp hostOps0_15_high) op hop
  · exact (List.forall_iff_forall_mem.mp hostOps0_16_high) op hop
  · exact (List.forall_iff_forall_mem.mp hostOps0_17_high) op hop
  · exact (List.forall_iff_forall_mem.mp hostOps0_18_high) op hop
  · exact (List.forall_iff_forall_mem.mp hostOps0_19_high) op hop
  · exact (List.forall_iff_forall_mem.mp hostOps0_20_high) op hop

/-- A buffer of index below 13 is written by no host operation: the region finds it as launched. -/
theorem V_of_low (c : Dev nD) (b : Ref sig .tc) (hb : (Proc.devRef (τ := τ) .tc b).idx.val < 13) :
    V m c b = m ((c : Thread nD τ).loc b) :=
  StableHlo.after_of_forall_not_mem (b := Proc.devRef .tc b) _ _ fun op hop hmem =>
    absurd (stretches_high op hop _ hmem) (Nat.not_le.mpr hb)

theorem V_main_arg0 (c : Dev nD) : V m c main_arg0 = m ((c : Thread nD τ).loc main_arg0) := V_of_low m c main_arg0 (by decide)
theorem V_main_arg1 (c : Dev nD) : V m c main_arg1 = m ((c : Thread nD τ).loc main_arg1) := V_of_low m c main_arg1 (by decide)
theorem V_main_arg2 (c : Dev nD) : V m c main_arg2 = m ((c : Thread nD τ).loc main_arg2) := V_of_low m c main_arg2 (by decide)
theorem V_main_arg3 (c : Dev nD) : V m c main_arg3 = m ((c : Thread nD τ).loc main_arg3) := V_of_low m c main_arg3 (by decide)
theorem V_main_arg4 (c : Dev nD) : V m c main_arg4 = m ((c : Thread nD τ).loc main_arg4) := V_of_low m c main_arg4 (by decide)
theorem V_main_arg5 (c : Dev nD) : V m c main_arg5 = m ((c : Thread nD τ).loc main_arg5) := V_of_low m c main_arg5 (by decide)
theorem V_main_arg6 (c : Dev nD) : V m c main_arg6 = m ((c : Thread nD τ).loc main_arg6) := V_of_low m c main_arg6 (by decide)
theorem V_main_arg7 (c : Dev nD) : V m c main_arg7 = m ((c : Thread nD τ).loc main_arg7) := V_of_low m c main_arg7 (by decide)
theorem V_main_arg8 (c : Dev nD) : V m c main_arg8 = m ((c : Thread nD τ).loc main_arg8) := V_of_low m c main_arg8 (by decide)
theorem V_main_arg9 (c : Dev nD) : V m c main_arg9 = m ((c : Thread nD τ).loc main_arg9) := V_of_low m c main_arg9 (by decide)
theorem V_main_arg10 (c : Dev nD) : V m c main_arg10 = m ((c : Thread nD τ).loc main_arg10) := V_of_low m c main_arg10 (by decide)
theorem V_main_arg11 (c : Dev nD) : V m c main_arg11 = m ((c : Thread nD τ).loc main_arg11) := V_of_low m c main_arg11 (by decide)
theorem V_main_arg12 (c : Dev nD) : V m c main_arg12 = m ((c : Thread nD τ).loc main_arg12) := V_of_low m c main_arg12 (by decide)

end Cert.KernelIdeal.Hand

end
-- ==== Proof.KI.Body.lean ====
/-
  One grid point of `KernelIdeal`'s matmul kernel, run on whole staging buffers. The body loads the three activation
  blocks (4-, 6- and 8-bit groups), the three weight blocks and the bias row, and stores ONE value over the whole
  output block: the sum of the three products, each contracted over the last axis of both operands, plus the bias row
  broadcast down the rows. `tile` names what the output buffer holds afterwards as a function of the seven input
  blocks; `sound_kernel` is the body's triple: the input buffers are handed back as found, the output buffer at `tile`.
-/
import proofs.«422557_j67190468379216_3_alg».proof.Proof.Gen.KernelIdeal.Skeleton
import proofs.«422557_j67190468379216_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body reads and writes through -/

abbrev rect0 : Rect S1024x3072 := Rect.unit (s := S1024x3072) ![0, 0] S1024x3072.size inb_S1024x3072_S1024x3072_0_0
abbrev rect1 : Rect S1024x768 := Rect.unit (s := S1024x768) ![0, 0] S1024x768.size inb_S1024x768_S1024x768_0_0
abbrev rect2 : Rect S1024x256 := Rect.unit (s := S1024x256) ![0, 0] S1024x256.size inb_S1024x256_S1024x256_0_0
abbrev rect3 : Rect S512x3072 := Rect.unit (s := S512x3072) ![0, 0] S512x3072.size inb_S512x3072_S512x3072_0_0
abbrev rect4 : Rect S512x768 := Rect.unit (s := S512x768) ![0, 0] S512x768.size inb_S512x768_S512x768_0_0
abbrev rect5 : Rect S512x256 := Rect.unit (s := S512x256) ![0, 0] S512x256.size inb_S512x256_S512x256_0_0
abbrev rect6 : Rect S1x512 := Rect.unit (s := S1x512) ![0, 0] S1x512.size inb_S1x512_S1x512_0_0
abbrev rect7 : Rect S1024x512 := Rect.unit (s := S1024x512) ![0, 0] S1024x512.size inb_S1024x512_S1024x512_0_0

/-- The output block after the body, from the seven input blocks: the one store's value over the whole block. The
    arguments are in window order (activations 4/6/8, weights 4/6/8, bias); the payload takes them in load order. -/
def tile (x0 : Vec F S1024x3072 .bf16) (x1 : Vec F S1024x768 .bf16) (x2 : Vec F S1024x256 .bf16)
    (x3 : Vec F S512x3072 .bf16) (x4 : Vec F S512x768 .bf16) (x5 : Vec F S512x256 .bf16) (x6 : Vec F S1x512 .f32) :
    Vec F S1024x512 .f32 :=
  View.canon [⟨rect7, k0_pay1 (View.ld x0 rect0) (View.ld x3 rect3) (View.ld x1 rect1) (View.ld x4 rect4)
    (View.ld x2 rect2) (View.ld x5 rect5) (View.ld x6 rect6)⟩]

/-- The one store covers the output block. -/
theorem tile_cover (p0 : Vec F S1024x512 .f32) (y : S1024x512.Idx) :
    ∃ pc ∈ ([⟨rect7, p0⟩] : List (View.Piece (Elt F) S1024x512 .f32)), y ∈ pc.1.set :=
  View.cover_of_tiled [⟨rect7, p0⟩] S1024x512.size (by rfl) y

set_option maxHeartbeats 4000000 in
/-- The body on whole staging buffers, the inputs' at contents `xW` and the output's at anything, runs to the
    continuation holding the inputs' as they were and the output's at `tile` of the inputs'. -/
theorem sound_kernel (c : Dev nD) (E : Set ℕ) (i : grid0.Coords)
    (arg2 : Memref sig .tc .vmem S1024x3072 .bf16) (harg2 : arg2.IsWhole) (arg3 : Memref sig .tc .vmem S1024x768 .bf16) (harg3 : arg3.IsWhole) (arg4 : Memref sig .tc .vmem S1024x256 .bf16) (harg4 : arg4.IsWhole) (arg5 : Memref sig .tc .vmem S512x3072 .bf16) (harg5 : arg5.IsWhole) (arg6 : Memref sig .tc .vmem S512x768 .bf16) (harg6 : arg6.IsWhole) (arg7 : Memref sig .tc .vmem S512x256 .bf16) (harg7 : arg7.IsWhole) (arg8 : Memref sig .tc .vmem S1x512 .f32) (harg8 : arg8.IsWhole) (arg9 : Memref sig .tc .vmem S1024x512 .f32) (harg9 : arg9.IsWhole)
    (x0 : Vec F S1024x3072 .bf16) (x1 : Vec F S1024x768 .bf16) (x2 : Vec F S1024x256 .bf16) (x3 : Vec F S512x3072 .bf16) (x4 : Vec F S512x768 .bf16) (x5 : Vec F S512x256 .bf16) (x6 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (tile x0 x1 x2 x3 x4 x5 x6)) -∗ K ⟨⟩))
      ⊢ wp frame (wpE (defs₀ (F := F)) Variants.none c none) E (cc0__matmul_kernel i arg2 harg2 arg3 harg3 arg4 harg4 arg5 harg5 arg6 harg6 arg7 harg7 arg8 harg8 arg9 harg9) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (tile_cover _)

end Cert.KernelIdeal.Hand

end
-- ==== Proof.KI.Frame.lean ====
/-
  The frame of `KernelIdeal`: every weakly fair execution of @main terminates without a fault and leaves the thirteen
  argument arrays as launched. The pipeline's proof data says what each window's staging buffer holds after the body
  at grid point `t`: an input window its block of the array the host part computed (`iblk`), the output window
  `tile` of the seven input blocks. With the body's triple at every point this gives the library's run of the one
  region (`run_main`), whose post names every array of the pipeline; the arguments are read off it.
-/
import proofs.«422557_j67190468379216_3_alg».proof.Proof.KI.Entry
import proofs.«422557_j67190468379216_3_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the region's run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The pipeline's proof data -/

/-- After the body at point `t`: each input's buffer at its block, the output's at `tile` of the input blocks; the
    invariant is the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tile (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = tile (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of `KernelIdeal`, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.Spec.lean ====
/-
  What both programs compute, as one function on the extended reals. With a4, a6, a8 the dequantised activations
  (4096 rows; 3072, 768 and 256 columns), w4, w6, w8 the dequantised weights (4096 rows each, the same column counts)
  and b the bias, the result at row r and column n is

      ((Σ_k a4[r,k]·w4[n,k] + Σ_k a6[r,k]·w6[n,k]) + Σ_k a8[r,k]·w8[n,k]) + b[n],

  each sum over the group's whole contracted axis, the three groups added from the left, the bias last. Both the
  kernel (three matrix products into a zero accumulator, added in this order, then the bias row) and the reference
  (three `dot_general`s against transposed weights, added in this order, then the broadcast bias) are this function;
  no law of arithmetic beyond reading each operation at an index is needed, so nothing here asks for finiteness.
-/
import Idealize.ShloMosaic.PureOps.Ideal
import Idealize.ShloMosaic.Lib.ValueIdx

noncomputable section

namespace Cert.Spec

open Idealize.ShloMosaic Idealize.ShloMosaic.ValueIdx
open scoped BigOperators

abbrev SA4 : Shape := ⟨2, ![4096, 3072]⟩
abbrev SA6 : Shape := ⟨2, ![4096, 768]⟩
abbrev SA8 : Shape := ⟨2, ![4096, 256]⟩
abbrev SB : Shape := ⟨1, ![4096]⟩
abbrev SO : Shape := ⟨2, ![4096, 4096]⟩

/-- The result at row `r`, column `n`. -/
def Gat (a4 w4 : SA4.Idx → EReal) (a6 w6 : SA6.Idx → EReal) (a8 w8 : SA8.Idx → EReal) (b : SB.Idx → EReal)
    (r n : Fin 4096) : EReal :=
  (((∑ k : Fin 3072, a4 (ix2 r k) * w4 (ix2 n k)) + (∑ k : Fin 768, a6 (ix2 r k) * w6 (ix2 n k)))
    + (∑ k : Fin 256, a8 (ix2 r k) * w8 (ix2 n k))) + b (ix1 n)

/-- The whole result array. -/
def G (a4 w4 : SA4.Idx → EReal) (a6 w6 : SA6.Idx → EReal) (a8 w8 : SA8.Idx → EReal) (b : SB.Idx → EReal) :
    SO.Idx → EReal :=
  fun i => Gat a4 w4 a6 w6 a8 w8 b (i 0) (i 1)

end Cert.Spec

end
-- ==== Proof.KI.Value.lean ====
/-
  The kernel's result array after the run is the function `Cert.Spec.G` of the seven arrays the host part computed.

  At a grid point with coordinates (i0, i1) the body stores, over the whole 1024 × 512 output block, the three groups'
  products (each a sum over the group's whole column axis of an activation row times a weight row, into a zero
  accumulator) added from the left, plus the bias row broadcast down the rows. The activation blocks are rows
  1024·i0 … of their arrays, the weight blocks rows 512·i1 … of theirs, the bias block columns 512·i1 … of the bias, and
  the output block sits at rows 1024·i0 …, columns 512·i1 … of the result: so what the point writes back is its block
  of `G`. The 4 × 8 blocks tile the 4096 × 4096 result (row r, column n lies in the block with i0 = r / 1024,
  i1 = n / 512), hence the array ends holding `G` everywhere.
-/
import proofs.«422557_j67190468379216_3_alg».proof.Proof.KI.Frame
import proofs.«422557_j67190468379216_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The seven arrays the region stages, as the host part left them, read as extended reals. -/
abbrev arrA4 (c : Dev nD) : Cert.Spec.SA4.Idx → EReal := V m c main_v35
abbrev arrA6 (c : Dev nD) : Cert.Spec.SA6.Idx → EReal := V m c main_v114
abbrev arrA8 (c : Dev nD) : Cert.Spec.SA8.Idx → EReal := V m c main_v160
abbrev arrW4 (c : Dev nD) : Cert.Spec.SA4.Idx → EReal := V m c main_v197
abbrev arrW6 (c : Dev nD) : Cert.Spec.SA6.Idx → EReal := V m c main_v277
abbrev arrW8 (c : Dev nD) : Cert.Spec.SA8.Idx → EReal := V m c main_v324
/-- The bias as the region finds it: one row of 4096. -/
abbrev arrB2 (c : Dev nD) : (⟨2, ![1, 4096]⟩ : Shape).Idx → EReal := V m c main_v325

/-! ## The body's stored value at an index -/

/-! ### The 3072-column group's product, read at an index -/

/-- The left operand is read at the output's row. -/
theorem lhs4_0 (i : S1024x512.Idx) (q : dot_S1024x3072_S512x3072_S1024x512_1_1_0_0_n_n.contr.Idx) :
    (dot_S1024x3072_S512x3072_S1024x512_1_1_0_0_n_n.lhsIdx i q 0).val = (i 0).val := by
  unfold DotDims.lhsIdx
  rw [dif_neg (show ¬(0 : Fin S1024x3072.rank) ∈ dot_S1024x3072_S512x3072_S1024x512_1_1_0_0_n_n.lhsBatch by decide), dif_pos (show (0 : Fin S1024x3072.rank) ∈ dot_S1024x3072_S512x3072_S1024x512_1_1_0_0_n_n.lhsNonContracting by decide)]
  rfl
/-- Its column is the contraction position. -/
theorem lhs4_1 (i : S1024x512.Idx) (q : dot_S1024x3072_S512x3072_S1024x512_1_1_0_0_n_n.contr.Idx) :
    (dot_S1024x3072_S512x3072_S1024x512_1_1_0_0_n_n.lhsIdx i q 1).val = (q ⟨0, by decide⟩).val :=
  dot_S1024x3072_S512x3072_S1024x512_1_1_0_0_n_n.lhsIdx_val_of_single rfl i q
/-- The right operand is read at the row the output's column names. -/
theorem rhs4_0 (i : S1024x512.Idx) (q : dot_S1024x3072_S512x3072_S1024x512_1_1_0_0_n_n.contr.Idx) :
    (dot_S1024x3072_S512x3072_S1024x512_1_1_0_0_n_n.rhsIdx i q 0).val = (i 1).val := by
  unfold DotDims.rhsIdx
  rw [dif_neg (show ¬(0 : Fin S512x3072.rank) ∈ dot_S1024x3072_S512x3072_S1024x512_1_1_0_0_n_n.rhsBatch by decide), dif_pos (show (0 : Fin S512x3072.rank) ∈ dot_S1024x3072_S512x3072_S1024x512_1_1_0_0_n_n.rhsNonContracting by decide)]
  rfl
/-- Its column is the contraction position too. -/
theorem rhs4_1 (i : S1024x512.Idx) (q : dot_S1024x3072_S512x3072_S1024x512_1_1_0_0_n_n.contr.Idx) :
    (dot_S1024x3072_S512x3072_S1024x512_1_1_0_0_n_n.rhsIdx i q 1).val = (q ⟨0, by decide⟩).val :=
  dot_S1024x3072_S512x3072_S1024x512_1_1_0_0_n_n.rhsIdx_val_of_single rfl i q

/-- The product into a zero accumulator at row `p`, column `q`: the sum over the 3072 columns of the two rows' products. -/
theorem matmul4_apply (x : FVec Ideal S1024x3072 .bf16) (y : FVec Ideal S512x3072 .bf16) (p : Fin 1024) (q : Fin 512) :
    matmul dot_S1024x3072_S512x3072_S1024x512_1_1_0_0_n_n none x y (constant (F := Ideal) S1024x512 .f32 0x00000000#32) (ix2 p q)
      = ∑ k : Fin 3072, x (ix2 p k) * y (ix2 q k) := by
  refine (Ideal.matmul_constant_zero_apply dot_S1024x3072_S512x3072_S1024x512_1_1_0_0_n_n none x y (ix2 p q)).trans ?_
  rw [← Equiv.sum_comp (contrEquiv1 dot_S1024x3072_S512x3072_S1024x512_1_1_0_0_n_n 3072 rfl rfl).symm]
  refine Finset.sum_congr rfl fun k _ => ?_
  have hk := contrEquiv1_symm_val dot_S1024x3072_S512x3072_S1024x512_1_1_0_0_n_n 3072 rfl rfl k
  have el : dot_S1024x3072_S512x3072_S1024x512_1_1_0_0_n_n.lhsIdx (ix2 p q) ((contrEquiv1 dot_S1024x3072_S512x3072_S1024x512_1_1_0_0_n_n 3072 rfl rfl).symm k) = ix2 p k := funext fun a => Fin.ext (by
    match a with
    | ⟨0, _⟩ => exact lhs4_0 _ _
    | ⟨1, _⟩ => exact (lhs4_1 _ _).trans hk)
  have er : dot_S1024x3072_S512x3072_S1024x512_1_1_0_0_n_n.rhsIdx (ix2 p q) ((contrEquiv1 dot_S1024x3072_S512x3072_S1024x512_1_1_0_0_n_n 3072 rfl rfl).symm k) = ix2 q k := funext fun a => Fin.ext (by
    match a with
    | ⟨0, _⟩ => exact rhs4_0 _ _
    | ⟨1, _⟩ => exact (rhs4_1 _ _).trans hk)
  rw [el, er]

/-! ### The 768-column group's product, read at an index -/

/-- The left operand is read at the output's row. -/
theorem lhs6_0 (i : S1024x512.Idx) (q : dot_S1024x768_S512x768_S1024x512_1_1_0_0_n_n.contr.Idx) :
    (dot_S1024x768_S512x768_S1024x512_1_1_0_0_n_n.lhsIdx i q 0).val = (i 0).val := by
  unfold DotDims.lhsIdx
  rw [dif_neg (show ¬(0 : Fin S1024x768.rank) ∈ dot_S1024x768_S512x768_S1024x512_1_1_0_0_n_n.lhsBatch by decide), dif_pos (show (0 : Fin S1024x768.rank) ∈ dot_S1024x768_S512x768_S1024x512_1_1_0_0_n_n.lhsNonContracting by decide)]
  rfl
/-- Its column is the contraction position. -/
theorem lhs6_1 (i : S1024x512.Idx) (q : dot_S1024x768_S512x768_S1024x512_1_1_0_0_n_n.contr.Idx) :
    (dot_S1024x768_S512x768_S1024x512_1_1_0_0_n_n.lhsIdx i q 1).val = (q ⟨0, by decide⟩).val :=
  dot_S1024x768_S512x768_S1024x512_1_1_0_0_n_n.lhsIdx_val_of_single rfl i q
/-- The right operand is read at the row the output's column names. -/
theorem rhs6_0 (i : S1024x512.Idx) (q : dot_S1024x768_S512x768_S1024x512_1_1_0_0_n_n.contr.Idx) :
    (dot_S1024x768_S512x768_S1024x512_1_1_0_0_n_n.rhsIdx i q 0).val = (i 1).val := by
  unfold DotDims.rhsIdx
  rw [dif_neg (show ¬(0 : Fin S512x768.rank) ∈ dot_S1024x768_S512x768_S1024x512_1_1_0_0_n_n.rhsBatch by decide), dif_pos (show (0 : Fin S512x768.rank) ∈ dot_S1024x768_S512x768_S1024x512_1_1_0_0_n_n.rhsNonContracting by decide)]
  rfl
/-- Its column is the contraction position too. -/
theorem rhs6_1 (i : S1024x512.Idx) (q : dot_S1024x768_S512x768_S1024x512_1_1_0_0_n_n.contr.Idx) :
    (dot_S1024x768_S512x768_S1024x512_1_1_0_0_n_n.rhsIdx i q 1).val = (q ⟨0, by decide⟩).val :=
  dot_S1024x768_S512x768_S1024x512_1_1_0_0_n_n.rhsIdx_val_of_single rfl i q

/-- The product into a zero accumulator at row `p`, column `q`: the sum over the 768 columns of the two rows' products. -/
theorem matmul6_apply (x : FVec Ideal S1024x768 .bf16) (y : FVec Ideal S512x768 .bf16) (p : Fin 1024) (q : Fin 512) :
    matmul dot_S1024x768_S512x768_S1024x512_1_1_0_0_n_n none x y (constant (F := Ideal) S1024x512 .f32 0x00000000#32) (ix2 p q)
      = ∑ k : Fin 768, x (ix2 p k) * y (ix2 q k) := by
  refine (Ideal.matmul_constant_zero_apply dot_S1024x768_S512x768_S1024x512_1_1_0_0_n_n none x y (ix2 p q)).trans ?_
  rw [← Equiv.sum_comp (contrEquiv1 dot_S1024x768_S512x768_S1024x512_1_1_0_0_n_n 768 rfl rfl).symm]
  refine Finset.sum_congr rfl fun k _ => ?_
  have hk := contrEquiv1_symm_val dot_S1024x768_S512x768_S1024x512_1_1_0_0_n_n 768 rfl rfl k
  have el : dot_S1024x768_S512x768_S1024x512_1_1_0_0_n_n.lhsIdx (ix2 p q) ((contrEquiv1 dot_S1024x768_S512x768_S1024x512_1_1_0_0_n_n 768 rfl rfl).symm k) = ix2 p k := funext fun a => Fin.ext (by
    match a with
    | ⟨0, _⟩ => exact lhs6_0 _ _
    | ⟨1, _⟩ => exact (lhs6_1 _ _).trans hk)
  have er : dot_S1024x768_S512x768_S1024x512_1_1_0_0_n_n.rhsIdx (ix2 p q) ((contrEquiv1 dot_S1024x768_S512x768_S1024x512_1_1_0_0_n_n 768 rfl rfl).symm k) = ix2 q k := funext fun a => Fin.ext (by
    match a with
    | ⟨0, _⟩ => exact rhs6_0 _ _
    | ⟨1, _⟩ => exact (rhs6_1 _ _).trans hk)
  rw [el, er]

/-! ### The 256-column group's product, read at an index -/

/-- The left operand is read at the output's row. -/
theorem lhs8_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
/-- Its column is the contraction position. -/
theorem lhs8_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
/-- The right operand is read at the row the output's column names. -/
theorem rhs8_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
/-- Its column is the contraction position too. -/
theorem rhs8_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- The product into a zero accumulator at row `p`, column `q`: the sum over the 256 columns of the two rows' products. -/
theorem matmul8_apply (x : FVec Ideal S1024x256 .bf16) (y : FVec Ideal S512x256 .bf16) (p : Fin 1024) (q : Fin 512) :
    matmul dot_S1024x256_S512x256_S1024x512_1_1_0_0_n_n none x y (constant (F := Ideal) S1024x512 .f32 0x00000000#32) (ix2 p q)
      = ∑ k : Fin 256, x (ix2 p k) * y (ix2 q k) := by
  refine (Ideal.matmul_constant_zero_apply dot_S1024x256_S512x256_S1024x512_1_1_0_0_n_n none x y (ix2 p q)).trans ?_
  rw [← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 p q) ((contrEquiv1 dot_S1024x256_S512x256_S1024x512_1_1_0_0_n_n 256 rfl rfl).symm k) = ix2 p k := funext fun a => Fin.ext (by
    match a with
    | ⟨0, _⟩ => exact lhs8_0 _ _
    | ⟨1, _⟩ => exact (lhs8_1 _ _).trans hk)
  have er : dot_S1024x256_S512x256_S1024x512_1_1_0_0_n_n.rhsIdx (ix2 p q) ((contrEquiv1 dot_S1024x256_S512x256_S1024x512_1_1_0_0_n_n 256 rfl rfl).symm k) = ix2 q k := funext fun a => Fin.ext (by
    match a with
    | ⟨0, _⟩ => exact rhs8_0 _ _
    | ⟨1, _⟩ => exact (rhs8_1 _ _).trans hk)
  rw [el, er]

/-- What the body stores at row `p`, column `q` of the output block: the three groups' products added from the left,
    then the bias row's entry of that column. -/
theorem pay_apply (x0 : Vec Ideal S1024x3072 .bf16) (x3 : Vec Ideal S512x3072 .bf16) (x1 : Vec Ideal S1024x768 .bf16)
    (x4 : Vec Ideal S512x768 .bf16) (x2 : Vec Ideal S1024x256 .bf16) (x5 : Vec Ideal S512x256 .bf16)
    (x6 : Vec Ideal S1x512 .f32) (p : Fin 1024) (q : Fin 512) :
    k0_pay1 (F := Ideal) x0 x3 x1 x4 x2 x5 x6 (ix2 p q)
      = (((∑ k : Fin 3072, x0 (ix2 p k) * x3 (ix2 q k)) + (∑ k : Fin 768, x1 (ix2 p k) * x4 (ix2 q k)))
          + (∑ k : Fin 256, x2 (ix2 p k) * x5 (ix2 q k))) + x6 (ix2 (0 : Fin 1) q) := by
  unfold k0_pay1
  simp only [shapeCast_self]
  rw [addf_apply, addf_apply, addf_apply, matmul4_apply, matmul6_apply, matmul8_apply, broadcastTo_1b_ab_apply]

/-! ## One output block is a block of the whole result -/

theorem zero_offsets : (![0, 0] : Fin 2 → Nat) = fun _ => 0 := funext fun a => by fin_cases a <;> rfl

/-- The one store covers the output block from its corner, so the block holds the stored value. -/
theorem tile_eq (x0 : Vec Ideal S1024x3072 .bf16) (x1 : Vec Ideal S1024x768 .bf16) (x2 : Vec Ideal S1024x256 .bf16)
    (x3 : Vec Ideal S512x3072 .bf16) (x4 : Vec Ideal S512x768 .bf16) (x5 : Vec Ideal S512x256 .bf16) (x6 : Vec Ideal S1x512 .f32) :
    tile x0 x1 x2 x3 x4 x5 x6 = k0_pay1 (F := Ideal) x0 x3 x1 x4 x2 x5 x6 := by
  unfold tile
  rw [View.canon_unit_zero zero_offsets]
  simp only [View.ld_unit_zero (S := S1024x3072) zero_offsets, View.ld_unit_zero (S := S1024x768) zero_offsets,
    View.ld_unit_zero (S := S1024x256) zero_offsets, View.ld_unit_zero (S := S512x3072) zero_offsets,
    View.ld_unit_zero (S := S512x768) zero_offsets, View.ld_unit_zero (S := S512x256) zero_offsets,
    View.ld_unit_zero (S := S1x512) zero_offsets]

/-- If the activation blocks are rows `b0·1024 …` of their arrays, the weight blocks rows `b1·512 …` of theirs and the
    bias block columns `b1·512 …` of the bias, then the output block at `(p, q)` is the whole result at row
    `b0·1024 + p`, column `b1·512 + q`. -/
theorem tile_apply (A4 W4 : Cert.Spec.SA4.Idx → EReal) (A6 W6 : Cert.Spec.SA6.Idx → EReal) (A8 W8 : Cert.Spec.SA8.Idx → EReal)
    (b : Cert.Spec.SB.Idx → EReal)
    (x0 : Vec Ideal S1024x3072 .bf16) (x1 : Vec Ideal S1024x768 .bf16) (x2 : Vec Ideal S1024x256 .bf16)
    (x3 : Vec Ideal S512x3072 .bf16) (x4 : Vec Ideal S512x768 .bf16) (x5 : Vec Ideal S512x256 .bf16) (x6 : Vec Ideal S1x512 .f32)
    (b0 b1 : Nat)
    (h0 : ∀ (p : Fin 1024) (k : Fin 3072) (r : Fin 4096), r.val = b0 * 1024 + p.val → x0 (ix2 p k) = A4 (ix2 r k))
    (h1 : ∀ (p : Fin 1024) (k : Fin 768) (r : Fin 4096), r.val = b0 * 1024 + p.val → x1 (ix2 p k) = A6 (ix2 r k))
    (h2 : ∀ (p : Fin 1024) (k : Fin 256) (r : Fin 4096), r.val = b0 * 1024 + p.val → x2 (ix2 p k) = A8 (ix2 r k))
    (h3 : ∀ (q : Fin 512) (k : Fin 3072) (n : Fin 4096), n.val = b1 * 512 + q.val → x3 (ix2 q k) = W4 (ix2 n k))
    (h4 : ∀ (q : Fin 512) (k : Fin 768) (n : Fin 4096), n.val = b1 * 512 + q.val → x4 (ix2 q k) = W6 (ix2 n k))
    (h5 : ∀ (q : Fin 512) (k : Fin 256) (n : Fin 4096), n.val = b1 * 512 + q.val → x5 (ix2 q k) = W8 (ix2 n k))
    (h6 : ∀ (q : Fin 512) (n : Fin 4096), n.val = b1 * 512 + q.val → x6 (ix2 (0 : Fin 1) q) = b (ix1 n))
    (y : S1024x512.Idx) (i : Cert.Spec.SO.Idx)
    (hr : (i 0).val = b0 * 1024 + (y 0).val) (hn : (i 1).val = b1 * 512 + (y 1).val) :
    tile x0 x1 x2 x3 x4 x5 x6 y = Cert.Spec.G A4 W4 A6 W6 A8 W8 b i := by
  obtain ⟨p, q, rfl⟩ : ∃ (p : Fin 1024) (q : Fin 512), y = ix2 p q := ⟨y 0, y 1, eq_ix2 y⟩
  obtain ⟨r, n, rfl⟩ : ∃ (r : Fin 4096) (n : Fin 4096), i = ix2 r n := ⟨i 0, i 1, eq_ix2 i⟩
  have hr' : r.val = b0 * 1024 + p.val := hr
  have hn' : n.val = b1 * 512 + q.val := hn
  rw [tile_eq, pay_apply]
  show _ = Cert.Spec.Gat A4 W4 A6 W6 A8 W8 b r n
  unfold Cert.Spec.Gat
  have e4 : (∑ k : Fin 3072, x0 (ix2 p k) * x3 (ix2 q k)) = ∑ k : Fin 3072, A4 (ix2 r k) * W4 (ix2 n k) :=
    Finset.sum_congr rfl fun k _ => by rw [h0 p k r hr', h3 q k n hn']
  have e6 : (∑ k : Fin 768, x1 (ix2 p k) * x4 (ix2 q k)) = ∑ k : Fin 768, A6 (ix2 r k) * W6 (ix2 n k) :=
    Finset.sum_congr rfl fun k _ => by rw [h1 p k r hr', h4 q k n hn']
  have e8 : (∑ k : Fin 256, x2 (ix2 p k) * x5 (ix2 q k)) = ∑ k : Fin 256, A8 (ix2 r k) * W8 (ix2 n k) :=
    Finset.sum_congr rfl fun k _ => by rw [h2 p k r hr', h5 q k n hn']
  rw [e4, e6, e8, h6 q n hn']

/-! ## Where each window's block sits at a grid point -/

/-- The index maps over the 32 grid points: an activation block is at the output block's row index, a weight block at the
    output block's column index (as a ROW index of the weights), the bias block at the output block's column index;
    every other block index is zero, and the output's block indices stay below 4 and 8. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = win0_7.index t (1 : Fin 2) ∧ win0_3.index t (1 : Fin 2) = 0
    ∧ win0_4.index t (0 : Fin 2) = win0_7.index t (1 : Fin 2) ∧ win0_4.index t (1 : Fin 2) = 0
    ∧ win0_5.index t (0 : Fin 2) = win0_7.index t (1 : Fin 2) ∧ win0_5.index t (1 : Fin 2) = 0
    ∧ win0_6.index t (0 : Fin 2) = 0 ∧ win0_6.index t (1 : Fin 2) = win0_7.index t (1 : Fin 2)
    ∧ win0_7.index t (0 : Fin 2) ≤ 3 ∧ win0_7.index t (1 : Fin 2) ≤ 7 :=
  (by decide +kernel : ∀ t : Fin grid0.N, _)

/-- Every pair of an output row-block index below 4 and column-block index below 8 is some grid point's. -/
theorem idx_onto : ∀ (q0 : Fin 4) (q1 : Fin 8), ∃ t : Fin cfg0.N, win0_7.index t = ![q0.val, q1.val] :=
  (by decide +kernel : ∀ (q0 : Fin 4) (q1 : Fin 8), ∃ t : Fin grid0.N, win0_7.index t = ![q0.val, q1.val])

/-- The 3072-column activation block at a point is rows `1024·i0 …` of its array, every column. -/
theorem a4_block (c : Dev nD) (t : Fin cfg0.N) (p : Fin 1024) (k : Fin 3072) (r : Fin 4096)
    (hr : r.val = win0_7.index t (0 : Fin 2) * 1024 + p.val) :
    (iblk m c 0 t : Vec Ideal S1024x3072 .bf16) (ix2 p k) = arrA4 m c (ix2 r k) := by
  obtain ⟨e00, e01, e10, e11, e20, e21, e30, e31, e40, e41, e50, e51, e60, e61, l0, l1⟩ := idx_facts t
  show arrA4 m c (((cfg0.win 0).blk t).view.emb (ix2 p k)) = arrA4 m c (ix2 r k)
  refine congrArg (arrA4 m c) (funext fun a => Fin.ext ?_)
  match a with
  | ⟨0, _⟩ => show win0_0.index t (0 : Fin 2) * 1024 + 1 * p.val = r.val; omega
  | ⟨1, _⟩ => show win0_0.index t (1 : Fin 2) * 3072 + 1 * k.val = k.val; omega

/-- The 768-column activation block likewise. -/
theorem a6_block (c : Dev nD) (t : Fin cfg0.N) (p : Fin 1024) (k : Fin 768) (r : Fin 4096)
    (hr : r.val = win0_7.index t (0 : Fin 2) * 1024 + p.val) :
    (iblk m c 1 t : Vec Ideal S1024x768 .bf16) (ix2 p k) = arrA6 m c (ix2 r k) := by
  obtain ⟨e00, e01, e10, e11, e20, e21, e30, e31, e40, e41, e50, e51, e60, e61, l0, l1⟩ := idx_facts t
  show arrA6 m c (((cfg0.win 1).blk t).view.emb (ix2 p k)) = arrA6 m c (ix2 r k)
  refine congrArg (arrA6 m c) (funext fun a => Fin.ext ?_)
  match a with
  | ⟨0, _⟩ => show win0_1.index t (0 : Fin 2) * 1024 + 1 * p.val = r.val; omega
  | ⟨1, _⟩ => show win0_1.index t (1 : Fin 2) * 768 + 1 * k.val = k.val; omega

/-- The 256-column activation block likewise. -/
theorem a8_block (c : Dev nD) (t : Fin cfg0.N) (p : Fin 1024) (k : Fin 256) (r : Fin 4096)
    (hr : r.val = win0_7.index t (0 : Fin 2) * 1024 + p.val) :
    (iblk m c 2 t : Vec Ideal S1024x256 .bf16) (ix2 p k) = arrA8 m c (ix2 r k) := by
  obtain ⟨e00, e01, e10, e11, e20, e21, e30, e31, e40, e41, e50, e51, e60, e61, l0, l1⟩ := idx_facts t
  show arrA8 m c (((cfg0.win 2).blk t).view.emb (ix2 p k)) = arrA8 m c (ix2 r k)
  refine congrArg (arrA8 m c) (funext fun a => Fin.ext ?_)
  match a with
  | ⟨0, _⟩ => show win0_2.index t (0 : Fin 2) * 1024 + 1 * p.val = r.val; omega
  | ⟨1, _⟩ => show win0_2.index t (1 : Fin 2) * 256 + 1 * k.val = k.val; omega

/-- The 3072-column weight block at a point is rows `512·i1 …` of its array, every column. -/
theorem w4_block (c : Dev nD) (t : Fin cfg0.N) (q : Fin 512) (k : Fin 3072) (n : Fin 4096)
    (hn : n.val = win0_7.index t (1 : Fin 2) * 512 + q.val) :
    (iblk m c 3 t : Vec Ideal S512x3072 .bf16) (ix2 q k) = arrW4 m c (ix2 n k) := by
  obtain ⟨e00, e01, e10, e11, e20, e21, e30, e31, e40, e41, e50, e51, e60, e61, l0, l1⟩ := idx_facts t
  show arrW4 m c (((cfg0.win 3).blk t).view.emb (ix2 q k)) = arrW4 m c (ix2 n k)
  refine congrArg (arrW4 m c) (funext fun a => Fin.ext ?_)
  match a with
  | ⟨0, _⟩ => show win0_3.index t (0 : Fin 2) * 512 + 1 * q.val = n.val; omega
  | ⟨1, _⟩ => show win0_3.index t (1 : Fin 2) * 3072 + 1 * k.val = k.val; omega

/-- The 768-column weight block likewise. -/
theorem w6_block (c : Dev nD) (t : Fin cfg0.N) (q : Fin 512) (k : Fin 768) (n : Fin 4096)
    (hn : n.val = win0_7.index t (1 : Fin 2) * 512 + q.val) :
    (iblk m c 4 t : Vec Ideal S512x768 .bf16) (ix2 q k) = arrW6 m c (ix2 n k) := by
  obtain ⟨e00, e01, e10, e11, e20, e21, e30, e31, e40, e41, e50, e51, e60, e61, l0, l1⟩ := idx_facts t
  show arrW6 m c (((cfg0.win 4).blk t).view.emb (ix2 q k)) = arrW6 m c (ix2 n k)
  refine congrArg (arrW6 m c) (funext fun a => Fin.ext ?_)
  match a with
  | ⟨0, _⟩ => show win0_4.index t (0 : Fin 2) * 512 + 1 * q.val = n.val; omega
  | ⟨1, _⟩ => show win0_4.index t (1 : Fin 2) * 768 + 1 * k.val = k.val; omega

/-- The 256-column weight block likewise. -/
theorem w8_block (c : Dev nD) (t : Fin cfg0.N) (q : Fin 512) (k : Fin 256) (n : Fin 4096)
    (hn : n.val = win0_7.index t (1 : Fin 2) * 512 + q.val) :
    (iblk m c 5 t : Vec Ideal S512x256 .bf16) (ix2 q k) = arrW8 m c (ix2 n k) := by
  obtain ⟨e00, e01, e10, e11, e20, e21, e30, e31, e40, e41, e50, e51, e60, e61, l0, l1⟩ := idx_facts t
  show arrW8 m c (((cfg0.win 5).blk t).view.emb (ix2 q k)) = arrW8 m c (ix2 n k)
  refine congrArg (arrW8 m c) (funext fun a => Fin.ext ?_)
  match a with
  | ⟨0, _⟩ => show win0_5.index t (0 : Fin 2) * 512 + 1 * q.val = n.val; omega
  | ⟨1, _⟩ => show win0_5.index t (1 : Fin 2) * 256 + 1 * k.val = k.val; omega

/-- The bias block at a point is columns `512·i1 …` of the bias row. -/
theorem bias_block (c : Dev nD) (t : Fin cfg0.N) (q : Fin 512) (n : Fin 4096)
    (hn : n.val = win0_7.index t (1 : Fin 2) * 512 + q.val) :
    (iblk m c 6 t : Vec Ideal S1x512 .f32) (ix2 (0 : Fin 1) q) = arrB2 m c (ix2 (0 : Fin 1) n) := by
  obtain ⟨e00, e01, e10, e11, e20, e21, e30, e31, e40, e41, e50, e51, e60, e61, l0, l1⟩ := idx_facts t
  show arrB2 m c (((cfg0.win 6).blk t).view.emb (ix2 (0 : Fin 1) q)) = arrB2 m c (ix2 (0 : Fin 1) n)
  refine congrArg (arrB2 m c) (funext fun a => Fin.ext ?_)
  match a with
  | ⟨0, _⟩ => show win0_6.index t (0 : Fin 2) * 1 + 1 * 0 = 0; omega
  | ⟨1, _⟩ => show win0_6.index t (1 : Fin 2) * 512 + 1 * q.val = n.val; omega

/-! ## From blocks to the array -/

/-- What a grid point writes back is its block of the whole result. -/
theorem flushed_eq (c : Dev nD) (t : Fin cfg0.N) :
    (dats m 0 c).flushed 7 t = ((cfg0.win 7).blk t).view.read (Elt Ideal)
      (Cert.Spec.G (arrA4 m c) (arrW4 m c) (arrA6 m c) (arrW6 m c) (arrA8 m c) (arrW8 m c)
          (fun j => arrB2 m c (ix2 (0 : Fin 1) (j 0)))) := by
  show (cfg0.win 7).cut (grid0.coords t) ((dats m 0 c).after 7 t) = _
  rw [after7]
  funext j
  show tile (iblk m c 0 t) (iblk m c 1 t) (iblk m c 2 t) (iblk m c 3 t) (iblk m c 4 t) (iblk m c 5 t) (iblk m c 6 t) j
    = Cert.Spec.G (arrA4 m c) (arrW4 m c) (arrA6 m c) (arrW6 m c) (arrA8 m c) (arrW8 m c)
          (fun j => arrB2 m c (ix2 (0 : Fin 1) (j 0))) (((cfg0.win 7).blk t).view.emb j)
  exact tile_apply (arrA4 m c) (arrW4 m c) (arrA6 m c) (arrW6 m c) (arrA8 m c) (arrW8 m c)
    (fun j => arrB2 m c (ix2 (0 : Fin 1) (j 0)))
    (iblk m c 0 t) (iblk m c 1 t) (iblk m c 2 t) (iblk m c 3 t) (iblk m c 4 t) (iblk m c 5 t) (iblk m c 6 t)
    (win0_7.index t (0 : Fin 2)) (win0_7.index t (1 : Fin 2))
    (a4_block m c t) (a6_block m c t) (a8_block m c t) (w4_block m c t) (w6_block m c t) (w8_block m c t)
    (bias_block m c t) j (((cfg0.win 7).blk t).view.emb j)
    (show win0_7.index t (0 : Fin 2) * 1024 + 1 * (j 0).val = win0_7.index t (0 : Fin 2) * 1024 + (j 0).val by omega)
    (show win0_7.index t (1 : Fin 2) * 512 + 1 * (j 1).val = win0_7.index t (1 : Fin 2) * 512 + (j 1).val by omega)

/-- An index of the result is in a point's block iff each coordinate is in the block's range on its axis. -/
theorem mem_blk (t : Fin cfg0.N) (i : S4096x4096.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v326).slice (win0_7.rect t)).set ↔ _
  rw [View.set_slice_whole, Rect.mem_set_unit]
  exact Iff.rfl

/-- Every index of the result lies in the block of the point whose row-block index is `r / 1024` and column-block index `n / 512`. -/
theorem cover (i : S4096x4096.Idx) :
    ∃ t : Fin cfg0.N, (cfg0.win 7).flush t = true ∧ i ∈ ((cfg0.win 7).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  have q0 : win0_7.index t (0 : Fin 2) = (i 0).val / 1024 := congrFun ht 0
  have q1 : win0_7.index t (1 : Fin 2) = (i 1).val / 512 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-- THE KERNEL'S RESULT ARRAY after the run. -/
theorem out_eq (c : Dev nD) :
    ((dats m 0 c).arrAt 7 cfg0.N : Cert.Spec.SO.Idx → EReal)
      = Cert.Spec.G (arrA4 m c) (arrW4 m c) (arrA6 m c) (arrW6 m c) (arrA8 m c) (arrW8 m c)
          (fun j => arrB2 m c (ix2 (0 : Fin 1) (j 0))) := by
  exact (dats m 0 c).arrAt_eq_of_cover 7
    (Cert.Spec.G (arrA4 m c) (arrW4 m c) (arrA6 m c) (arrW6 m c) (arrA8 m c) (arrW8 m c)
      (fun j => arrB2 m c (ix2 (0 : Fin 1) (j 0))))
    (fun t _ => flushed_eq m c t) cover

end Cert.KernelIdeal.Hand

end
-- ==== Proof.Dequant.lean ====
/- GENERATED by `python3 scratch/gen_dq.py > proof/Proof/Dequant.lean` (run in the certificate's directory) from
   proof/Proof/Gen/KernelIdeal/Launch.lean's operation lists and proof/KernelIdeal.lean's buffer types: a TABLE, no argument.

  The three dequantisations as closed functions of a code tensor and its block exponents, one `let` per StableHLO
  operation of the program's host part, in program order and with the printed side conditions.
  `dq4`: two 4-bit codes per word (low nibble first); a code's bit 3 is the sign and its low three bits index the
  table 0, 0.5, 1, 1.5, 2, 3, 4, 6; every run of 32 values is scaled by exp(log 2 · (e − 127)) for its exponent e.
  `dq6`: four 6-bit codes per three bytes (little-endian); bit 5 the sign, bits 2–4 the exponent E, bits 0–1 the
  mantissa M: M/16 where E = 0, else (1 + M/4) · exp(log 2 · (E − 3)); the same block scaling.
  `dq8`: one 8-bit code per word; bit 7 the sign, bits 3–6 the exponent E, bits 0–2 the mantissa M:
  M/8 · exp(log 2 · (−6)) where E = 0, else (1 + M/8) · exp(log 2 · (E − 7)); the same block scaling.
  (log 2 is the program's f32 literal; it is never evaluated: both programs carry the same word.)
  Both programs apply exactly these operations to the activations' and to the weights' tensors, so the certificate
  reads every dequantised array, on either side, as one of these three functions of the arguments. -/
import proofs.«422557_j67190468379216_3_alg».proof.Proof.Gen.KernelIdeal

noncomputable section

namespace Cert.KernelIdeal.Hand

open Cert.KernelIdeal Cert.KernelIdeal.Facts₀ Cert.KernelIdeal.Facts
open Idealize.ShloMosaic

variable {F : FTy → Type} [FloatOps F]

-- 49 operations
/-- The 4-bit group: codes [4096, 1536] (two per word) and exponents [4096, 96] to values [4096, 3072]. -/
def dq4 (main_arg0 : (⟨S4096x1536, .i32⟩ : BufTy).Contents (Elt F)) (main_arg3 : (⟨S4096x96, .i32⟩ : BufTy).Contents (Elt F)) :
    (⟨S4096x3072, .f32⟩ : BufTy).Contents (Elt F) :=
  let main_cst : (⟨S8, .f32⟩ : BufTy).Contents (Elt F) := (fun i => FloatOps.ofBits .f32 (lit0 (S8.rowMajor i)))
  let main_c : (⟨S_, .i32⟩ : BufTy).Contents (Elt F) := (constantI S_ 32 15#32)
  let main_v0 : (⟨S4096x1536, .i32⟩ : BufTy).Contents (Elt F) := (broadcastInDim S4096x1536 ![] bcast_S_S4096x1536 : (⟨S_, .i32⟩ : BufTy).Contents (Elt F) → (⟨S4096x1536, .i32⟩ : BufTy).Contents (Elt F)) main_c
  let main_v1 : (⟨S4096x1536, .i32⟩ : BufTy).Contents (Elt F) := (andi : (⟨S4096x1536, .i32⟩ : BufTy).Contents (Elt F) → (⟨S4096x1536, .i32⟩ : BufTy).Contents (Elt F) → (⟨S4096x1536, .i32⟩ : BufTy).Contents (Elt F)) main_arg0 main_v0
  let main_c_0 : (⟨S_, .i32⟩ : BufTy).Contents (Elt F) := (constantI S_ 32 4#32)
  let main_v2 : (⟨S4096x1536, .i32⟩ : BufTy).Contents (Elt F) := (broadcastInDim S4096x1536 ![] bcast_S_S4096x1536 : (⟨S_, .i32⟩ : BufTy).Contents (Elt F) → (⟨S4096x1536, .i32⟩ : BufTy).Contents (Elt F)) main_c_0
  let main_v3 : (⟨S4096x1536, .i32⟩ : BufTy).Contents (Elt F) := (Host.shrsi : (⟨S4096x1536, .i32⟩ : BufTy).Contents (Elt F) → (⟨S4096x1536, .i32⟩ : BufTy).Contents (Elt F) → (⟨S4096x1536, .i32⟩ : BufTy).Contents (Elt F)) main_arg0 main_v2
  let main_c_1 : (⟨S_, .i32⟩ : BufTy).Contents (Elt F) := (constantI S_ 32 15#32)
  let main_v4 : (⟨S4096x1536, .i32⟩ : BufTy).Contents (Elt F) := (broadcastInDim S4096x1536 ![] bcast_S_S4096x1536 : (⟨S_, .i32⟩ : BufTy).Contents (Elt F) → (⟨S4096x1536, .i32⟩ : BufTy).Contents (Elt F)) main_c_1
  let main_v5 : (⟨S4096x1536, .i32⟩ : BufTy).Contents (Elt F) := (andi : (⟨S4096x1536, .i32⟩ : BufTy).Contents (Elt F) → (⟨S4096x1536, .i32⟩ : BufTy).Contents (Elt F) → (⟨S4096x1536, .i32⟩ : BufTy).Contents (Elt F)) main_v3 main_v4
  let main_v6 : (⟨S4096x1536x1, .i32⟩ : BufTy).Contents (Elt F) := (broadcastInDim S4096x1536x1 ![0, 1] bcast_S4096x1536_S4096x1536x1_0_1 : (⟨S4096x1536, .i32⟩ : BufTy).Contents (Elt F) → (⟨S4096x1536x1, .i32⟩ : BufTy).Contents (Elt F)) main_v1
  let main_v7 : (⟨S4096x1536x1, .i32⟩ : BufTy).Contents (Elt F) := (broadcastInDim S4096x1536x1 ![0, 1] bcast_S4096x1536_S4096x1536x1_0_1 : (⟨S4096x1536, .i32⟩ : BufTy).Contents (Elt F) → (⟨S4096x1536x1, .i32⟩ : BufTy).Contents (Elt F)) main_v5
  let main_v8 : (⟨S4096x1536x2, .i32⟩ : BufTy).Contents (Elt F) := ((fun a b => concatenate S4096x1536x2 2 [⟨S4096x1536x1, a⟩, ⟨S4096x1536x1, b⟩] concatenates_S4096x1536x1_S4096x1536x1_S4096x1536x2_d2) : (⟨S4096x1536x1, .i32⟩ : BufTy).Contents (Elt F) → (⟨S4096x1536x1, .i32⟩ : BufTy).Contents (Elt F) → (⟨S4096x1536x2, .i32⟩ : BufTy).Contents (Elt F)) main_v6 main_v7
  let main_v9 : (⟨S4096x3072, .i32⟩ : BufTy).Contents (Elt F) := shapeCast S4096x3072 main_v8 shapeCasts_S4096x1536x2_S4096x3072
  let main_c_2 : (⟨S_, .i32⟩ : BufTy).Contents (Elt F) := (constantI S_ 32 8#32)
  let main_v10 : (⟨S4096x3072, .i32⟩ : BufTy).Contents (Elt F) := (broadcastInDim S4096x3072 ![] bcast_S_S4096x3072 : (⟨S_, .i32⟩ : BufTy).Contents (Elt F) → (⟨S4096x3072, .i32⟩ : BufTy).Contents (Elt F)) main_c_2
  let main_v11 : (⟨S4096x3072, .i1⟩ : BufTy).Contents (Elt F) := (cmpi .sge : (⟨S4096x3072, .i32⟩ : BufTy).Contents (Elt F) → (⟨S4096x3072, .i32⟩ : BufTy).Contents (Elt F) → (⟨S4096x3072, .i1⟩ : BufTy).Contents (Elt F)) main_v9 main_v10
  let main_cst_3 : (⟨S_, .f32⟩ : BufTy).Contents (Elt F) := (constant S_ .f32 0xBF800000#32)
  let main_cst_4 : (⟨S_, .f32⟩ : BufTy).Contents (Elt F) := (constant S_ .f32 0x3F800000#32)
  let main_call0_v0 : (⟨S4096x3072, .f32⟩ : BufTy).Contents (Elt F) := (broadcastInDim S4096x3072 ![] bcast_S_S4096x3072) main_cst_3
  let main_call0_v1 : (⟨S4096x3072, .f32⟩ : BufTy).Contents (Elt F) := (broadcastInDim S4096x3072 ![] bcast_S_S4096x3072) main_cst_4
  let main_v12 : (⟨S4096x3072, .f32⟩ : BufTy).Contents (Elt F) := select main_v11 main_call0_v0 main_call0_v1
  let main_c_5 : (⟨S_, .i32⟩ : BufTy).Contents (Elt F) := (constantI S_ 32 7#32)
  let main_v13 : (⟨S4096x3072, .i32⟩ : BufTy).Contents (Elt F) := (broadcastInDim S4096x3072 ![] bcast_S_S4096x3072 : (⟨S_, .i32⟩ : BufTy).Contents (Elt F) → (⟨S4096x3072, .i32⟩ : BufTy).Contents (Elt F)) main_c_5
  let main_v14 : (⟨S4096x3072, .i32⟩ : BufTy).Contents (Elt F) := (andi : (⟨S4096x3072, .i32⟩ : BufTy).Contents (Elt F) → (⟨S4096x3072, .i32⟩ : BufTy).Contents (Elt F) → (⟨S4096x3072, .i32⟩ : BufTy).Contents (Elt F)) main_v9 main_v13
  let main_c_6 : (⟨S_, .i32⟩ : BufTy).Contents (Elt F) := (constantI S_ 32 0#32)
  let main_v15 : (⟨S4096x3072, .i32⟩ : BufTy).Contents (Elt F) := (broadcastInDim S4096x3072 ![] bcast_S_S4096x3072 : (⟨S_, .i32⟩ : BufTy).Contents (Elt F) → (⟨S4096x3072, .i32⟩ : BufTy).Contents (Elt F)) main_c_6
  let main_v16 : (⟨S4096x3072, .i1⟩ : BufTy).Contents (Elt F) := (cmpi .slt : (⟨S4096x3072, .i32⟩ : BufTy).Contents (Elt F) → (⟨S4096x3072, .i32⟩ : BufTy).Contents (Elt F) → (⟨S4096x3072, .i1⟩ : BufTy).Contents (Elt F)) main_v14 main_v15
  let main_c_7 : (⟨S_, .i32⟩ : BufTy).Contents (Elt F) := (constantI S_ 32 8#32)
  let main_v17 : (⟨S4096x3072, .i32⟩ : BufTy).Contents (Elt F) := (broadcastInDim S4096x3072 ![] bcast_S_S4096x3072 : (⟨S_, .i32⟩ : BufTy).Contents (Elt F) → (⟨S4096x3072, .i32⟩ : BufTy).Contents (Elt F)) main_c_7
  let main_v18 : (⟨S4096x3072, .i32⟩ : BufTy).Contents (Elt F) := (addi : (⟨S4096x3072, .i32⟩ : BufTy).Contents (Elt F) → (⟨S4096x3072, .i32⟩ : BufTy).Contents (Elt F) → (⟨S4096x3072, .i32⟩ : BufTy).Contents (Elt F)) main_v14 main_v17
  let main_v19 : (⟨S4096x3072, .i32⟩ : BufTy).Contents (Elt F) := (select : (⟨S4096x3072, .i1⟩ : BufTy).Contents (Elt F) → (⟨S4096x3072, .i32⟩ : BufTy).Contents (Elt F) → (⟨S4096x3072, .i32⟩ : BufTy).Contents (Elt F) → (⟨S4096x3072, .i32⟩ : BufTy).Contents (Elt F)) main_v16 main_v18 main_v14
  let main_v20 : (⟨S4096x3072x1, .i32⟩ : BufTy).Contents (Elt F) := (broadcastInDim S4096x3072x1 ![0, 1] bcast_S4096x3072_S4096x3072x1_0_1 : (⟨S4096x3072, .i32⟩ : BufTy).Contents (Elt F) → (⟨S4096x3072x1, .i32⟩ : BufTy).Contents (Elt F)) main_v19
  let main_v21 : (⟨S4096x3072, .f32⟩ : BufTy).Contents (Elt F) := ((fun x i => Host.gather gather_S8_S4096x3072x1_S4096x3072_n_0_n_n_0_2_1 x i) : (⟨S8, .f32⟩ : BufTy).Contents (Elt F) → (⟨S4096x3072x1, .i32⟩ : BufTy).Contents (Elt F) → (⟨S4096x3072, .f32⟩ : BufTy).Contents (Elt F)) main_cst main_v20
  let main_v22 : (⟨S4096x3072, .f32⟩ : BufTy).Contents (Elt F) := (id : (⟨S4096x3072, .f32⟩ : BufTy).Contents (Elt F) → (⟨S4096x3072, .f32⟩ : BufTy).Contents (Elt F)) main_v12
  let main_v23 : (⟨S4096x3072, .f32⟩ : BufTy).Contents (Elt F) := (mulf : (⟨S4096x3072, .f32⟩ : BufTy).Contents (Elt F) → (⟨S4096x3072, .f32⟩ : BufTy).Contents (Elt F) → (⟨S4096x3072, .f32⟩ : BufTy).Contents (Elt F)) main_v22 main_v21
  let main_v24 : (⟨S4096x96, .f32⟩ : BufTy).Contents (Elt F) := (sitofp .f32 : (⟨S4096x96, .i32⟩ : BufTy).Contents (Elt F) → (⟨S4096x96, .f32⟩ : BufTy).Contents (Elt F)) main_arg3
  let main_cst_8 : (⟨S_, .f32⟩ : BufTy).Contents (Elt F) := (constant S_ .f32 0x42FE0000#32)
  let main_v25 : (⟨S4096x96, .f32⟩ : BufTy).Contents (Elt F) := (broadcastInDim S4096x96 ![] bcast_S_S4096x96 : (⟨S_, .f32⟩ : BufTy).Contents (Elt F) → (⟨S4096x96, .f32⟩ : BufTy).Contents (Elt F)) main_cst_8
  let main_v26 : (⟨S4096x96, .f32⟩ : BufTy).Contents (Elt F) := (subf : (⟨S4096x96, .f32⟩ : BufTy).Contents (Elt F) → (⟨S4096x96, .f32⟩ : BufTy).Contents (Elt F) → (⟨S4096x96, .f32⟩ : BufTy).Contents (Elt F)) main_v24 main_v25
  let main_cst_9 : (⟨S_, .f32⟩ : BufTy).Contents (Elt F) := (constant S_ .f32 0x3F317218#32)
  let main_v27 : (⟨S4096x96, .f32⟩ : BufTy).Contents (Elt F) := (broadcastInDim S4096x96 ![] bcast_S_S4096x96 : (⟨S_, .f32⟩ : BufTy).Contents (Elt F) → (⟨S4096x96, .f32⟩ : BufTy).Contents (Elt F)) main_cst_9
  let main_v28 : (⟨S4096x96, .f32⟩ : BufTy).Contents (Elt F) := (mulf : (⟨S4096x96, .f32⟩ : BufTy).Contents (Elt F) → (⟨S4096x96, .f32⟩ : BufTy).Contents (Elt F) → (⟨S4096x96, .f32⟩ : BufTy).Contents (Elt F)) main_v27 main_v26
  let main_v29 : (⟨S4096x96, .f32⟩ : BufTy).Contents (Elt F) := (Host.exp : (⟨S4096x96, .f32⟩ : BufTy).Contents (Elt F) → (⟨S4096x96, .f32⟩ : BufTy).Contents (Elt F)) main_v28
  let main_v30 : (⟨S4096x96x32, .f32⟩ : BufTy).Contents (Elt F) := shapeCast S4096x96x32 main_v23 shapeCasts_S4096x3072_S4096x96x32
  let main_v31 : (⟨S4096x96x1, .f32⟩ : BufTy).Contents (Elt F) := (broadcastInDim S4096x96x1 ![0, 1] bcast_S4096x96_S4096x96x1_0_1 : (⟨S4096x96, .f32⟩ : BufTy).Contents (Elt F) → (⟨S4096x96x1, .f32⟩ : BufTy).Contents (Elt F)) main_v29
  let main_v32 : (⟨S4096x96x32, .f32⟩ : BufTy).Contents (Elt F) := (broadcastInDim S4096x96x32 ![0, 1, 2] bcast_S4096x96x1_S4096x96x32_0_1_2 : (⟨S4096x96x1, .f32⟩ : BufTy).Contents (Elt F) → (⟨S4096x96x32, .f32⟩ : BufTy).Contents (Elt F)) main_v31
  let main_v33 : (⟨S4096x96x32, .f32⟩ : BufTy).Contents (Elt F) := (mulf : (⟨S4096x96x32, .f32⟩ : BufTy).Contents (Elt F) → (⟨S4096x96x32, .f32⟩ : BufTy).Contents (Elt F) → (⟨S4096x96x32, .f32⟩ : BufTy).Contents (Elt F)) main_v30 main_v32
  let main_v34 : (⟨S4096x3072, .f32⟩ : BufTy).Contents (Elt F) := shapeCast S4096x3072 main_v33 shapeCasts_S4096x96x32_S4096x3072
  main_v34

-- 106 operations
/-- The 6-bit group: codes [4096, 576] (four per three bytes) and exponents [4096, 24] to values [4096, 768]. -/
def dq6 (main_arg1 : (⟨S4096x576, .i32⟩ : BufTy).Contents (Elt F)) (main_arg4 : (⟨S4096x24, .i32⟩ : BufTy).Contents (Elt F)) :
    (⟨S4096x768, .f32⟩ : BufTy).Contents (Elt F) :=
  let main_v36 : (⟨S4096x192x3, .i32⟩ : BufTy).Contents (Elt F) := shapeCast S4096x192x3 main_arg1 shapeCasts_S4096x576_S4096x192x3
  let main_v37 : (⟨S4096x192x1, .i32⟩ : BufTy).Contents (Elt F) := ((extractStridedSlice S4096x192x1 ![0, 0, 0] · slices_S4096x192x3_S4096x192x1_0_0_0) : (⟨S4096x192x3, .i32⟩ : BufTy).Contents (Elt F) → (⟨S4096x192x1, .i32⟩ : BufTy).Contents (Elt F)) main_v36
  let main_v38 : (⟨S4096x192, .i32⟩ : BufTy).Contents (Elt F) := shapeCast S4096x192 main_v37 shapeCasts_S4096x192x1_S4096x192
  let main_v39 : (⟨S4096x192x1, .i32⟩ : BufTy).Contents (Elt F) := ((extractStridedSlice S4096x192x1 ![0, 0, 1] · slices_S4096x192x3_S4096x192x1_0_0_1) : (⟨S4096x192x3, .i32⟩ : BufTy).Contents (Elt F) → (⟨S4096x192x1, .i32⟩ : BufTy).Contents (Elt F)) main_v36
  let main_v40 : (⟨S4096x192, .i32⟩ : BufTy).Contents (Elt F) := shapeCast S4096x192 main_v39 shapeCasts_S4096x192x1_S4096x192
  let main_v41 : (⟨S4096x192x1, .i32⟩ : BufTy).Contents (Elt F) := ((extractStridedSlice S4096x192x1 ![0, 0, 2] · slices_S4096x192x3_S4096x192x1_0_0_2) : (⟨S4096x192x3, .i32⟩ : BufTy).Contents (Elt F) → (⟨S4096x192x1, .i32⟩ : BufTy).Contents (Elt F)) main_v36
  let main_v42 : (⟨S4096x192, .i32⟩ : BufTy).Contents (Elt F) := shapeCast S4096x192 main_v41 shapeCasts_S4096x192x1_S4096x192
  let main_c_10 : (⟨S_, .i32⟩ : BufTy).Contents (Elt F) := (constantI S_ 32 63#32)
  let main_v43 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_10
  let main_v44 : (⟨S4096x192, .i32⟩ : BufTy).Contents (Elt F) := (andi : (⟨S4096x192, .i32⟩ : BufTy).Contents (Elt F) → (⟨S4096x192, .i32⟩ : BufTy).Contents (Elt F) → (⟨S4096x192, .i32⟩ : BufTy).Contents (Elt F)) main_v38 main_v43
  let main_c_11 : (⟨S_, .i32⟩ : BufTy).Contents (Elt F) := (constantI S_ 32 6#32)
  let main_v45 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_11
  let main_v46 : (⟨S4096x192, .i32⟩ : BufTy).Contents (Elt F) := (Host.shrsi : (⟨S4096x192, .i32⟩ : BufTy).Contents (Elt F) → (⟨S4096x192, .i32⟩ : BufTy).Contents (Elt F) → (⟨S4096x192, .i32⟩ : BufTy).Contents (Elt F)) main_v38 main_v45
  let main_c_12 : (⟨S_, .i32⟩ : BufTy).Contents (Elt F) := (constantI S_ 32 3#32)
  let main_v47 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_12
  let main_v48 : (⟨S4096x192, .i32⟩ : BufTy).Contents (Elt F) := (andi : (⟨S4096x192, .i32⟩ : BufTy).Contents (Elt F) → (⟨S4096x192, .i32⟩ : BufTy).Contents (Elt F) → (⟨S4096x192, .i32⟩ : BufTy).Contents (Elt F)) main_v46 main_v47
  let main_c_13 : (⟨S_, .i32⟩ : BufTy).Contents (Elt F) := (constantI S_ 32 15#32)
  let main_v49 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_13
  let main_v50 : (⟨S4096x192, .i32⟩ : BufTy).Contents (Elt F) := (andi : (⟨S4096x192, .i32⟩ : BufTy).Contents (Elt F) → (⟨S4096x192, .i32⟩ : BufTy).Contents (Elt F) → (⟨S4096x192, .i32⟩ : BufTy).Contents (Elt F)) main_v40 main_v49
  let main_c_14 : (⟨S_, .i32⟩ : BufTy).Contents (Elt F) := (constantI S_ 32 2#32)
  let main_v51 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_14
  let main_v52 : (⟨S4096x192, .i32⟩ : BufTy).Contents (Elt F) := (Host.shli : (⟨S4096x192, .i32⟩ : BufTy).Contents (Elt F) → (⟨S4096x192, .i32⟩ : BufTy).Contents (Elt F) → (⟨S4096x192, .i32⟩ : BufTy).Contents (Elt F)) main_v50 main_v51
  let main_v53 : (⟨S4096x192, .i32⟩ : BufTy).Contents (Elt F) := (ori : (⟨S4096x192, .i32⟩ : BufTy).Contents (Elt F) → (⟨S4096x192, .i32⟩ : BufTy).Contents (Elt F) → (⟨S4096x192, .i32⟩ : BufTy).Contents (Elt F)) main_v48 main_v52
  let main_c_15 : (⟨S_, .i32⟩ : BufTy).Contents (Elt F) := (constantI S_ 32 4#32)
  let main_v54 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_15
  let main_v55 : (⟨S4096x192, .i32⟩ : BufTy).Contents (Elt F) := (Host.shrsi : (⟨S4096x192, .i32⟩ : BufTy).Contents (Elt F) → (⟨S4096x192, .i32⟩ : BufTy).Contents (Elt F) → (⟨S4096x192, .i32⟩ : BufTy).Contents (Elt F)) main_v40 main_v54
  let main_c_16 : (⟨S_, .i32⟩ : BufTy).Contents (Elt F) := (constantI S_ 32 15#32)
  let main_v56 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_16
  let main_v57 : (⟨S4096x192, .i32⟩ : BufTy).Contents (Elt F) := (andi : (⟨S4096x192, .i32⟩ : BufTy).Contents (Elt F) → (⟨S4096x192, .i32⟩ : BufTy).Contents (Elt F) → (⟨S4096x192, .i32⟩ : BufTy).Contents (Elt F)) main_v55 main_v56
  let main_c_17 : (⟨S_, .i32⟩ : BufTy).Contents (Elt F) := (constantI S_ 32 3#32)
  let main_v58 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_17
  let main_v59 : (⟨S4096x192, .i32⟩ : BufTy).Contents (Elt F) := (andi : (⟨S4096x192, .i32⟩ : BufTy).Contents (Elt F) → (⟨S4096x192, .i32⟩ : BufTy).Contents (Elt F) → (⟨S4096x192, .i32⟩ : BufTy).Contents (Elt F)) main_v42 main_v58
  let main_c_18 : (⟨S_, .i32⟩ : BufTy).Contents (Elt F) := (constantI S_ 32 4#32)
  let main_v60 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_18
  let main_v61 : (⟨S4096x192, .i32⟩ : BufTy).Contents (Elt F) := (Host.shli : (⟨S4096x192, .i32⟩ : BufTy).Contents (Elt F) → (⟨S4096x192, .i32⟩ : BufTy).Contents (Elt F) → (⟨S4096x192, .i32⟩ : BufTy).Contents (Elt F)) main_v59 main_v60
  let main_v62 : (⟨S4096x192, .i32⟩ : BufTy).Contents (Elt F) := (ori : (⟨S4096x192, .i32⟩ : BufTy).Contents (Elt F) → (⟨S4096x192, .i32⟩ : BufTy).Contents (Elt F) → (⟨S4096x192, .i32⟩ : BufTy).Contents (Elt F)) main_v57 main_v61
  let main_c_19 : (⟨S_, .i32⟩ : BufTy).Contents (Elt F) := (constantI S_ 32 2#32)
  let main_v63 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_19
  let main_v64 : (⟨S4096x192, .i32⟩ : BufTy).Contents (Elt F) := (Host.shrsi : (⟨S4096x192, .i32⟩ : BufTy).Contents (Elt F) → (⟨S4096x192, .i32⟩ : BufTy).Contents (Elt F) → (⟨S4096x192, .i32⟩ : BufTy).Contents (Elt F)) main_v42 main_v63
  let main_c_20 : (⟨S_, .i32⟩ : BufTy).Contents (Elt F) := (constantI S_ 32 63#32)
  let main_v65 : (⟨S4096x192, .i32⟩ : BufTy).Contents (Elt F) := (broadcastInDim S4096x192 ![] bcast_S_S4096x192 : (⟨S_, .i32⟩ : BufTy).Contents (Elt F) → (⟨S4096x192, .i32⟩ : BufTy).Contents (Elt F)) main_c_20
  let main_v66 : (⟨S4096x192, .i32⟩ : BufTy).Contents (Elt F) := (andi : (⟨S4096x192, .i32⟩ : BufTy).Contents (Elt F) → (⟨S4096x192, .i32⟩ : BufTy).Contents (Elt F) → (⟨S4096x192, .i32⟩ : BufTy).Contents (Elt F)) main_v64 main_v65
  let main_v67 : (⟨S4096x192x1, .i32⟩ : BufTy).Contents (Elt F) := (broadcastInDim S4096x192x1 ![0, 1] bcast_S4096x192_S4096x192x1_0_1 : (⟨S4096x192, .i32⟩ : BufTy).Contents (Elt F) → (⟨S4096x192x1, .i32⟩ : BufTy).Contents (Elt F)) main_v44
  let main_v68 : (⟨S4096x192x1, .i32⟩ : BufTy).Contents (Elt F) := (broadcastInDim S4096x192x1 ![0, 1] bcast_S4096x192_S4096x192x1_0_1 : (⟨S4096x192, .i32⟩ : BufTy).Contents (Elt F) → (⟨S4096x192x1, .i32⟩ : BufTy).Contents (Elt F)) main_v53
  let main_v69 : (⟨S4096x192x1, .i32⟩ : BufTy).Contents (Elt F) := (broadcastInDim S4096x192x1 ![0, 1] bcast_S4096x192_S4096x192x1_0_1 : (⟨S4096x192, .i32⟩ : BufTy).Contents (Elt F) → (⟨S4096x192x1, .i32⟩ : BufTy).Contents (Elt F)) main_v62
  let main_v70 : (⟨S4096x192x1, .i32⟩ : BufTy).Contents (Elt F) := (broadcastInDim S4096x192x1 ![0, 1] bcast_S4096x192_S4096x192x1_0_1 : (⟨S4096x192, .i32⟩ : BufTy).Contents (Elt F) → (⟨S4096x192x1, .i32⟩ : BufTy).Contents (Elt F)) main_v66
  let main_v71 : (⟨S4096x192x4, .i32⟩ : BufTy).Contents (Elt F) := concatenate S4096x192x4 2 [⟨S4096x192x1, main_v67⟩, ⟨S4096x192x1, main_v68⟩, ⟨S4096x192x1, main_v69⟩, ⟨S4096x192x1, main_v70⟩] concatenates_S4096x192x1_S4096x192x1_S4096x192x1_S4096x192x1_S4096x192x4_d2
  let main_v72 : (⟨S4096x768, .i32⟩ : BufTy).Contents (Elt F) := shapeCast S4096x768 main_v71 shapeCasts_S4096x192x4_S4096x768
  let main_c_21 : (⟨S_, .i32⟩ : BufTy).Contents (Elt F) := (constantI S_ 32 32#32)
  let main_v73 : (⟨S4096x768, .i32⟩ : BufTy).Contents (Elt F) := (broadcastInDim S4096x768 ![] bcast_S_S4096x768 : (⟨S_, .i32⟩ : BufTy).Contents (Elt F) → (⟨S4096x768, .i32⟩ : BufTy).Contents (Elt F)) main_c_21
  let main_v74 : (⟨S4096x768, .i1⟩ : BufTy).Contents (Elt F) := (cmpi .sge : (⟨S4096x768, .i32⟩ : BufTy).Contents (Elt F) → (⟨S4096x768, .i32⟩ : BufTy).Contents (Elt F) → (⟨S4096x768, .i1⟩ : BufTy).Contents (Elt F)) main_v72 main_v73
  let main_cst_22 : (⟨S_, .f32⟩ : BufTy).Contents (Elt F) := (constant S_ .f32 0xBF800000#32)
  let main_cst_23 : (⟨S_, .f32⟩ : BufTy).Contents (Elt F) := (constant S_ .f32 0x3F800000#32)
  let main_call1_v0 : (⟨S4096x768, .f32⟩ : BufTy).Contents (Elt F) := (broadcastInDim S4096x768 ![] bcast_S_S4096x768) main_cst_22
  let main_call1_v1 : (⟨S4096x768, .f32⟩ : BufTy).Contents (Elt F) := (broadcastInDim S4096x768 ![] bcast_S_S4096x768) main_cst_23
  let main_v75 : (⟨S4096x768, .f32⟩ : BufTy).Contents (Elt F) := select main_v74 main_call1_v0 main_call1_v1
  let main_c_24 : (⟨S_, .i32⟩ : BufTy).Contents (Elt F) := (constantI S_ 32 2#32)
  let main_v76 : (⟨S4096x768, .i32⟩ : BufTy).Contents (Elt F) := (broadcastInDim S4096x768 ![] bcast_S_S4096x768 : (⟨S_, .i32⟩ : BufTy).Contents (Elt F) → (⟨S4096x768, .i32⟩ : BufTy).Contents (Elt F)) main_c_24
  let main_v77 : (⟨S4096x768, .i32⟩ : BufTy).Contents (Elt F) := (Host.shrsi : (⟨S4096x768, .i32⟩ : BufTy).Contents (Elt F) → (⟨S4096x768, .i32⟩ : BufTy).Contents (Elt F) → (⟨S4096x768, .i32⟩ : BufTy).Contents (Elt F)) main_v72 main_v76
  let main_c_25 : (⟨S_, .i32⟩ : BufTy).Contents (Elt F) := (constantI S_ 32 7#32)
  let main_v78 : (⟨S4096x768, .i32⟩ : BufTy).Contents (Elt F) := (broadcastInDim S4096x768 ![] bcast_S_S4096x768 : (⟨S_, .i32⟩ : BufTy).Contents (Elt F) → (⟨S4096x768, .i32⟩ : BufTy).Contents (Elt F)) main_c_25
  let main_v79 : (⟨S4096x768, .i32⟩ : BufTy).Contents (Elt F) := (andi : (⟨S4096x768, .i32⟩ : BufTy).Contents (Elt F) → (⟨S4096x768, .i32⟩ : BufTy).Contents (Elt F) → (⟨S4096x768, .i32⟩ : BufTy).Contents (Elt F)) main_v77 main_v78
  let main_v80 : (⟨S4096x768, .f32⟩ : BufTy).Contents (Elt F) := (sitofp .f32 : (⟨S4096x768, .i32⟩ : BufTy).Contents (Elt F) → (⟨S4096x768, .f32⟩ : BufTy).Contents (Elt F)) main_v79
  let main_c_26 : (⟨S_, .i32⟩ : BufTy).Contents (Elt F) := (constantI S_ 32 3#32)
  let main_v81 : (⟨S4096x768, .i32⟩ : BufTy).Contents (Elt F) := (broadcastInDim S4096x768 ![] bcast_S_S4096x768 : (⟨S_, .i32⟩ : BufTy).Contents (Elt F) → (⟨S4096x768, .i32⟩ : BufTy).Contents (Elt F)) main_c_26
  let main_v82 : (⟨S4096x768, .i32⟩ : BufTy).Contents (Elt F) := (andi : (⟨S4096x768, .i32⟩ : BufTy).Contents (Elt F) → (⟨S4096x768, .i32⟩ : BufTy).Contents (Elt F) → (⟨S4096x768, .i32⟩ : BufTy).Contents (Elt F)) main_v72 main_v81
  let main_v83 : (⟨S4096x768, .f32⟩ : BufTy).Contents (Elt F) := (sitofp .f32 : (⟨S4096x768, .i32⟩ : BufTy).Contents (Elt F) → (⟨S4096x768, .f32⟩ : BufTy).Contents (Elt F)) main_v82
  let main_cst_27 : (⟨S_, .f32⟩ : BufTy).Contents (Elt F) := (constant S_ .f32 0x00000000#32)
  let main_v84 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_27
  let main_v85 : (⟨S4096x768, .i1⟩ : BufTy).Contents (Elt F) := (cmpf .oeq : (⟨S4096x768, .f32⟩ : BufTy).Contents (Elt F) → (⟨S4096x768, .f32⟩ : BufTy).Contents (Elt F) → (⟨S4096x768, .i1⟩ : BufTy).Contents (Elt F)) main_v80 main_v84
  let main_cst_28 : (⟨S_, .f32⟩ : BufTy).Contents (Elt F) := (constant S_ .f32 0x3E800000#32)
  let main_v86 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_28
  let main_v87 : (⟨S4096x768, .f32⟩ : BufTy).Contents (Elt F) := (mulf : (⟨S4096x768, .f32⟩ : BufTy).Contents (Elt F) → (⟨S4096x768, .f32⟩ : BufTy).Contents (Elt F) → (⟨S4096x768, .f32⟩ : BufTy).Contents (Elt F)) main_v83 main_v86
  let main_cst_29 : (⟨S_, .f32⟩ : BufTy).Contents (Elt F) := (constant S_ .f32 0x3E800000#32)
  let main_v88 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_29
  let main_v89 : (⟨S4096x768, .f32⟩ : BufTy).Contents (Elt F) := (mulf : (⟨S4096x768, .f32⟩ : BufTy).Contents (Elt F) → (⟨S4096x768, .f32⟩ : BufTy).Contents (Elt F) → (⟨S4096x768, .f32⟩ : BufTy).Contents (Elt F)) main_v87 main_v88
  let main_cst_30 : (⟨S_, .f32⟩ : BufTy).Contents (Elt F) := (constant S_ .f32 0x3E800000#32)
  let main_v90 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_30
  let main_v91 : (⟨S4096x768, .f32⟩ : BufTy).Contents (Elt F) := (mulf : (⟨S4096x768, .f32⟩ : BufTy).Contents (Elt F) → (⟨S4096x768, .f32⟩ : BufTy).Contents (Elt F) → (⟨S4096x768, .f32⟩ : BufTy).Contents (Elt F)) main_v83 main_v90
  let main_cst_31 : (⟨S_, .f32⟩ : BufTy).Contents (Elt F) := (constant S_ .f32 0x3F800000#32)
  let main_v92 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_31
  let main_v93 : (⟨S4096x768, .f32⟩ : BufTy).Contents (Elt F) := (addf : (⟨S4096x768, .f32⟩ : BufTy).Contents (Elt F) → (⟨S4096x768, .f32⟩ : BufTy).Contents (Elt F) → (⟨S4096x768, .f32⟩ : BufTy).Contents (Elt F)) main_v92 main_v91
  let main_cst_32 : (⟨S_, .f32⟩ : BufTy).Contents (Elt F) := (constant S_ .f32 0x40400000#32)
  let main_v94 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_32
  let main_v95 : (⟨S4096x768, .f32⟩ : BufTy).Contents (Elt F) := (subf : (⟨S4096x768, .f32⟩ : BufTy).Contents (Elt F) → (⟨S4096x768, .f32⟩ : BufTy).Contents (Elt F) → (⟨S4096x768, .f32⟩ : BufTy).Contents (Elt F)) main_v80 main_v94
  let main_cst_33 : (⟨S_, .f32⟩ : BufTy).Contents (Elt F) := (constant S_ .f32 0x3F317218#32)
  let main_v96 : (⟨S4096x768, .f32⟩ : BufTy).Contents (Elt F) := (broadcastInDim S4096x768 ![] bcast_S_S4096x768 : (⟨S_, .f32⟩ : BufTy).Contents (Elt F) → (⟨S4096x768, .f32⟩ : BufTy).Contents (Elt F)) main_cst_33
  let main_v97 : (⟨S4096x768, .f32⟩ : BufTy).Contents (Elt F) := (mulf : (⟨S4096x768, .f32⟩ : BufTy).Contents (Elt F) → (⟨S4096x768, .f32⟩ : BufTy).Contents (Elt F) → (⟨S4096x768, .f32⟩ : BufTy).Contents (Elt F)) main_v96 main_v95
  let main_v98 : (⟨S4096x768, .f32⟩ : BufTy).Contents (Elt F) := (Host.exp : (⟨S4096x768, .f32⟩ : BufTy).Contents (Elt F) → (⟨S4096x768, .f32⟩ : BufTy).Contents (Elt F)) main_v97
  let main_v99 : (⟨S4096x768, .f32⟩ : BufTy).Contents (Elt F) := (mulf : (⟨S4096x768, .f32⟩ : BufTy).Contents (Elt F) → (⟨S4096x768, .f32⟩ : BufTy).Contents (Elt F) → (⟨S4096x768, .f32⟩ : BufTy).Contents (Elt F)) main_v93 main_v98
  let main_v100 : (⟨S4096x768, .f32⟩ : BufTy).Contents (Elt F) := select main_v85 main_v89 main_v99
  let main_v101 : (⟨S4096x768, .f32⟩ : BufTy).Contents (Elt F) := (id : (⟨S4096x768, .f32⟩ : BufTy).Contents (Elt F) → (⟨S4096x768, .f32⟩ : BufTy).Contents (Elt F)) main_v75
  let main_v102 : (⟨S4096x768, .f32⟩ : BufTy).Contents (Elt F) := (mulf : (⟨S4096x768, .f32⟩ : BufTy).Contents (Elt F) → (⟨S4096x768, .f32⟩ : BufTy).Contents (Elt F) → (⟨S4096x768, .f32⟩ : BufTy).Contents (Elt F)) main_v101 main_v100
  let main_v103 : (⟨S4096x24, .f32⟩ : BufTy).Contents (Elt F) := (sitofp .f32 : (⟨S4096x24, .i32⟩ : BufTy).Contents (Elt F) → (⟨S4096x24, .f32⟩ : BufTy).Contents (Elt F)) main_arg4
  let main_cst_34 : (⟨S_, .f32⟩ : BufTy).Contents (Elt F) := (constant S_ .f32 0x42FE0000#32)
  let main_v104 : (⟨S4096x24, .f32⟩ : BufTy).Contents (Elt F) := (broadcastInDim S4096x24 ![] bcast_S_S4096x24 : (⟨S_, .f32⟩ : BufTy).Contents (Elt F) → (⟨S4096x24, .f32⟩ : BufTy).Contents (Elt F)) main_cst_34
  let main_v105 : (⟨S4096x24, .f32⟩ : BufTy).Contents (Elt F) := (subf : (⟨S4096x24, .f32⟩ : BufTy).Contents (Elt F) → (⟨S4096x24, .f32⟩ : BufTy).Contents (Elt F) → (⟨S4096x24, .f32⟩ : BufTy).Contents (Elt F)) main_v103 main_v104
  let main_cst_35 : (⟨S_, .f32⟩ : BufTy).Contents (Elt F) := (constant S_ .f32 0x3F317218#32)
  let main_v106 : (⟨S4096x24, .f32⟩ : BufTy).Contents (Elt F) := (broadcastInDim S4096x24 ![] bcast_S_S4096x24 : (⟨S_, .f32⟩ : BufTy).Contents (Elt F) → (⟨S4096x24, .f32⟩ : BufTy).Contents (Elt F)) main_cst_35
  let main_v107 : (⟨S4096x24, .f32⟩ : BufTy).Contents (Elt F) := (mulf : (⟨S4096x24, .f32⟩ : BufTy).Contents (Elt F) → (⟨S4096x24, .f32⟩ : BufTy).Contents (Elt F) → (⟨S4096x24, .f32⟩ : BufTy).Contents (Elt F)) main_v106 main_v105
  let main_v108 : (⟨S4096x24, .f32⟩ : BufTy).Contents (Elt F) := (Host.exp : (⟨S4096x24, .f32⟩ : BufTy).Contents (Elt F) → (⟨S4096x24, .f32⟩ : BufTy).Contents (Elt F)) main_v107
  let main_v109 : (⟨S4096x24x32, .f32⟩ : BufTy).Contents (Elt F) := shapeCast S4096x24x32 main_v102 shapeCasts_S4096x768_S4096x24x32
  let main_v110 : (⟨S4096x24x1, .f32⟩ : BufTy).Contents (Elt F) := (broadcastInDim S4096x24x1 ![0, 1] bcast_S4096x24_S4096x24x1_0_1 : (⟨S4096x24, .f32⟩ : BufTy).Contents (Elt F) → (⟨S4096x24x1, .f32⟩ : BufTy).Contents (Elt F)) main_v108
  let main_v111 : (⟨S4096x24x32, .f32⟩ : BufTy).Contents (Elt F) := (broadcastInDim S4096x24x32 ![0, 1, 2] bcast_S4096x24x1_S4096x24x32_0_1_2 : (⟨S4096x24x1, .f32⟩ : BufTy).Contents (Elt F) → (⟨S4096x24x32, .f32⟩ : BufTy).Contents (Elt F)) main_v110
  let main_v112 : (⟨S4096x24x32, .f32⟩ : BufTy).Contents (Elt F) := (mulf : (⟨S4096x24x32, .f32⟩ : BufTy).Contents (Elt F) → (⟨S4096x24x32, .f32⟩ : BufTy).Contents (Elt F) → (⟨S4096x24x32, .f32⟩ : BufTy).Contents (Elt F)) main_v109 main_v111
  let main_v113 : (⟨S4096x768, .f32⟩ : BufTy).Contents (Elt F) := shapeCast S4096x768 main_v112 shapeCasts_S4096x24x32_S4096x768
  main_v113

-- 63 operations
/-- The 8-bit group: codes [4096, 256] and exponents [4096, 8] to values [4096, 256]. -/
def dq8 (main_arg2 : (⟨S4096x256, .i32⟩ : BufTy).Contents (Elt F)) (main_arg5 : (⟨S4096x8, .i32⟩ : BufTy).Contents (Elt F)) :
    (⟨S4096x256, .f32⟩ : BufTy).Contents (Elt F) :=
  let main_c_36 : (⟨S_, .i32⟩ : BufTy).Contents (Elt F) := (constantI S_ 32 128#32)
  let main_v115 : (⟨S4096x256, .i32⟩ : BufTy).Contents (Elt F) := (broadcastInDim S4096x256 ![] bcast_S_S4096x256 : (⟨S_, .i32⟩ : BufTy).Contents (Elt F) → (⟨S4096x256, .i32⟩ : BufTy).Contents (Elt F)) main_c_36
  let main_v116 : (⟨S4096x256, .i1⟩ : BufTy).Contents (Elt F) := (cmpi .sge : (⟨S4096x256, .i32⟩ : BufTy).Contents (Elt F) → (⟨S4096x256, .i32⟩ : BufTy).Contents (Elt F) → (⟨S4096x256, .i1⟩ : BufTy).Contents (Elt F)) main_arg2 main_v115
  let main_cst_37 : (⟨S_, .f32⟩ : BufTy).Contents (Elt F) := (constant S_ .f32 0xBF800000#32)
  let main_cst_38 : (⟨S_, .f32⟩ : BufTy).Contents (Elt F) := (constant S_ .f32 0x3F800000#32)
  let main_call3_v0 : (⟨S4096x256, .f32⟩ : BufTy).Contents (Elt F) := (broadcastInDim S4096x256 ![] bcast_S_S4096x256) main_cst_37
  let main_call3_v1 : (⟨S4096x256, .f32⟩ : BufTy).Contents (Elt F) := (broadcastInDim S4096x256 ![] bcast_S_S4096x256) main_cst_38
  let main_v117 : (⟨S4096x256, .f32⟩ : BufTy).Contents (Elt F) := select main_v116 main_call3_v0 main_call3_v1
  let main_c_39 : (⟨S_, .i32⟩ : BufTy).Contents (Elt F) := (constantI S_ 32 3#32)
  let main_v118 : (⟨S4096x256, .i32⟩ : BufTy).Contents (Elt F) := (broadcastInDim S4096x256 ![] bcast_S_S4096x256 : (⟨S_, .i32⟩ : BufTy).Contents (Elt F) → (⟨S4096x256, .i32⟩ : BufTy).Contents (Elt F)) main_c_39
  let main_v119 : (⟨S4096x256, .i32⟩ : BufTy).Contents (Elt F) := (Host.shrsi : (⟨S4096x256, .i32⟩ : BufTy).Contents (Elt F) → (⟨S4096x256, .i32⟩ : BufTy).Contents (Elt F) → (⟨S4096x256, .i32⟩ : BufTy).Contents (Elt F)) main_arg2 main_v118
  let main_c_40 : (⟨S_, .i32⟩ : BufTy).Contents (Elt F) := (constantI S_ 32 15#32)
  let main_v120 : (⟨S4096x256, .i32⟩ : BufTy).Contents (Elt F) := (broadcastInDim S4096x256 ![] bcast_S_S4096x256 : (⟨S_, .i32⟩ : BufTy).Contents (Elt F) → (⟨S4096x256, .i32⟩ : BufTy).Contents (Elt F)) main_c_40
  let main_v121 : (⟨S4096x256, .i32⟩ : BufTy).Contents (Elt F) := (andi : (⟨S4096x256, .i32⟩ : BufTy).Contents (Elt F) → (⟨S4096x256, .i32⟩ : BufTy).Contents (Elt F) → (⟨S4096x256, .i32⟩ : BufTy).Contents (Elt F)) main_v119 main_v120
  let main_v122 : (⟨S4096x256, .f32⟩ : BufTy).Contents (Elt F) := (sitofp .f32 : (⟨S4096x256, .i32⟩ : BufTy).Contents (Elt F) → (⟨S4096x256, .f32⟩ : BufTy).Contents (Elt F)) main_v121
  let main_c_41 : (⟨S_, .i32⟩ : BufTy).Contents (Elt F) := (constantI S_ 32 7#32)
  let main_v123 : (⟨S4096x256, .i32⟩ : BufTy).Contents (Elt F) := (broadcastInDim S4096x256 ![] bcast_S_S4096x256 : (⟨S_, .i32⟩ : BufTy).Contents (Elt F) → (⟨S4096x256, .i32⟩ : BufTy).Contents (Elt F)) main_c_41
  let main_v124 : (⟨S4096x256, .i32⟩ : BufTy).Contents (Elt F) := (andi : (⟨S4096x256, .i32⟩ : BufTy).Contents (Elt F) → (⟨S4096x256, .i32⟩ : BufTy).Contents (Elt F) → (⟨S4096x256, .i32⟩ : BufTy).Contents (Elt F)) main_arg2 main_v123
  let main_v125 : (⟨S4096x256, .f32⟩ : BufTy).Contents (Elt F) := (sitofp .f32 : (⟨S4096x256, .i32⟩ : BufTy).Contents (Elt F) → (⟨S4096x256, .f32⟩ : BufTy).Contents (Elt F)) main_v124
  let main_cst_42 : (⟨S_, .f32⟩ : BufTy).Contents (Elt F) := (constant S_ .f32 0x00000000#32)
  let main_v126 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_cst_42
  let main_v127 : (⟨S4096x256, .i1⟩ : BufTy).Contents (Elt F) := (cmpf .oeq : (⟨S4096x256, .f32⟩ : BufTy).Contents (Elt F) → (⟨S4096x256, .f32⟩ : BufTy).Contents (Elt F) → (⟨S4096x256, .i1⟩ : BufTy).Contents (Elt F)) main_v122 main_v126
  let main_cst_43 : (⟨S_, .f32⟩ : BufTy).Contents (Elt F) := (constant S_ .f32 0x3E000000#32)
  let main_v128 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_cst_43
  let main_v129 : (⟨S4096x256, .f32⟩ : BufTy).Contents (Elt F) := (mulf : (⟨S4096x256, .f32⟩ : BufTy).Contents (Elt F) → (⟨S4096x256, .f32⟩ : BufTy).Contents (Elt F) → (⟨S4096x256, .f32⟩ : BufTy).Contents (Elt F)) main_v125 main_v128
  let main_cst_44 : (⟨S_, .f32⟩ : BufTy).Contents (Elt F) := (constant S_ .f32 0xC0C00000#32)
  let main_cst_45 : (⟨S_, .f32⟩ : BufTy).Contents (Elt F) := (constant S_ .f32 0x3F317218#32)
  let main_v130 : (⟨S_, .f32⟩ : BufTy).Contents (Elt F) := (broadcastInDim S_ ![] bcast_S_S_ : (⟨S_, .f32⟩ : BufTy).Contents (Elt F) → (⟨S_, .f32⟩ : BufTy).Contents (Elt F)) main_cst_45
  let main_v131 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) main_v130 main_cst_44
  let main_v132 : (⟨S_, .f32⟩ : BufTy).Contents (Elt F) := (Host.exp : (⟨S_, .f32⟩ : BufTy).Contents (Elt F) → (⟨S_, .f32⟩ : BufTy).Contents (Elt F)) main_v131
  let main_v133 : (⟨S_, .f32⟩ : BufTy).Contents (Elt F) := (id : (⟨S_, .f32⟩ : BufTy).Contents (Elt F) → (⟨S_, .f32⟩ : BufTy).Contents (Elt F)) main_v132
  let main_v134 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_v133
  let main_v135 : (⟨S4096x256, .f32⟩ : BufTy).Contents (Elt F) := (mulf : (⟨S4096x256, .f32⟩ : BufTy).Contents (Elt F) → (⟨S4096x256, .f32⟩ : BufTy).Contents (Elt F) → (⟨S4096x256, .f32⟩ : BufTy).Contents (Elt F)) main_v129 main_v134
  let main_cst_46 : (⟨S_, .f32⟩ : BufTy).Contents (Elt F) := (constant S_ .f32 0x3E000000#32)
  let main_v136 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_cst_46
  let main_v137 : (⟨S4096x256, .f32⟩ : BufTy).Contents (Elt F) := (mulf : (⟨S4096x256, .f32⟩ : BufTy).Contents (Elt F) → (⟨S4096x256, .f32⟩ : BufTy).Contents (Elt F) → (⟨S4096x256, .f32⟩ : BufTy).Contents (Elt F)) main_v125 main_v136
  let main_cst_47 : (⟨S_, .f32⟩ : BufTy).Contents (Elt F) := (constant S_ .f32 0x3F800000#32)
  let main_v138 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_cst_47
  let main_v139 : (⟨S4096x256, .f32⟩ : BufTy).Contents (Elt F) := (addf : (⟨S4096x256, .f32⟩ : BufTy).Contents (Elt F) → (⟨S4096x256, .f32⟩ : BufTy).Contents (Elt F) → (⟨S4096x256, .f32⟩ : BufTy).Contents (Elt F)) main_v138 main_v137
  let main_cst_48 : (⟨S_, .f32⟩ : BufTy).Contents (Elt F) := (constant S_ .f32 0x40E00000#32)
  let main_v140 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_cst_48
  let main_v141 : (⟨S4096x256, .f32⟩ : BufTy).Contents (Elt F) := (subf : (⟨S4096x256, .f32⟩ : BufTy).Contents (Elt F) → (⟨S4096x256, .f32⟩ : BufTy).Contents (Elt F) → (⟨S4096x256, .f32⟩ : BufTy).Contents (Elt F)) main_v122 main_v140
  let main_cst_49 : (⟨S_, .f32⟩ : BufTy).Contents (Elt F) := (constant S_ .f32 0x3F317218#32)
  let main_v142 : (⟨S4096x256, .f32⟩ : BufTy).Contents (Elt F) := (broadcastInDim S4096x256 ![] bcast_S_S4096x256 : (⟨S_, .f32⟩ : BufTy).Contents (Elt F) → (⟨S4096x256, .f32⟩ : BufTy).Contents (Elt F)) main_cst_49
  let main_v143 : (⟨S4096x256, .f32⟩ : BufTy).Contents (Elt F) := (mulf : (⟨S4096x256, .f32⟩ : BufTy).Contents (Elt F) → (⟨S4096x256, .f32⟩ : BufTy).Contents (Elt F) → (⟨S4096x256, .f32⟩ : BufTy).Contents (Elt F)) main_v142 main_v141
  let main_v144 : (⟨S4096x256, .f32⟩ : BufTy).Contents (Elt F) := (Host.exp : (⟨S4096x256, .f32⟩ : BufTy).Contents (Elt F) → (⟨S4096x256, .f32⟩ : BufTy).Contents (Elt F)) main_v143
  let main_v145 : (⟨S4096x256, .f32⟩ : BufTy).Contents (Elt F) := (mulf : (⟨S4096x256, .f32⟩ : BufTy).Contents (Elt F) → (⟨S4096x256, .f32⟩ : BufTy).Contents (Elt F) → (⟨S4096x256, .f32⟩ : BufTy).Contents (Elt F)) main_v139 main_v144
  let main_v146 : (⟨S4096x256, .f32⟩ : BufTy).Contents (Elt F) := select main_v127 main_v135 main_v145
  let main_v147 : (⟨S4096x256, .f32⟩ : BufTy).Contents (Elt F) := (id : (⟨S4096x256, .f32⟩ : BufTy).Contents (Elt F) → (⟨S4096x256, .f32⟩ : BufTy).Contents (Elt F)) main_v117
  let main_v148 : (⟨S4096x256, .f32⟩ : BufTy).Contents (Elt F) := (mulf : (⟨S4096x256, .f32⟩ : BufTy).Contents (Elt F) → (⟨S4096x256, .f32⟩ : BufTy).Contents (Elt F) → (⟨S4096x256, .f32⟩ : BufTy).Contents (Elt F)) main_v147 main_v146
  let main_v149 : (⟨S4096x8, .f32⟩ : BufTy).Contents (Elt F) := (sitofp .f32 : (⟨S4096x8, .i32⟩ : BufTy).Contents (Elt F) → (⟨S4096x8, .f32⟩ : BufTy).Contents (Elt F)) main_arg5
  let main_cst_50 : (⟨S_, .f32⟩ : BufTy).Contents (Elt F) := (constant S_ .f32 0x42FE0000#32)
  let main_v150 : (⟨S4096x8, .f32⟩ : BufTy).Contents (Elt F) := (broadcastInDim S4096x8 ![] bcast_S_S4096x8 : (⟨S_, .f32⟩ : BufTy).Contents (Elt F) → (⟨S4096x8, .f32⟩ : BufTy).Contents (Elt F)) main_cst_50
  let main_v151 : (⟨S4096x8, .f32⟩ : BufTy).Contents (Elt F) := (subf : (⟨S4096x8, .f32⟩ : BufTy).Contents (Elt F) → (⟨S4096x8, .f32⟩ : BufTy).Contents (Elt F) → (⟨S4096x8, .f32⟩ : BufTy).Contents (Elt F)) main_v149 main_v150
  let main_cst_51 : (⟨S_, .f32⟩ : BufTy).Contents (Elt F) := (constant S_ .f32 0x3F317218#32)
  let main_v152 : (⟨S4096x8, .f32⟩ : BufTy).Contents (Elt F) := (broadcastInDim S4096x8 ![] bcast_S_S4096x8 : (⟨S_, .f32⟩ : BufTy).Contents (Elt F) → (⟨S4096x8, .f32⟩ : BufTy).Contents (Elt F)) main_cst_51
  let main_v153 : (⟨S4096x8, .f32⟩ : BufTy).Contents (Elt F) := (mulf : (⟨S4096x8, .f32⟩ : BufTy).Contents (Elt F) → (⟨S4096x8, .f32⟩ : BufTy).Contents (Elt F) → (⟨S4096x8, .f32⟩ : BufTy).Contents (Elt F)) main_v152 main_v151
  let main_v154 : (⟨S4096x8, .f32⟩ : BufTy).Contents (Elt F) := (Host.exp : (⟨S4096x8, .f32⟩ : BufTy).Contents (Elt F) → (⟨S4096x8, .f32⟩ : BufTy).Contents (Elt F)) main_v153
  let main_v155 : (⟨S4096x8x32, .f32⟩ : BufTy).Contents (Elt F) := shapeCast S4096x8x32 main_v148 shapeCasts_S4096x256_S4096x8x32
  let main_v156 : (⟨S4096x8x1, .f32⟩ : BufTy).Contents (Elt F) := (broadcastInDim S4096x8x1 ![0, 1] bcast_S4096x8_S4096x8x1_0_1 : (⟨S4096x8, .f32⟩ : BufTy).Contents (Elt F) → (⟨S4096x8x1, .f32⟩ : BufTy).Contents (Elt F)) main_v154
  let main_v157 : (⟨S4096x8x32, .f32⟩ : BufTy).Contents (Elt F) := (broadcastInDim S4096x8x32 ![0, 1, 2] bcast_S4096x8x1_S4096x8x32_0_1_2 : (⟨S4096x8x1, .f32⟩ : BufTy).Contents (Elt F) → (⟨S4096x8x32, .f32⟩ : BufTy).Contents (Elt F)) main_v156
  let main_v158 : (⟨S4096x8x32, .f32⟩ : BufTy).Contents (Elt F) := (mulf : (⟨S4096x8x32, .f32⟩ : BufTy).Contents (Elt F) → (⟨S4096x8x32, .f32⟩ : BufTy).Contents (Elt F) → (⟨S4096x8x32, .f32⟩ : BufTy).Contents (Elt F)) main_v155 main_v157
  let main_v159 : (⟨S4096x256, .f32⟩ : BufTy).Contents (Elt F) := shapeCast S4096x256 main_v158 shapeCasts_S4096x8x32_S4096x256
  main_v159

end Cert.KernelIdeal.Hand

end
-- ==== Proof.KI.ArrA4.lean ====
/-
  The 4-bit activations as the region finds them: the 4-bit dequantisation of arguments 0 and 3, rounded to bf16.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_a4 (c : Dev nD) :
    V m c main_v35 = truncf .bf16 (dq4 (m ((c : Thread nD τ).loc main_arg0)) (m ((c : Thread nD τ).loc main_arg3))) Facts₀.bitsLt_bf16_f32 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.KI.ArrA6.lean ====
/-
  The 6-bit activations as the region finds them: the 6-bit dequantisation of arguments 1 and 4, rounded to bf16.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_a6 (c : Dev nD) :
    V m c main_v114 = truncf .bf16 (dq6 (m ((c : Thread nD τ).loc main_arg1)) (m ((c : Thread nD τ).loc main_arg4))) Facts₀.bitsLt_bf16_f32 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.KI.ArrA8.lean ====
/-
  The 8-bit activations as the region finds them: the 8-bit dequantisation of arguments 2 and 5, rounded to bf16.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_a8 (c : Dev nD) :
    V m c main_v160 = truncf .bf16 (dq8 (m ((c : Thread nD τ).loc main_arg2)) (m ((c : Thread nD τ).loc main_arg5))) Facts₀.bitsLt_bf16_f32 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.KI.ArrW4.lean ====
/-
  The 4-bit weights as the region finds them: the 4-bit dequantisation of argument 6 and of argument 9 laid out as [4096, 96], rounded to bf16.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_w4 (c : Dev nD) :
    V m c main_v197 = truncf .bf16 (dq4 (m ((c : Thread nD τ).loc main_arg6)) (shapeCast S4096x96 (m ((c : Thread nD τ).loc main_arg9)) Facts₀.shapeCasts_S393216_S4096x96)) Facts₀.bitsLt_bf16_f32 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.KI.ArrW6.lean ====
/-
  The 6-bit weights as the region finds them: the 6-bit dequantisation of argument 7 and of argument 10 laid out as [4096, 24], rounded to bf16.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_w6 (c : Dev nD) :
    V m c main_v277 = truncf .bf16 (dq6 (m ((c : Thread nD τ).loc main_arg7)) (shapeCast S4096x24 (m ((c : Thread nD τ).loc main_arg10)) Facts₀.shapeCasts_S98304_S4096x24)) Facts₀.bitsLt_bf16_f32 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.KI.ArrW8.lean ====
/-
  The 8-bit weights as the region finds them: the 8-bit dequantisation of argument 8 and of argument 11 laid out as [4096, 8], rounded to bf16.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_w8 (c : Dev nD) :
    V m c main_v324 = truncf .bf16 (dq8 (m ((c : Thread nD τ).loc main_arg8)) (shapeCast S4096x8 (m ((c : Thread nD τ).loc main_arg11)) Facts₀.shapeCasts_S32768_S4096x8)) Facts₀.bitsLt_bf16_f32 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.KI.ArrB.lean ====
/-
  The bias as the region finds it: argument 12 laid out as one row of 4096.
  The host part is a fold of some 440 operations over the device's buffers; reading one buffer out of it is a
  computation: each operation's result at its own buffer is its function of its operands' contents, and at any other
  buffer what was there before. What is left is the dequantisation's closed term, which is the definition's by unfolding.
-/
import proofs.«422557_j67190468379216_3_alg».proof.Proof.KI.Entry
import proofs.«422557_j67190468379216_3_alg».proof.Proof.Dequant
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem V_bias (c : Dev nD) :
    V m c main_v325 = shapeCast S1x4096 (m ((c : Thread nD τ).loc main_arg12)) Facts₀.shapeCasts_S4096_S1x4096 := by
  dsimp only [V]
  simp only [stretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  after_results_simp
  try simp only [StableHlo.TRef.ofBuf, StableHlo.TRef.toBuf, cast_eq]
  rfl

end Cert.KernelIdeal.Hand

end
-- ==== Proof.R.Ops.lean ====
/- GENERATED by 'python3 scratch/gen_refops.py > proof/Proof/R/Ops.lean' (run in the certificate's directory) from
   proof/ReferenceIdeal.lean: a TABLE, no argument.

  The reference's @main as literal lists of its StableHLO operations, in program order: one list per printed window of
  @main (opsR0 ... opsR7), a call of an outlined helper replaced by the helper's own operations over that call's
  buffers, and the eleven closing operations apart (opsTail: three transposes, three products, two sums, the bias
  broadcast twice, the last sum). Each list comes with the fact that its operations touch TensorCore references only. -/
import proofs.«422557_j67190468379216_3_alg».proof.Proof.Gen.ReferenceIdeal
import Idealize.ShloMosaic.Lib.StableHlo.Run

set_option maxRecDepth 16384

noncomputable section

namespace Cert.ReferenceIdeal.Hand

open Cert.ReferenceIdeal Cert.ReferenceIdeal.Facts₀ Cert.ReferenceIdeal.Facts
open Idealize.ShloMosaic Idealize.SL.Sem

variable {F : FTy → Type} [FloatOps F]

set_option maxHeartbeats 40000000 in
/-- 62 operations. -/
abbrev opsR0 : List (HloOp τ sig (Elt F)) :=
  [ StableHlo.nullary main_cst (fun i => FloatOps.ofBits .f32 (lit0 (S8.rowMajor i))),
    StableHlo.nullary main_c (constantI S_ 32 15#32),
    StableHlo.unary main_c main_v0 (broadcastInDim S4096x1536 ![] bcast_S_S4096x1536 : (⟨S_, .i32⟩ : BufTy).Contents (Elt F) → (⟨S4096x1536, .i32⟩ : BufTy).Contents (Elt F)),
    StableHlo.binary main_arg0 main_v0 main_v1 (andi : (⟨S4096x1536, .i32⟩ : BufTy).Contents (Elt F) → (⟨S4096x1536, .i32⟩ : BufTy).Contents (Elt F) → (⟨S4096x1536, .i32⟩ : BufTy).Contents (Elt F)),
    StableHlo.nullary main_c_0 (constantI S_ 32 4#32),
    StableHlo.unary main_c_0 main_v2 (broadcastInDim S4096x1536 ![] bcast_S_S4096x1536 : (⟨S_, .i32⟩ : BufTy).Contents (Elt F) → (⟨S4096x1536, .i32⟩ : BufTy).Contents (Elt F)),
    StableHlo.binary main_arg0 main_v2 main_v3 (Host.shrsi : (⟨S4096x1536, .i32⟩ : BufTy).Contents (Elt F) → (⟨S4096x1536, .i32⟩ : BufTy).Contents (Elt F) → (⟨S4096x1536, .i32⟩ : BufTy).Contents (Elt F)),
    StableHlo.nullary main_c_1 (constantI S_ 32 15#32),
    StableHlo.unary main_c_1 main_v4 (broadcastInDim S4096x1536 ![] bcast_S_S4096x1536 : (⟨S_, .i32⟩ : BufTy).Contents (Elt F) → (⟨S4096x1536, .i32⟩ : BufTy).Contents (Elt F)),
    StableHlo.binary main_v3 main_v4 main_v5 (andi : (⟨S4096x1536, .i32⟩ : BufTy).Contents (Elt F) → (⟨S4096x1536, .i32⟩ : BufTy).Contents (Elt F) → (⟨S4096x1536, .i32⟩ : BufTy).Contents (Elt F)),
    StableHlo.unary main_v1 main_v6 (broadcastInDim S4096x1536x1 ![0, 1] bcast_S4096x1536_S4096x1536x1_0_1 : (⟨S4096x1536, .i32⟩ : BufTy).Contents (Elt F) → (⟨S4096x1536x1, .i32⟩ : BufTy).Contents (Elt F)),
    StableHlo.unary main_v5 main_v7 (broadcastInDim S4096x1536x1 ![0, 1] bcast_S4096x1536_S4096x1536x1_0_1 : (⟨S4096x1536, .i32⟩ : BufTy).Contents (Elt F) → (⟨S4096x1536x1, .i32⟩ : BufTy).Contents (Elt F)),
    StableHlo.binary main_v6 main_v7 main_v8 ((fun a b => concatenate S4096x1536x2 2 [⟨S4096x1536x1, a⟩, ⟨S4096x1536x1, b⟩] concatenates_S4096x1536x1_S4096x1536x1_S4096x1536x2_d2) : (⟨S4096x1536x1, .i32⟩ : BufTy).Contents (Elt F) → (⟨S4096x1536x1, .i32⟩ : BufTy).Contents (Elt F) → (⟨S4096x1536x2, .i32⟩ : BufTy).Contents (Elt F)),
    StableHlo.reshape main_v8 main_v9 rfl shapeCasts_S4096x1536x2_S4096x3072,
    StableHlo.nullary main_c_2 (constantI S_ 32 8#32),
    StableHlo.unary main_c_2 main_v10 (broadcastInDim S4096x3072 ![] bcast_S_S4096x3072 : (⟨S_, .i32⟩ : BufTy).Contents (Elt F) → (⟨S4096x3072, .i32⟩ : BufTy).Contents (Elt F)),
    StableHlo.binary main_v9 main_v10 main_v11 (cmpi .sge : (⟨S4096x3072, .i32⟩ : BufTy).Contents (Elt F) → (⟨S4096x3072, .i32⟩ : BufTy).Contents (Elt F) → (⟨S4096x3072, .i1⟩ : BufTy).Contents (Elt F)),
    StableHlo.nullary main_cst_3 (constant S_ .f32 0xBF800000#32),
    StableHlo.nullary main_cst_4 (constant S_ .f32 0x3F800000#32),
    StableHlo.TRef.unary (.of main_cst_3 : StableHlo.TRef sig ⟨S_, .f32⟩) main_call0.v0 (broadcastInDim S4096x3072 ![] bcast_S_S4096x3072),
    StableHlo.TRef.unary (.of main_cst_4 : StableHlo.TRef sig ⟨S_, .f32⟩) main_call0.v1 (broadcastInDim S4096x3072 ![] bcast_S_S4096x3072),
    StableHlo.TRef.ternary (.of main_v11 : StableHlo.TRef sig ⟨S4096x3072, .i1⟩) main_call0.v0 main_call0.v1 main_call0.v2 select,
    StableHlo.nullary main_c_5 (constantI S_ 32 7#32),
    StableHlo.unary main_c_5 main_v13 (broadcastInDim S4096x3072 ![] bcast_S_S4096x3072 : (⟨S_, .i32⟩ : BufTy).Contents (Elt F) → (⟨S4096x3072, .i32⟩ : BufTy).Contents (Elt F)),
    StableHlo.binary main_v9 main_v13 main_v14 (andi : (⟨S4096x3072, .i32⟩ : BufTy).Contents (Elt F) → (⟨S4096x3072, .i32⟩ : BufTy).Contents (Elt F) → (⟨S4096x3072, .i32⟩ : BufTy).Contents (Elt F)),
    StableHlo.nullary main_c_6 (constantI S_ 32 0#32),
    StableHlo.unary main_c_6 main_v15 (broadcastInDim S4096x3072 ![] bcast_S_S4096x3072 : (⟨S_, .i32⟩ : BufTy).Contents (Elt F) → (⟨S4096x3072, .i32⟩ : BufTy).Contents (Elt F)),
    StableHlo.binary main_v14 main_v15 main_v16 (cmpi .slt : (⟨S4096x3072, .i32⟩ : BufTy).Contents (Elt F) → (⟨S4096x3072, .i32⟩ : BufTy).Contents (Elt F) → (⟨S4096x3072, .i1⟩ : BufTy).Contents (Elt F)),
    StableHlo.nullary main_c_7 (constantI S_ 32 8#32),
    StableHlo.unary main_c_7 main_v17 (broadcastInDim S4096x3072 ![] bcast_S_S4096x3072 : (⟨S_, .i32⟩ : BufTy).Contents (Elt F) → (⟨S4096x3072, .i32⟩ : BufTy).Contents (Elt F)),
    StableHlo.binary main_v14 main_v17 main_v18 (addi : (⟨S4096x3072, .i32⟩ : BufTy).Contents (Elt F) → (⟨S4096x3072, .i32⟩ : BufTy).Contents (Elt F) → (⟨S4096x3072, .i32⟩ : BufTy).Contents (Elt F)),
    StableHlo.ternary main_v16 main_v18 main_v14 main_v19 (select : (⟨S4096x3072, .i1⟩ : BufTy).Contents (Elt F) → (⟨S4096x3072, .i32⟩ : BufTy).Contents (Elt F) → (⟨S4096x3072, .i32⟩ : BufTy).Contents (Elt F) → (⟨S4096x3072, .i32⟩ : BufTy).Contents (Elt F)),
    StableHlo.unary main_v19 main_v20 (broadcastInDim S4096x3072x1 ![0, 1] bcast_S4096x3072_S4096x3072x1_0_1 : (⟨S4096x3072, .i32⟩ : BufTy).Contents (Elt F) → (⟨S4096x3072x1, .i32⟩ : BufTy).Contents (Elt F)),
    StableHlo.binary main_cst main_v20 main_v21 ((fun x i => Host.gather gather_S8_S4096x3072x1_S4096x3072_n_0_n_n_0_2_1 x i) : (⟨S8, .f32⟩ : BufTy).Contents (Elt F) → (⟨S4096x3072x1, .i32⟩ : BufTy).Contents (Elt F) → (⟨S4096x3072, .f32⟩ : BufTy).Contents (Elt F)),
    StableHlo.unary main_v12 main_v22 (id : (⟨S4096x3072, .f32⟩ : BufTy).Contents (Elt F) → (⟨S4096x3072, .f32⟩ : BufTy).Contents (Elt F)),
    StableHlo.binary main_v22 main_v21 main_v23 (mulf : (⟨S4096x3072, .f32⟩ : BufTy).Contents (Elt F) → (⟨S4096x3072, .f32⟩ : BufTy).Contents (Elt F) → (⟨S4096x3072, .f32⟩ : BufTy).Contents (Elt F)),
    StableHlo.unary main_arg3 main_v24 (sitofp .f32 : (⟨S4096x96, .i32⟩ : BufTy).Contents (Elt F) → (⟨S4096x96, .f32⟩ : BufTy).Contents (Elt F)),
    StableHlo.nullary main_cst_8 (constant S_ .f32 0x42FE0000#32),
    StableHlo.unary main_cst_8 main_v25 (broadcastInDim S4096x96 ![] bcast_S_S4096x96 : (⟨S_, .f32⟩ : BufTy).Contents (Elt F) → (⟨S4096x96, .f32⟩ : BufTy).Contents (Elt F)),
    StableHlo.binary main_v24 main_v25 main_v26 (subf : (⟨S4096x96, .f32⟩ : BufTy).Contents (Elt F) → (⟨S4096x96, .f32⟩ : BufTy).Contents (Elt F) → (⟨S4096x96, .f32⟩ : BufTy).Contents (Elt F)),
    StableHlo.nullary main_cst_9 (constant S_ .f32 0x3F317218#32),
    StableHlo.unary main_cst_9 main_v27 (broadcastInDim S4096x96 ![] bcast_S_S4096x96 : (⟨S_, .f32⟩ : BufTy).Contents (Elt F) → (⟨S4096x96, .f32⟩ : BufTy).Contents (Elt F)),
    StableHlo.binary main_v27 main_v26 main_v28 (mulf : (⟨S4096x96, .f32⟩ : BufTy).Contents (Elt F) → (⟨S4096x96, .f32⟩ : BufTy).Contents (Elt F) → (⟨S4096x96, .f32⟩ : BufTy).Contents (Elt F)),
    StableHlo.unary main_v28 main_v29 (Host.exp : (⟨S4096x96, .f32⟩ : BufTy).Contents (Elt F) → (⟨S4096x96, .f32⟩ : BufTy).Contents (Elt F)),
    StableHlo.reshape main_v23 main_v30 rfl shapeCasts_S4096x3072_S4096x96x32,
    StableHlo.unary main_v29 main_v31 (broadcastInDim S4096x96x1 ![0, 1] bcast_S4096x96_S4096x96x1_0_1 : (⟨S4096x96, .f32⟩ : BufTy).Contents (Elt F) → (⟨S4096x96x1, .f32⟩ : BufTy).Contents (Elt F)),
    StableHlo.unary main_v31 main_v32 (broadcastInDim S4096x96x32 ![0, 1, 2] bcast_S4096x96x1_S4096x96x32_0_1_2 : (⟨S4096x96x1, .f32⟩ : BufTy).Contents (Elt F) → (⟨S4096x96x32, .f32⟩ : BufTy).Contents (Elt F)),
    StableHlo.binary main_v30 main_v32 main_v33 (mulf : (⟨S4096x96x32, .f32⟩ : BufTy).Contents (Elt F) → (⟨S4096x96x32, .f32⟩ : BufTy).Contents (Elt F) → (⟨S4096x96x32, .f32⟩ : BufTy).Contents (Elt F)),
    StableHlo.reshape main_v33 main_v34 rfl shapeCasts_S4096x96x32_S4096x3072,
    StableHlo.reshape main_arg9 main_v35 rfl shapeCasts_S393216_S4096x96,
    StableHlo.nullary main_c_10 (constantI S_ 32 15#32),
    StableHlo.unary main_c_10 main_v36 (broadcastInDim S4096x1536 ![] bcast_S_S4096x1536 : (⟨S_, .i32⟩ : BufTy).Contents (Elt F) → (⟨S4096x1536, .i32⟩ : BufTy).Contents (Elt F)),
    StableHlo.binary main_arg6 main_v36 main_v37 (andi : (⟨S4096x1536, .i32⟩ : BufTy).Contents (Elt F) → (⟨S4096x1536, .i32⟩ : BufTy).Contents (Elt F) → (⟨S4096x1536, .i32⟩ : BufTy).Contents (Elt F)),
    StableHlo.nullary main_c_11 (constantI S_ 32 4#32),
    StableHlo.unary main_c_11 main_v38 (broadcastInDim S4096x1536 ![] bcast_S_S4096x1536 : (⟨S_, .i32⟩ : BufTy).Contents (Elt F) → (⟨S4096x1536, .i32⟩ : BufTy).Contents (Elt F)),
    StableHlo.binary main_arg6 main_v38 main_v39 (Host.shrsi : (⟨S4096x1536, .i32⟩ : BufTy).Contents (Elt F) → (⟨S4096x1536, .i32⟩ : BufTy).Contents (Elt F) → (⟨S4096x1536, .i32⟩ : BufTy).Contents (Elt F)),
    StableHlo.nullary main_c_12 (constantI S_ 32 15#32),
    StableHlo.unary main_c_12 main_v40 (broadcastInDim S4096x1536 ![] bcast_S_S4096x1536 : (⟨S_, .i32⟩ : BufTy).Contents (Elt F) → (⟨S4096x1536, .i32⟩ : BufTy).Contents (Elt F)),
    StableHlo.binary main_v39 main_v40 main_v41 (andi : (⟨S4096x1536, .i32⟩ : BufTy).Contents (Elt F) → (⟨S4096x1536, .i32⟩ : BufTy).Contents (Elt F) → (⟨S4096x1536, .i32⟩ : BufTy).Contents (Elt F)),
    StableHlo.unary main_v37 main_v42 (broadcastInDim S4096x1536x1 ![0, 1] bcast_S4096x1536_S4096x1536x1_0_1 : (⟨S4096x1536, .i32⟩ : BufTy).Contents (Elt F) → (⟨S4096x1536x1, .i32⟩ : BufTy).Contents (Elt F)),
    StableHlo.unary main_v41 main_v43 (broadcastInDim S4096x1536x1 ![0, 1] bcast_S4096x1536_S4096x1536x1_0_1 : (⟨S4096x1536, .i32⟩ : BufTy).Contents (Elt F) → (⟨S4096x1536x1, .i32⟩ : BufTy).Contents (Elt F)),
    StableHlo.binary main_v42 main_v43 main_v44 ((fun a b => concatenate S4096x1536x2 2 [⟨S4096x1536x1, a⟩, ⟨S4096x1536x1, b⟩] concatenates_S4096x1536x1_S4096x1536x1_S4096x1536x2_d2) : (⟨S4096x1536x1, .i32⟩ : BufTy).Contents (Elt F) → (⟨S4096x1536x1, .i32⟩ : BufTy).Contents (Elt F) → (⟨S4096x1536x2, .i32⟩ : BufTy).Contents (Elt F)) ]
theorem opsR0_sub : (opsR0 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩

set_option maxHeartbeats 40000000 in
/-- 62 operations. -/
abbrev opsR1 : List (HloOp τ sig (Elt F)) :=
  [ StableHlo.reshape main_v44 main_v45 rfl shapeCasts_S4096x1536x2_S4096x3072,
    StableHlo.nullary main_c_13 (constantI S_ 32 8#32),
    StableHlo.unary main_c_13 main_v46 (broadcastInDim S4096x3072 ![] bcast_S_S4096x3072 : (⟨S_, .i32⟩ : BufTy).Contents (Elt F) → (⟨S4096x3072, .i32⟩ : BufTy).Contents (Elt F)),
    StableHlo.binary main_v45 main_v46 main_v47 (cmpi .sge : (⟨S4096x3072, .i32⟩ : BufTy).Contents (Elt F) → (⟨S4096x3072, .i32⟩ : BufTy).Contents (Elt F) → (⟨S4096x3072, .i1⟩ : BufTy).Contents (Elt F)),
    StableHlo.nullary main_cst_14 (constant S_ .f32 0xBF800000#32),
    StableHlo.nullary main_cst_15 (constant S_ .f32 0x3F800000#32),
    StableHlo.TRef.unary (.of main_cst_14 : StableHlo.TRef sig ⟨S_, .f32⟩) main_call1.v0 (broadcastInDim S4096x3072 ![] bcast_S_S4096x3072),
    StableHlo.TRef.unary (.of main_cst_15 : StableHlo.TRef sig ⟨S_, .f32⟩) main_call1.v1 (broadcastInDim S4096x3072 ![] bcast_S_S4096x3072),
    StableHlo.TRef.ternary (.of main_v47 : StableHlo.TRef sig ⟨S4096x3072, .i1⟩) main_call1.v0 main_call1.v1 main_call1.v2 select,
    StableHlo.nullary main_c_16 (constantI S_ 32 7#32),
    StableHlo.unary main_c_16 main_v49 (broadcastInDim S4096x3072 ![] bcast_S_S4096x3072 : (⟨S_, .i32⟩ : BufTy).Contents (Elt F) → (⟨S4096x3072, .i32⟩ : BufTy).Contents (Elt F)),
    StableHlo.binary main_v45 main_v49 main_v50 (andi : (⟨S4096x3072, .i32⟩ : BufTy).Contents (Elt F) → (⟨S4096x3072, .i32⟩ : BufTy).Contents (Elt F) → (⟨S4096x3072, .i32⟩ : BufTy).Contents (Elt F)),
    StableHlo.nullary main_c_17 (constantI S_ 32 0#32),
    StableHlo.unary main_c_17 main_v51 (broadcastInDim S4096x3072 ![] bcast_S_S4096x3072 : (⟨S_, .i32⟩ : BufTy).Contents (Elt F) → (⟨S4096x3072, .i32⟩ : BufTy).Contents (Elt F)),
    StableHlo.binary main_v50 main_v51 main_v52 (cmpi .slt : (⟨S4096x3072, .i32⟩ : BufTy).Contents (Elt F) → (⟨S4096x3072, .i32⟩ : BufTy).Contents (Elt F) → (⟨S4096x3072, .i1⟩ : BufTy).Contents (Elt F)),
    StableHlo.nullary main_c_18 (constantI S_ 32 8#32),
    StableHlo.unary main_c_18 main_v53 (broadcastInDim S4096x3072 ![] bcast_S_S4096x3072 : (⟨S_, .i32⟩ : BufTy).Contents (Elt F) → (⟨S4096x3072, .i32⟩ : BufTy).Contents (Elt F)),
    StableHlo.binary main_v50 main_v53 main_v54 (addi : (⟨S4096x3072, .i32⟩ : BufTy).Contents (Elt F) → (⟨S4096x3072, .i32⟩ : BufTy).Contents (Elt F) → (⟨S4096x3072, .i32⟩ : BufTy).Contents (Elt F)),
    StableHlo.ternary main_v52 main_v54 main_v50 main_v55 (select : (⟨S4096x3072, .i1⟩ : BufTy).Contents (Elt F) → (⟨S4096x3072, .i32⟩ : BufTy).Contents (Elt F) → (⟨S4096x3072, .i32⟩ : BufTy).Contents (Elt F) → (⟨S4096x3072, .i32⟩ : BufTy).Contents (Elt F)),
    StableHlo.unary main_v55 main_v56 (broadcastInDim S4096x3072x1 ![0, 1] bcast_S4096x3072_S4096x3072x1_0_1 : (⟨S4096x3072, .i32⟩ : BufTy).Contents (Elt F) → (⟨S4096x3072x1, .i32⟩ : BufTy).Contents (Elt F)),
    StableHlo.binary main_cst main_v56 main_v57 ((fun x i => Host.gather gather_S8_S4096x3072x1_S4096x3072_n_0_n_n_0_2_1 x i) : (⟨S8, .f32⟩ : BufTy).Contents (Elt F) → (⟨S4096x3072x1, .i32⟩ : BufTy).Contents (Elt F) → (⟨S4096x3072, .f32⟩ : BufTy).Contents (Elt F)),
    StableHlo.unary main_v48 main_v58 (id : (⟨S4096x3072, .f32⟩ : BufTy).Contents (Elt F) → (⟨S4096x3072, .f32⟩ : BufTy).Contents (Elt F)),
    StableHlo.binary main_v58 main_v57 main_v59 (mulf : (⟨S4096x3072, .f32⟩ : BufTy).Contents (Elt F) → (⟨S4096x3072, .f32⟩ : BufTy).Contents (Elt F) → (⟨S4096x3072, .f32⟩ : BufTy).Contents (Elt F)),
    StableHlo.unary main_v35 main_v60 (sitofp .f32 : (⟨S4096x96, .i32⟩ : BufTy).Contents (Elt F) → (⟨S4096x96, .f32⟩ : BufTy).Contents (Elt F)),
    StableHlo.nullary main_cst_19 (constant S_ .f32 0x42FE0000#32),
    StableHlo.unary main_cst_19 main_v61 (broadcastInDim S4096x96 ![] bcast_S_S4096x96 : (⟨S_, .f32⟩ : BufTy).Contents (Elt F) → (⟨S4096x96, .f32⟩ : BufTy).Contents (Elt F)),
    StableHlo.binary main_v60 main_v61 main_v62 (subf : (⟨S4096x96, .f32⟩ : BufTy).Contents (Elt F) → (⟨S4096x96, .f32⟩ : BufTy).Contents (Elt F) → (⟨S4096x96, .f32⟩ : BufTy).Contents (Elt F)),
    StableHlo.nullary main_cst_20 (constant S_ .f32 0x3F317218#32),
    StableHlo.unary main_cst_20 main_v63 (broadcastInDim S4096x96 ![] bcast_S_S4096x96 : (⟨S_, .f32⟩ : BufTy).Contents (Elt F) → (⟨S4096x96, .f32⟩ : BufTy).Contents (Elt F)),
    StableHlo.binary main_v63 main_v62 main_v64 (mulf : (⟨S4096x96, .f32⟩ : BufTy).Contents (Elt F) → (⟨S4096x96, .f32⟩ : BufTy).Contents (Elt F) → (⟨S4096x96, .f32⟩ : BufTy).Contents (Elt F)),
    StableHlo.unary main_v64 main_v65 (Host.exp : (⟨S4096x96, .f32⟩ : BufTy).Contents (Elt F) → (⟨S4096x96, .f32⟩ : BufTy).Contents (Elt F)),
    StableHlo.reshape main_v59 main_v66 rfl shapeCasts_S4096x3072_S4096x96x32,
    StableHlo.unary main_v65 main_v67 (broadcastInDim S4096x96x1 ![0, 1] bcast_S4096x96_S4096x96x1_0_1 : (⟨S4096x96, .f32⟩ : BufTy).Contents (Elt F) → (⟨S4096x96x1, .f32⟩ : BufTy).Contents (Elt F)),
    StableHlo.unary main_v67 main_v68 (broadcastInDim S4096x96x32 ![0, 1, 2] bcast_S4096x96x1_S4096x96x32_0_1_2 : (⟨S4096x96x1, .f32⟩ : BufTy).Contents (Elt F) → (⟨S4096x96x32, .f32⟩ : BufTy).Contents (Elt F)),
    StableHlo.binary main_v66 main_v68 main_v69 (mulf : (⟨S4096x96x32, .f32⟩ : BufTy).Contents (Elt F) → (⟨S4096x96x32, .f32⟩ : BufTy).Contents (Elt F) → (⟨S4096x96x32, .f32⟩ : BufTy).Contents (Elt F)),
    StableHlo.reshape main_v69 main_v70 rfl shapeCasts_S4096x96x32_S4096x3072,
    StableHlo.reshape main_arg1 main_v71 rfl shapeCasts_S4096x576_S4096x192x3,
    StableHlo.unary main_v71 main_v72 ((extractStridedSlice S4096x192x1 ![0, 0, 0] · slices_S4096x192x3_S4096x192x1_0_0_0) : (⟨S4096x192x3, .i32⟩ : BufTy).Contents (Elt F) → (⟨S4096x192x1, .i32⟩ : BufTy).Contents (Elt F)),
    StableHlo.reshape main_v72 main_v73 rfl shapeCasts_S4096x192x1_S4096x192,
    StableHlo.unary main_v71 main_v74 ((extractStridedSlice S4096x192x1 ![0, 0, 1] · slices_S4096x192x3_S4096x192x1_0_0_1) : (⟨S4096x192x3, .i32⟩ : BufTy).Contents (Elt F) → (⟨S4096x192x1, .i32⟩ : BufTy).Contents (Elt F)),
    StableHlo.reshape main_v74 main_v75 rfl shapeCasts_S4096x192x1_S4096x192,
    StableHlo.unary main_v71 main_v76 ((extractStridedSlice S4096x192x1 ![0, 0, 2] · slices_S4096x192x3_S4096x192x1_0_0_2) : (⟨S4096x192x3, .i32⟩ : BufTy).Contents (Elt F) → (⟨S4096x192x1, .i32⟩ : BufTy).Contents (Elt F)),
    StableHlo.reshape main_v76 main_v77 rfl shapeCasts_S4096x192x1_S4096x192,
    StableHlo.nullary main_c_21 (constantI S_ 32 63#32),
    StableHlo.unary main_c_21 main_v78 (broadcastInDim S4096x192 ![] bcast_S_S4096x192 : (⟨S_, .i32⟩ : BufTy).Contents (Elt F) → (⟨S4096x192, .i32⟩ : BufTy).Contents (Elt F)),
    StableHlo.binary main_v73 main_v78 main_v79 (andi : (⟨S4096x192, .i32⟩ : BufTy).Contents (Elt F) → (⟨S4096x192, .i32⟩ : BufTy).Contents (Elt F) → (⟨S4096x192, .i32⟩ : BufTy).Contents (Elt F)),
    StableHlo.nullary main_c_22 (constantI S_ 32 6#32),
    StableHlo.unary main_c_22 main_v80 (broadcastInDim S4096x192 ![] bcast_S_S4096x192 : (⟨S_, .i32⟩ : BufTy).Contents (Elt F) → (⟨S4096x192, .i32⟩ : BufTy).Contents (Elt F)),
    StableHlo.binary main_v73 main_v80 main_v81 (Host.shrsi : (⟨S4096x192, .i32⟩ : BufTy).Contents (Elt F) → (⟨S4096x192, .i32⟩ : BufTy).Contents (Elt F) → (⟨S4096x192, .i32⟩ : BufTy).Contents (Elt F)),
    StableHlo.nullary main_c_23 (constantI S_ 32 3#32),
    StableHlo.unary main_c_23 main_v82 (broadcastInDim S4096x192 ![] bcast_S_S4096x192 : (⟨S_, .i32⟩ : BufTy).Contents (Elt F) → (⟨S4096x192, .i32⟩ : BufTy).Contents (Elt F)),
    StableHlo.binary main_v81 main_v82 main_v83 (andi : (⟨S4096x192, .i32⟩ : BufTy).Contents (Elt F) → (⟨S4096x192, .i32⟩ : BufTy).Contents (Elt F) → (⟨S4096x192, .i32⟩ : BufTy).Contents (Elt F)),
    StableHlo.nullary main_c_24 (constantI S_ 32 15#32),
    StableHlo.unary main_c_24 main_v84 (broadcastInDim S4096x192 ![] bcast_S_S4096x192 : (⟨S_, .i32⟩ : BufTy).Contents (Elt F) → (⟨S4096x192, .i32⟩ : BufTy).Contents (Elt F)),
    StableHlo.binary main_v75 main_v84 main_v85 (andi : (⟨S4096x192, .i32⟩ : BufTy).Contents (Elt F) → (⟨S4096x192, .i32⟩ : BufTy).Contents (Elt F) → (⟨S4096x192, .i32⟩ : BufTy).Contents (Elt F)),
    StableHlo.nullary main_c_25 (constantI S_ 32 2#32),
    StableHlo.unary main_c_25 main_v86 (broadcastInDim S4096x192 ![] bcast_S_S4096x192 : (⟨S_, .i32⟩ : BufTy).Contents (Elt F) → (⟨S4096x192, .i32⟩ : BufTy).Contents (Elt F)),
    StableHlo.binary main_v85 main_v86 main_v87 (Host.shli : (⟨S4096x192, .i32⟩ : BufTy).Contents (Elt F) → (⟨S4096x192, .i32⟩ : BufTy).Contents (Elt F) → (⟨S4096x192, .i32⟩ : BufTy).Contents (Elt F)),
    StableHlo.binary main_v83 main_v87 main_v88 (ori : (⟨S4096x192, .i32⟩ : BufTy).Contents (Elt F) → (⟨S4096x192, .i32⟩ : BufTy).Contents (Elt F) → (⟨S4096x192, .i32⟩ : BufTy).Contents (Elt F)),
    StableHlo.nullary main_c_26 (constantI S_ 32 4#32),
    StableHlo.unary main_c_26 main_v89 (broadcastInDim S4096x192 ![] bcast_S_S4096x192 : (⟨S_, .i32⟩ : BufTy).Contents (Elt F) → (⟨S4096x192, .i32⟩ : BufTy).Contents (Elt F)),
    StableHlo.binary main_v75 main_v89 main_v90 (Host.shrsi : (⟨S4096x192, .i32⟩ : BufTy).Contents (Elt F) → (⟨S4096x192, .i32⟩ : BufTy).Contents (Elt F) → (⟨S4096x192, .i32⟩ : BufTy).Contents (Elt F)) ]
theorem opsR1_sub : (opsR1 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩

set_option maxHeartbeats 40000000 in
/-- 62 operations. -/
abbrev opsR2 : List (HloOp τ sig (Elt F)) :=
  [ StableHlo.nullary main_c_27 (constantI S_ 32 15#32),
    StableHlo.unary main_c_27 main_v91 (broadcastInDim S4096x192 ![] bcast_S_S4096x192 : (⟨S_, .i32⟩ : BufTy).Contents (Elt F) → (⟨S4096x192, .i32⟩ : BufTy).Contents (Elt F)),
    StableHlo.binary main_v90 main_v91 main_v92 (andi : (⟨S4096x192, .i32⟩ : BufTy).Contents (Elt F) → (⟨S4096x192, .i32⟩ : BufTy).Contents (Elt F) → (⟨S4096x192, .i32⟩ : BufTy).Contents (Elt F)),
    StableHlo.nullary main_c_28 (constantI S_ 32 3#32),
    StableHlo.unary main_c_28 main_v93 (broadcastInDim S4096x192 ![] bcast_S_S4096x192 : (⟨S_, .i32⟩ : BufTy).Contents (Elt F) → (⟨S4096x192, .i32⟩ : BufTy).Contents (Elt F)),
    StableHlo.binary main_v77 main_v93 main_v94 (andi : (⟨S4096x192, .i32⟩ : BufTy).Contents (Elt F) → (⟨S4096x192, .i32⟩ : BufTy).Contents (Elt F) → (⟨S4096x192, .i32⟩ : BufTy).Contents (Elt F)),
    StableHlo.nullary main_c_29 (constantI S_ 32 4#32),
    StableHlo.unary main_c_29 main_v95 (broadcastInDim S4096x192 ![] bcast_S_S4096x192 : (⟨S_, .i32⟩ : BufTy).Contents (Elt F) → (⟨S4096x192, .i32⟩ : BufTy).Contents (Elt F)),
    StableHlo.binary main_v94 main_v95 main_v96 (Host.shli : (⟨S4096x192, .i32⟩ : BufTy).Contents (Elt F) → (⟨S4096x192, .i32⟩ : BufTy).Contents (Elt F) → (⟨S4096x192, .i32⟩ : BufTy).Contents (Elt F)),
    StableHlo.binary main_v92 main_v96 main_v97 (ori : (⟨S4096x192, .i32⟩ : BufTy).Contents (Elt F) → (⟨S4096x192, .i32⟩ : BufTy).Contents (Elt F) → (⟨S4096x192, .i32⟩ : BufTy).Contents (Elt F)),
    StableHlo.nullary main_c_30 (constantI S_ 32 2#32),
    StableHlo.unary main_c_30 main_v98 (broadcastInDim S4096x192 ![] bcast_S_S4096x192 : (⟨S_, .i32⟩ : BufTy).Contents (Elt F) → (⟨S4096x192, .i32⟩ : BufTy).Contents (Elt F)),
    StableHlo.binary main_v77 main_v98 main_v99 (Host.shrsi : (⟨S4096x192, .i32⟩ : BufTy).Contents (Elt F) → (⟨S4096x192, .i32⟩ : BufTy).Contents (Elt F) → (⟨S4096x192, .i32⟩ : BufTy).Contents (Elt F)),
    StableHlo.nullary main_c_31 (constantI S_ 32 63#32),
    StableHlo.unary main_c_31 main_v100 (broadcastInDim S4096x192 ![] bcast_S_S4096x192 : (⟨S_, .i32⟩ : BufTy).Contents (Elt F) → (⟨S4096x192, .i32⟩ : BufTy).Contents (Elt F)),
    StableHlo.binary main_v99 main_v100 main_v101 (andi : (⟨S4096x192, .i32⟩ : BufTy).Contents (Elt F) → (⟨S4096x192, .i32⟩ : BufTy).Contents (Elt F) → (⟨S4096x192, .i32⟩ : BufTy).Contents (Elt F)),
    StableHlo.unary main_v79 main_v102 (broadcastInDim S4096x192x1 ![0, 1] bcast_S4096x192_S4096x192x1_0_1 : (⟨S4096x192, .i32⟩ : BufTy).Contents (Elt F) → (⟨S4096x192x1, .i32⟩ : BufTy).Contents (Elt F)),
    StableHlo.unary main_v88 main_v103 (broadcastInDim S4096x192x1 ![0, 1] bcast_S4096x192_S4096x192x1_0_1 : (⟨S4096x192, .i32⟩ : BufTy).Contents (Elt F) → (⟨S4096x192x1, .i32⟩ : BufTy).Contents (Elt F)),
    StableHlo.unary main_v97 main_v104 (broadcastInDim S4096x192x1 ![0, 1] bcast_S4096x192_S4096x192x1_0_1 : (⟨S4096x192, .i32⟩ : BufTy).Contents (Elt F) → (⟨S4096x192x1, .i32⟩ : BufTy).Contents (Elt F)),
    StableHlo.unary main_v101 main_v105 (broadcastInDim S4096x192x1 ![0, 1] bcast_S4096x192_S4096x192x1_0_1 : (⟨S4096x192, .i32⟩ : BufTy).Contents (Elt F) → (⟨S4096x192x1, .i32⟩ : BufTy).Contents (Elt F)),
    StableHlo.nary ![main_v102, main_v103, main_v104, main_v105] main_v106 (fun u => concatenate S4096x192x4 2 [⟨S4096x192x1, u 0⟩, ⟨S4096x192x1, u 1⟩, ⟨S4096x192x1, u 2⟩, ⟨S4096x192x1, u 3⟩] concatenates_S4096x192x1_S4096x192x1_S4096x192x1_S4096x192x1_S4096x192x4_d2),
    StableHlo.reshape main_v106 main_v107 rfl shapeCasts_S4096x192x4_S4096x768,
    StableHlo.nullary main_c_32 (constantI S_ 32 32#32),
    StableHlo.unary main_c_32 main_v108 (broadcastInDim S4096x768 ![] bcast_S_S4096x768 : (⟨S_, .i32⟩ : BufTy).Contents (Elt F) → (⟨S4096x768, .i32⟩ : BufTy).Contents (Elt F)),
    StableHlo.binary main_v107 main_v108 main_v109 (cmpi .sge : (⟨S4096x768, .i32⟩ : BufTy).Contents (Elt F) → (⟨S4096x768, .i32⟩ : BufTy).Contents (Elt F) → (⟨S4096x768, .i1⟩ : BufTy).Contents (Elt F)),
    StableHlo.nullary main_cst_33 (constant S_ .f32 0xBF800000#32),
    StableHlo.nullary main_cst_34 (constant S_ .f32 0x3F800000#32),
    StableHlo.TRef.unary (.of main_cst_33 : StableHlo.TRef sig ⟨S_, .f32⟩) main_call2.v0 (broadcastInDim S4096x768 ![] bcast_S_S4096x768),
    StableHlo.TRef.unary (.of main_cst_34 : StableHlo.TRef sig ⟨S_, .f32⟩) main_call2.v1 (broadcastInDim S4096x768 ![] bcast_S_S4096x768),
    StableHlo.TRef.ternary (.of main_v109 : StableHlo.TRef sig ⟨S4096x768, .i1⟩) main_call2.v0 main_call2.v1 main_call2.v2 select,
    StableHlo.nullary main_c_35 (constantI S_ 32 2#32),
    StableHlo.unary main_c_35 main_v111 (broadcastInDim S4096x768 ![] bcast_S_S4096x768 : (⟨S_, .i32⟩ : BufTy).Contents (Elt F) → (⟨S4096x768, .i32⟩ : BufTy).Contents (Elt F)),
    StableHlo.binary main_v107 main_v111 main_v112 (Host.shrsi : (⟨S4096x768, .i32⟩ : BufTy).Contents (Elt F) → (⟨S4096x768, .i32⟩ : BufTy).Contents (Elt F) → (⟨S4096x768, .i32⟩ : BufTy).Contents (Elt F)),
    StableHlo.nullary main_c_36 (constantI S_ 32 7#32),
    StableHlo.unary main_c_36 main_v113 (broadcastInDim S4096x768 ![] bcast_S_S4096x768 : (⟨S_, .i32⟩ : BufTy).Contents (Elt F) → (⟨S4096x768, .i32⟩ : BufTy).Contents (Elt F)),
    StableHlo.binary main_v112 main_v113 main_v114 (andi : (⟨S4096x768, .i32⟩ : BufTy).Contents (Elt F) → (⟨S4096x768, .i32⟩ : BufTy).Contents (Elt F) → (⟨S4096x768, .i32⟩ : BufTy).Contents (Elt F)),
    StableHlo.unary main_v114 main_v115 (sitofp .f32 : (⟨S4096x768, .i32⟩ : BufTy).Contents (Elt F) → (⟨S4096x768, .f32⟩ : BufTy).Contents (Elt F)),
    StableHlo.nullary main_c_37 (constantI S_ 32 3#32),
    StableHlo.unary main_c_37 main_v116 (broadcastInDim S4096x768 ![] bcast_S_S4096x768 : (⟨S_, .i32⟩ : BufTy).Contents (Elt F) → (⟨S4096x768, .i32⟩ : BufTy).Contents (Elt F)),
    StableHlo.binary main_v107 main_v116 main_v117 (andi : (⟨S4096x768, .i32⟩ : BufTy).Contents (Elt F) → (⟨S4096x768, .i32⟩ : BufTy).Contents (Elt F) → (⟨S4096x768, .i32⟩ : BufTy).Contents (Elt F)),
    StableHlo.unary main_v117 main_v118 (sitofp .f32 : (⟨S4096x768, .i32⟩ : BufTy).Contents (Elt F) → (⟨S4096x768, .f32⟩ : BufTy).Contents (Elt F)),
    StableHlo.nullary main_cst_38 (constant S_ .f32 0x00000000#32),
    StableHlo.unary main_cst_38 main_v119 (broadcastInDim S4096x768 ![] bcast_S_S4096x768 : (⟨S_, .f32⟩ : BufTy).Contents (Elt F) → (⟨S4096x768, .f32⟩ : BufTy).Contents (Elt F)),
    StableHlo.binary main_v115 main_v119 main_v120 (cmpf .oeq : (⟨S4096x768, .f32⟩ : BufTy).Contents (Elt F) → (⟨S4096x768, .f32⟩ : BufTy).Contents (Elt F) → (⟨S4096x768, .i1⟩ : BufTy).Contents (Elt F)),
    StableHlo.nullary main_cst_39 (constant S_ .f32 0x3E800000#32),
    StableHlo.unary main_cst_39 main_v121 (broadcastInDim S4096x768 ![] bcast_S_S4096x768 : (⟨S_, .f32⟩ : BufTy).Contents (Elt F) → (⟨S4096x768, .f32⟩ : BufTy).Contents (Elt F)),
    StableHlo.binary main_v118 main_v121 main_v122 (mulf : (⟨S4096x768, .f32⟩ : BufTy).Contents (Elt F) → (⟨S4096x768, .f32⟩ : BufTy).Contents (Elt F) → (⟨S4096x768, .f32⟩ : BufTy).Contents (Elt F)),
    StableHlo.nullary main_cst_40 (constant S_ .f32 0x3E800000#32),
    StableHlo.unary main_cst_40 main_v123 (broadcastInDim S4096x768 ![] bcast_S_S4096x768 : (⟨S_, .f32⟩ : BufTy).Contents (Elt F) → (⟨S4096x768, .f32⟩ : BufTy).Contents (Elt F)),
    StableHlo.binary main_v122 main_v123 main_v124 (mulf : (⟨S4096x768, .f32⟩ : BufTy).Contents (Elt F) → (⟨S4096x768, .f32⟩ : BufTy).Contents (Elt F) → (⟨S4096x768, .f32⟩ : BufTy).Contents (Elt F)),
    StableHlo.nullary main_cst_41 (constant S_ .f32 0x3E800000#32),
    StableHlo.unary main_cst_41 main_v125 (broadcastInDim S4096x768 ![] bcast_S_S4096x768 : (⟨S_, .f32⟩ : BufTy).Contents (Elt F) → (⟨S4096x768, .f32⟩ : BufTy).Contents (Elt F)),
    StableHlo.binary main_v118 main_v125 main_v126 (mulf : (⟨S4096x768, .f32⟩ : BufTy).Contents (Elt F) → (⟨S4096x768, .f32⟩ : BufTy).Contents (Elt F) → (⟨S4096x768, .f32⟩ : BufTy).Contents (Elt F)),
    StableHlo.nullary main_cst_42 (constant S_ .f32 0x3F800000#32),
    StableHlo.unary main_cst_42 main_v127 (broadcastInDim S4096x768 ![] bcast_S_S4096x768 : (⟨S_, .f32⟩ : BufTy).Contents (Elt F) → (⟨S4096x768, .f32⟩ : BufTy).Contents (Elt F)),
    StableHlo.binary main_v127 main_v126 main_v128 (addf : (⟨S4096x768, .f32⟩ : BufTy).Contents (Elt F) → (⟨S4096x768, .f32⟩ : BufTy).Contents (Elt F) → (⟨S4096x768, .f32⟩ : BufTy).Contents (Elt F)),
    StableHlo.nullary main_cst_43 (constant S_ .f32 0x40400000#32),
    StableHlo.unary main_cst_43 main_v129 (broadcastInDim S4096x768 ![] bcast_S_S4096x768 : (⟨S_, .f32⟩ : BufTy).Contents (Elt F) → (⟨S4096x768, .f32⟩ : BufTy).Contents (Elt F)),
    StableHlo.binary main_v115 main_v129 main_v130 (subf : (⟨S4096x768, .f32⟩ : BufTy).Contents (Elt F) → (⟨S4096x768, .f32⟩ : BufTy).Contents (Elt F) → (⟨S4096x768, .f32⟩ : BufTy).Contents (Elt F)),
    StableHlo.nullary main_cst_44 (constant S_ .f32 0x3F317218#32),
    StableHlo.unary main_cst_44 main_v131 (broadcastInDim S4096x768 ![] bcast_S_S4096x768 : (⟨S_, .f32⟩ : BufTy).Contents (Elt F) → (⟨S4096x768, .f32⟩ : BufTy).Contents (Elt F)),
    StableHlo.binary main_v131 main_v130 main_v132 (mulf : (⟨S4096x768, .f32⟩ : BufTy).Contents (Elt F) → (⟨S4096x768, .f32⟩ : BufTy).Contents (Elt F) → (⟨S4096x768, .f32⟩ : BufTy).Contents (Elt F)) ]
theorem opsR2_sub : (opsR2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nary_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
/-- 60 operations. -/
abbrev opsR3 : List (HloOp τ sig (Elt F)) :=
  [ StableHlo.unary main_v132 main_v133 (Host.exp : (⟨S4096x768, .f32⟩ : BufTy).Contents (Elt F) → (⟨S4096x768, .f32⟩ : BufTy).Contents (Elt F)),
    StableHlo.binary main_v128 main_v133 main_v134 (mulf : (⟨S4096x768, .f32⟩ : BufTy).Contents (Elt F) → (⟨S4096x768, .f32⟩ : BufTy).Contents (Elt F) → (⟨S4096x768, .f32⟩ : BufTy).Contents (Elt F)),
    StableHlo.TRef.ternary (.of main_v120 : StableHlo.TRef sig ⟨S4096x768, .i1⟩) (.of main_v124 : StableHlo.TRef sig ⟨S4096x768, .f32⟩) (.of main_v134 : StableHlo.TRef sig ⟨S4096x768, .f32⟩) main_call3.v0 select,
    StableHlo.unary main_v110 main_v136 (id : (⟨S4096x768, .f32⟩ : BufTy).Contents (Elt F) → (⟨S4096x768, .f32⟩ : BufTy).Contents (Elt F)),
    StableHlo.binary main_v136 main_v135 main_v137 (mulf : (⟨S4096x768, .f32⟩ : BufTy).Contents (Elt F) → (⟨S4096x768, .f32⟩ : BufTy).Contents (Elt F) → (⟨S4096x768, .f32⟩ : BufTy).Contents (Elt F)),
    StableHlo.unary main_arg4 main_v138 (sitofp .f32 : (⟨S4096x24, .i32⟩ : BufTy).Contents (Elt F) → (⟨S4096x24, .f32⟩ : BufTy).Contents (Elt F)),
    StableHlo.nullary main_cst_45 (constant S_ .f32 0x42FE0000#32),
    StableHlo.unary main_cst_45 main_v139 (broadcastInDim S4096x24 ![] bcast_S_S4096x24 : (⟨S_, .f32⟩ : BufTy).Contents (Elt F) → (⟨S4096x24, .f32⟩ : BufTy).Contents (Elt F)),
    StableHlo.binary main_v138 main_v139 main_v140 (subf : (⟨S4096x24, .f32⟩ : BufTy).Contents (Elt F) → (⟨S4096x24, .f32⟩ : BufTy).Contents (Elt F) → (⟨S4096x24, .f32⟩ : BufTy).Contents (Elt F)),
    StableHlo.nullary main_cst_46 (constant S_ .f32 0x3F317218#32),
    StableHlo.unary main_cst_46 main_v141 (broadcastInDim S4096x24 ![] bcast_S_S4096x24 : (⟨S_, .f32⟩ : BufTy).Contents (Elt F) → (⟨S4096x24, .f32⟩ : BufTy).Contents (Elt F)),
    StableHlo.binary main_v141 main_v140 main_v142 (mulf : (⟨S4096x24, .f32⟩ : BufTy).Contents (Elt F) → (⟨S4096x24, .f32⟩ : BufTy).Contents (Elt F) → (⟨S4096x24, .f32⟩ : BufTy).Contents (Elt F)),
    StableHlo.unary main_v142 main_v143 (Host.exp : (⟨S4096x24, .f32⟩ : BufTy).Contents (Elt F) → (⟨S4096x24, .f32⟩ : BufTy).Contents (Elt F)),
    StableHlo.reshape main_v137 main_v144 rfl shapeCasts_S4096x768_S4096x24x32,
    StableHlo.unary main_v143 main_v145 (broadcastInDim S4096x24x1 ![0, 1] bcast_S4096x24_S4096x24x1_0_1 : (⟨S4096x24, .f32⟩ : BufTy).Contents (Elt F) → (⟨S4096x24x1, .f32⟩ : BufTy).Contents (Elt F)),
    StableHlo.unary main_v145 main_v146 (broadcastInDim S4096x24x32 ![0, 1, 2] bcast_S4096x24x1_S4096x24x32_0_1_2 : (⟨S4096x24x1, .f32⟩ : BufTy).Contents (Elt F) → (⟨S4096x24x32, .f32⟩ : BufTy).Contents (Elt F)),
    StableHlo.binary main_v144 main_v146 main_v147 (mulf : (⟨S4096x24x32, .f32⟩ : BufTy).Contents (Elt F) → (⟨S4096x24x32, .f32⟩ : BufTy).Contents (Elt F) → (⟨S4096x24x32, .f32⟩ : BufTy).Contents (Elt F)),
    StableHlo.reshape main_v147 main_v148 rfl shapeCasts_S4096x24x32_S4096x768,
    StableHlo.reshape main_arg10 main_v149 rfl shapeCasts_S98304_S4096x24,
    StableHlo.reshape main_arg7 main_v150 rfl shapeCasts_S4096x576_S4096x192x3,
    StableHlo.unary main_v150 main_v151 ((extractStridedSlice S4096x192x1 ![0, 0, 0] · slices_S4096x192x3_S4096x192x1_0_0_0) : (⟨S4096x192x3, .i32⟩ : BufTy).Contents (Elt F) → (⟨S4096x192x1, .i32⟩ : BufTy).Contents (Elt F)),
    StableHlo.reshape main_v151 main_v152 rfl shapeCasts_S4096x192x1_S4096x192,
    StableHlo.unary main_v150 main_v153 ((extractStridedSlice S4096x192x1 ![0, 0, 1] · slices_S4096x192x3_S4096x192x1_0_0_1) : (⟨S4096x192x3, .i32⟩ : BufTy).Contents (Elt F) → (⟨S4096x192x1, .i32⟩ : BufTy).Contents (Elt F)),
    StableHlo.reshape main_v153 main_v154 rfl shapeCasts_S4096x192x1_S4096x192,
    StableHlo.unary main_v150 main_v155 ((extractStridedSlice S4096x192x1 ![0, 0, 2] · slices_S4096x192x3_S4096x192x1_0_0_2) : (⟨S4096x192x3, .i32⟩ : BufTy).Contents (Elt F) → (⟨S4096x192x1, .i32⟩ : BufTy).Contents (Elt F)),
    StableHlo.reshape main_v155 main_v156 rfl shapeCasts_S4096x192x1_S4096x192,
    StableHlo.nullary main_c_47 (constantI S_ 32 63#32),
    StableHlo.unary main_c_47 main_v157 (broadcastInDim S4096x192 ![] bcast_S_S4096x192 : (⟨S_, .i32⟩ : BufTy).Contents (Elt F) → (⟨S4096x192, .i32⟩ : BufTy).Contents (Elt F)),
    StableHlo.binary main_v152 main_v157 main_v158 (andi : (⟨S4096x192, .i32⟩ : BufTy).Contents (Elt F) → (⟨S4096x192, .i32⟩ : BufTy).Contents (Elt F) → (⟨S4096x192, .i32⟩ : BufTy).Contents (Elt F)),
    StableHlo.nullary main_c_48 (constantI S_ 32 6#32),
    StableHlo.unary main_c_48 main_v159 (broadcastInDim S4096x192 ![] bcast_S_S4096x192 : (⟨S_, .i32⟩ : BufTy).Contents (Elt F) → (⟨S4096x192, .i32⟩ : BufTy).Contents (Elt F)),
    StableHlo.binary main_v152 main_v159 main_v160 (Host.shrsi : (⟨S4096x192, .i32⟩ : BufTy).Contents (Elt F) → (⟨S4096x192, .i32⟩ : BufTy).Contents (Elt F) → (⟨S4096x192, .i32⟩ : BufTy).Contents (Elt F)),
    StableHlo.nullary main_c_49 (constantI S_ 32 3#32),
    StableHlo.unary main_c_49 main_v161 (broadcastInDim S4096x192 ![] bcast_S_S4096x192 : (⟨S_, .i32⟩ : BufTy).Contents (Elt F) → (⟨S4096x192, .i32⟩ : BufTy).Contents (Elt F)),
    StableHlo.binary main_v160 main_v161 main_v162 (andi : (⟨S4096x192, .i32⟩ : BufTy).Contents (Elt F) → (⟨S4096x192, .i32⟩ : BufTy).Contents (Elt F) → (⟨S4096x192, .i32⟩ : BufTy).Contents (Elt F)),
    StableHlo.nullary main_c_50 (constantI S_ 32 15#32),
    StableHlo.unary main_c_50 main_v163 (broadcastInDim S4096x192 ![] bcast_S_S4096x192 : (⟨S_, .i32⟩ : BufTy).Contents (Elt F) → (⟨S4096x192, .i32⟩ : BufTy).Contents (Elt F)),
    StableHlo.binary main_v154 main_v163 main_v164 (andi : (⟨S4096x192, .i32⟩ : BufTy).Contents (Elt F) → (⟨S4096x192, .i32⟩ : BufTy).Contents (Elt F) → (⟨S4096x192, .i32⟩ : BufTy).Contents (Elt F)),
    StableHlo.nullary main_c_51 (constantI S_ 32 2#32),
    StableHlo.unary main_c_51 main_v165 (broadcastInDim S4096x192 ![] bcast_S_S4096x192 : (⟨S_, .i32⟩ : BufTy).Contents (Elt F) → (⟨S4096x192, .i32⟩ : BufTy).Contents (Elt F)),
    StableHlo.binary main_v164 main_v165 main_v166 (Host.shli : (⟨S4096x192, .i32⟩ : BufTy).Contents (Elt F) → (⟨S4096x192, .i32⟩ : BufTy).Contents (Elt F) → (⟨S4096x192, .i32⟩ : BufTy).Contents (Elt F)),
    StableHlo.binary main_v162 main_v166 main_v167 (ori : (⟨S4096x192, .i32⟩ : BufTy).Contents (Elt F) → (⟨S4096x192, .i32⟩ : BufTy).Contents (Elt F) → (⟨S4096x192, .i32⟩ : BufTy).Contents (Elt F)),
    StableHlo.nullary main_c_52 (constantI S_ 32 4#32),
    StableHlo.unary main_c_52 main_v168 (broadcastInDim S4096x192 ![] bcast_S_S4096x192 : (⟨S_, .i32⟩ : BufTy).Contents (Elt F) → (⟨S4096x192, .i32⟩ : BufTy).Contents (Elt F)),
    StableHlo.binary main_v154 main_v168 main_v169 (Host.shrsi : (⟨S4096x192, .i32⟩ : BufTy).Contents (Elt F) → (⟨S4096x192, .i32⟩ : BufTy).Contents (Elt F) → (⟨S4096x192, .i32⟩ : BufTy).Contents (Elt F)),
    StableHlo.nullary main_c_53 (constantI S_ 32 15#32),
    StableHlo.unary main_c_53 main_v170 (broadcastInDim S4096x192 ![] bcast_S_S4096x192 : (⟨S_, .i32⟩ : BufTy).Contents (Elt F) → (⟨S4096x192, .i32⟩ : BufTy).Contents (Elt F)),
    StableHlo.binary main_v169 main_v170 main_v171 (andi : (⟨S4096x192, .i32⟩ : BufTy).Contents (Elt F) → (⟨S4096x192, .i32⟩ : BufTy).Contents (Elt F) → (⟨S4096x192, .i32⟩ : BufTy).Contents (Elt F)),
    StableHlo.nullary main_c_54 (constantI S_ 32 3#32),
    StableHlo.unary main_c_54 main_v172 (broadcastInDim S4096x192 ![] bcast_S_S4096x192 : (⟨S_, .i32⟩ : BufTy).Contents (Elt F) → (⟨S4096x192, .i32⟩ : BufTy).Contents (Elt F)),
    StableHlo.binary main_v156 main_v172 main_v173 (andi : (⟨S4096x192, .i32⟩ : BufTy).Contents (Elt F) → (⟨S4096x192, .i32⟩ : BufTy).Contents (Elt F) → (⟨S4096x192, .i32⟩ : BufTy).Contents (Elt F)),
    StableHlo.nullary main_c_55 (constantI S_ 32 4#32),
    StableHlo.unary main_c_55 main_v174 (broadcastInDim S4096x192 ![] bcast_S_S4096x192 : (⟨S_, .i32⟩ : BufTy).Contents (Elt F) → (⟨S4096x192, .i32⟩ : BufTy).Contents (Elt F)),
    StableHlo.binary main_v173 main_v174 main_v175 (Host.shli : (⟨S4096x192, .i32⟩ : BufTy).Contents (Elt F) → (⟨S4096x192, .i32⟩ : BufTy).Contents (Elt F) → (⟨S4096x192, .i32⟩ : BufTy).Contents (Elt F)),
    StableHlo.binary main_v171 main_v175 main_v176 (ori : (⟨S4096x192, .i32⟩ : BufTy).Contents (Elt F) → (⟨S4096x192, .i32⟩ : BufTy).Contents (Elt F) → (⟨S4096x192, .i32⟩ : BufTy).Contents (Elt F)),
    StableHlo.nullary main_c_56 (constantI S_ 32 2#32),
    StableHlo.unary main_c_56 main_v177 (broadcastInDim S4096x192 ![] bcast_S_S4096x192 : (⟨S_, .i32⟩ : BufTy).Contents (Elt F) → (⟨S4096x192, .i32⟩ : BufTy).Contents (Elt F)),
    StableHlo.binary main_v156 main_v177 main_v178 (Host.shrsi : (⟨S4096x192, .i32⟩ : BufTy).Contents (Elt F) → (⟨S4096x192, .i32⟩ : BufTy).Contents (Elt F) → (⟨S4096x192, .i32⟩ : BufTy).Contents (Elt F)),
    StableHlo.nullary main_c_57 (constantI S_ 32 63#32),
    StableHlo.unary main_c_57 main_v179 (broadcastInDim S4096x192 ![] bcast_S_S4096x192 : (⟨S_, .i32⟩ : BufTy).Contents (Elt F) → (⟨S4096x192, .i32⟩ : BufTy).Contents (Elt F)) ]
theorem opsR3_sub : (opsR3 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩

set_option maxHeartbeats 40000000 in
/-- 62 operations. -/
abbrev opsR4 : List (HloOp τ sig (Elt F)) :=
  [ StableHlo.binary main_v178 main_v179 main_v180 (andi : (⟨S4096x192, .i32⟩ : BufTy).Contents (Elt F) → (⟨S4096x192, .i32⟩ : BufTy).Contents (Elt F) → (⟨S4096x192, .i32⟩ : BufTy).Contents (Elt F)),
    StableHlo.unary main_v158 main_v181 (broadcastInDim S4096x192x1 ![0, 1] bcast_S4096x192_S4096x192x1_0_1 : (⟨S4096x192, .i32⟩ : BufTy).Contents (Elt F) → (⟨S4096x192x1, .i32⟩ : BufTy).Contents (Elt F)),
    StableHlo.unary main_v167 main_v182 (broadcastInDim S4096x192x1 ![0, 1] bcast_S4096x192_S4096x192x1_0_1 : (⟨S4096x192, .i32⟩ : BufTy).Contents (Elt F) → (⟨S4096x192x1, .i32⟩ : BufTy).Contents (Elt F)),
    StableHlo.unary main_v176 main_v183 (broadcastInDim S4096x192x1 ![0, 1] bcast_S4096x192_S4096x192x1_0_1 : (⟨S4096x192, .i32⟩ : BufTy).Contents (Elt F) → (⟨S4096x192x1, .i32⟩ : BufTy).Contents (Elt F)),
    StableHlo.unary main_v180 main_v184 (broadcastInDim S4096x192x1 ![0, 1] bcast_S4096x192_S4096x192x1_0_1 : (⟨S4096x192, .i32⟩ : BufTy).Contents (Elt F) → (⟨S4096x192x1, .i32⟩ : BufTy).Contents (Elt F)),
    StableHlo.nary ![main_v181, main_v182, main_v183, main_v184] main_v185 (fun u => concatenate S4096x192x4 2 [⟨S4096x192x1, u 0⟩, ⟨S4096x192x1, u 1⟩, ⟨S4096x192x1, u 2⟩, ⟨S4096x192x1, u 3⟩] concatenates_S4096x192x1_S4096x192x1_S4096x192x1_S4096x192x1_S4096x192x4_d2),
    StableHlo.reshape main_v185 main_v186 rfl shapeCasts_S4096x192x4_S4096x768,
    StableHlo.nullary main_c_58 (constantI S_ 32 32#32),
    StableHlo.unary main_c_58 main_v187 (broadcastInDim S4096x768 ![] bcast_S_S4096x768 : (⟨S_, .i32⟩ : BufTy).Contents (Elt F) → (⟨S4096x768, .i32⟩ : BufTy).Contents (Elt F)),
    StableHlo.binary main_v186 main_v187 main_v188 (cmpi .sge : (⟨S4096x768, .i32⟩ : BufTy).Contents (Elt F) → (⟨S4096x768, .i32⟩ : BufTy).Contents (Elt F) → (⟨S4096x768, .i1⟩ : BufTy).Contents (Elt F)),
    StableHlo.nullary main_cst_59 (constant S_ .f32 0xBF800000#32),
    StableHlo.nullary main_cst_60 (constant S_ .f32 0x3F800000#32),
    StableHlo.TRef.unary (.of main_cst_59 : StableHlo.TRef sig ⟨S_, .f32⟩) main_call4.v0 (broadcastInDim S4096x768 ![] bcast_S_S4096x768),
    StableHlo.TRef.unary (.of main_cst_60 : StableHlo.TRef sig ⟨S_, .f32⟩) main_call4.v1 (broadcastInDim S4096x768 ![] bcast_S_S4096x768),
    StableHlo.TRef.ternary (.of main_v188 : StableHlo.TRef sig ⟨S4096x768, .i1⟩) main_call4.v0 main_call4.v1 main_call4.v2 select,
    StableHlo.nullary main_c_61 (constantI S_ 32 2#32),
    StableHlo.unary main_c_61 main_v190 (broadcastInDim S4096x768 ![] bcast_S_S4096x768 : (⟨S_, .i32⟩ : BufTy).Contents (Elt F) → (⟨S4096x768, .i32⟩ : BufTy).Contents (Elt F)),
    StableHlo.binary main_v186 main_v190 main_v191 (Host.shrsi : (⟨S4096x768, .i32⟩ : BufTy).Contents (Elt F) → (⟨S4096x768, .i32⟩ : BufTy).Contents (Elt F) → (⟨S4096x768, .i32⟩ : BufTy).Contents (Elt F)),
    StableHlo.nullary main_c_62 (constantI S_ 32 7#32),
    StableHlo.unary main_c_62 main_v192 (broadcastInDim S4096x768 ![] bcast_S_S4096x768 : (⟨S_, .i32⟩ : BufTy).Contents (Elt F) → (⟨S4096x768, .i32⟩ : BufTy).Contents (Elt F)),
    StableHlo.binary main_v191 main_v192 main_v193 (andi : (⟨S4096x768, .i32⟩ : BufTy).Contents (Elt F) → (⟨S4096x768, .i32⟩ : BufTy).Contents (Elt F) → (⟨S4096x768, .i32⟩ : BufTy).Contents (Elt F)),
    StableHlo.unary main_v193 main_v194 (sitofp .f32 : (⟨S4096x768, .i32⟩ : BufTy).Contents (Elt F) → (⟨S4096x768, .f32⟩ : BufTy).Contents (Elt F)),
    StableHlo.nullary main_c_63 (constantI S_ 32 3#32),
    StableHlo.unary main_c_63 main_v195 (broadcastInDim S4096x768 ![] bcast_S_S4096x768 : (⟨S_, .i32⟩ : BufTy).Contents (Elt F) → (⟨S4096x768, .i32⟩ : BufTy).Contents (Elt F)),
    StableHlo.binary main_v186 main_v195 main_v196 (andi : (⟨S4096x768, .i32⟩ : BufTy).Contents (Elt F) → (⟨S4096x768, .i32⟩ : BufTy).Contents (Elt F) → (⟨S4096x768, .i32⟩ : BufTy).Contents (Elt F)),
    StableHlo.unary main_v196 main_v197 (sitofp .f32 : (⟨S4096x768, .i32⟩ : BufTy).Contents (Elt F) → (⟨S4096x768, .f32⟩ : BufTy).Contents (Elt F)),
    StableHlo.nullary main_cst_64 (constant S_ .f32 0x00000000#32),
    StableHlo.unary main_cst_64 main_v198 (broadcastInDim S4096x768 ![] bcast_S_S4096x768 : (⟨S_, .f32⟩ : BufTy).Contents (Elt F) → (⟨S4096x768, .f32⟩ : BufTy).Contents (Elt F)),
    StableHlo.binary main_v194 main_v198 main_v199 (cmpf .oeq : (⟨S4096x768, .f32⟩ : BufTy).Contents (Elt F) → (⟨S4096x768, .f32⟩ : BufTy).Contents (Elt F) → (⟨S4096x768, .i1⟩ : BufTy).Contents (Elt F)),
    StableHlo.nullary main_cst_65 (constant S_ .f32 0x3E800000#32),
    StableHlo.unary main_cst_65 main_v200 (broadcastInDim S4096x768 ![] bcast_S_S4096x768 : (⟨S_, .f32⟩ : BufTy).Contents (Elt F) → (⟨S4096x768, .f32⟩ : BufTy).Contents (Elt F)),
    StableHlo.binary main_v197 main_v200 main_v201 (mulf : (⟨S4096x768, .f32⟩ : BufTy).Contents (Elt F) → (⟨S4096x768, .f32⟩ : BufTy).Contents (Elt F) → (⟨S4096x768, .f32⟩ : BufTy).Contents (Elt F)),
    StableHlo.nullary main_cst_66 (constant S_ .f32 0x3E800000#32),
    StableHlo.unary main_cst_66 main_v202 (broadcastInDim S4096x768 ![] bcast_S_S4096x768 : (⟨S_, .f32⟩ : BufTy).Contents (Elt F) → (⟨S4096x768, .f32⟩ : BufTy).Contents (Elt F)),
    StableHlo.binary main_v201 main_v202 main_v203 (mulf : (⟨S4096x768, .f32⟩ : BufTy).Contents (Elt F) → (⟨S4096x768, .f32⟩ : BufTy).Contents (Elt F) → (⟨S4096x768, .f32⟩ : BufTy).Contents (Elt F)),
    StableHlo.nullary main_cst_67 (constant S_ .f32 0x3E800000#32),
    StableHlo.unary main_cst_67 main_v204 (broadcastInDim S4096x768 ![] bcast_S_S4096x768 : (⟨S_, .f32⟩ : BufTy).Contents (Elt F) → (⟨S4096x768, .f32⟩ : BufTy).Contents (Elt F)),
    StableHlo.binary main_v197 main_v204 main_v205 (mulf : (⟨S4096x768, .f32⟩ : BufTy).Contents (Elt F) → (⟨S4096x768, .f32⟩ : BufTy).Contents (Elt F) → (⟨S4096x768, .f32⟩ : BufTy).Contents (Elt F)),
    StableHlo.nullary main_cst_68 (constant S_ .f32 0x3F800000#32),
    StableHlo.unary main_cst_68 main_v206 (broadcastInDim S4096x768 ![] bcast_S_S4096x768 : (⟨S_, .f32⟩ : BufTy).Contents (Elt F) → (⟨S4096x768, .f32⟩ : BufTy).Contents (Elt F)),
    StableHlo.binary main_v206 main_v205 main_v207 (addf : (⟨S4096x768, .f32⟩ : BufTy).Contents (Elt F) → (⟨S4096x768, .f32⟩ : BufTy).Contents (Elt F) → (⟨S4096x768, .f32⟩ : BufTy).Contents (Elt F)),
    StableHlo.nullary main_cst_69 (constant S_ .f32 0x40400000#32),
    StableHlo.unary main_cst_69 main_v208 (broadcastInDim S4096x768 ![] bcast_S_S4096x768 : (⟨S_, .f32⟩ : BufTy).Contents (Elt F) → (⟨S4096x768, .f32⟩ : BufTy).Contents (Elt F)),
    StableHlo.binary main_v194 main_v208 main_v209 (subf : (⟨S4096x768, .f32⟩ : BufTy).Contents (Elt F) → (⟨S4096x768, .f32⟩ : BufTy).Contents (Elt F) → (⟨S4096x768, .f32⟩ : BufTy).Contents (Elt F)),
    StableHlo.nullary main_cst_70 (constant S_ .f32 0x3F317218#32),
    StableHlo.unary main_cst_70 main_v210 (broadcastInDim S4096x768 ![] bcast_S_S4096x768 : (⟨S_, .f32⟩ : BufTy).Contents (Elt F) → (⟨S4096x768, .f32⟩ : BufTy).Contents (Elt F)),
    StableHlo.binary main_v210 main_v209 main_v211 (mulf : (⟨S4096x768, .f32⟩ : BufTy).Contents (Elt F) → (⟨S4096x768, .f32⟩ : BufTy).Contents (Elt F) → (⟨S4096x768, .f32⟩ : BufTy).Contents (Elt F)),
    StableHlo.unary main_v211 main_v212 (Host.exp : (⟨S4096x768, .f32⟩ : BufTy).Contents (Elt F) → (⟨S4096x768, .f32⟩ : BufTy).Contents (Elt F)),
    StableHlo.binary main_v207 main_v212 main_v213 (mulf : (⟨S4096x768, .f32⟩ : BufTy).Contents (Elt F) → (⟨S4096x768, .f32⟩ : BufTy).Contents (Elt F) → (⟨S4096x768, .f32⟩ : BufTy).Contents (Elt F)),
    StableHlo.TRef.ternary (.of main_v199 : StableHlo.TRef sig ⟨S4096x768, .i1⟩) (.of main_v203 : StableHlo.TRef sig ⟨S4096x768, .f32⟩) (.of main_v213 : StableHlo.TRef sig ⟨S4096x768, .f32⟩) main_call5.v0 select,
    StableHlo.unary main_v189 main_v215 (id : (⟨S4096x768, .f32⟩ : BufTy).Contents (Elt F) → (⟨S4096x768, .f32⟩ : BufTy).Contents (Elt F)),
    StableHlo.binary main_v215 main_v214 main_v216 (mulf : (⟨S4096x768, .f32⟩ : BufTy).Contents (Elt F) → (⟨S4096x768, .f32⟩ : BufTy).Contents (Elt F) → (⟨S4096x768, .f32⟩ : BufTy).Contents (Elt F)),
    StableHlo.unary main_v149 main_v217 (sitofp .f32 : (⟨S4096x24, .i32⟩ : BufTy).Contents (Elt F) → (⟨S4096x24, .f32⟩ : BufTy).Contents (Elt F)),
    StableHlo.nullary main_cst_71 (constant S_ .f32 0x42FE0000#32),
    StableHlo.unary main_cst_71 main_v218 (broadcastInDim S4096x24 ![] bcast_S_S4096x24 : (⟨S_, .f32⟩ : BufTy).Contents (Elt F) → (⟨S4096x24, .f32⟩ : BufTy).Contents (Elt F)),
    StableHlo.binary main_v217 main_v218 main_v219 (subf : (⟨S4096x24, .f32⟩ : BufTy).Contents (Elt F) → (⟨S4096x24, .f32⟩ : BufTy).Contents (Elt F) → (⟨S4096x24, .f32⟩ : BufTy).Contents (Elt F)),
    StableHlo.nullary main_cst_72 (constant S_ .f32 0x3F317218#32),
    StableHlo.unary main_cst_72 main_v220 (broadcastInDim S4096x24 ![] bcast_S_S4096x24 : (⟨S_, .f32⟩ : BufTy).Contents (Elt F) → (⟨S4096x24, .f32⟩ : BufTy).Contents (Elt F)),
    StableHlo.binary main_v220 main_v219 main_v221 (mulf : (⟨S4096x24, .f32⟩ : BufTy).Contents (Elt F) → (⟨S4096x24, .f32⟩ : BufTy).Contents (Elt F) → (⟨S4096x24, .f32⟩ : BufTy).Contents (Elt F)),
    StableHlo.unary main_v221 main_v222 (Host.exp : (⟨S4096x24, .f32⟩ : BufTy).Contents (Elt F) → (⟨S4096x24, .f32⟩ : BufTy).Contents (Elt F)),
    StableHlo.reshape main_v216 main_v223 rfl shapeCasts_S4096x768_S4096x24x32,
    StableHlo.unary main_v222 main_v224 (broadcastInDim S4096x24x1 ![0, 1] bcast_S4096x24_S4096x24x1_0_1 : (⟨S4096x24, .f32⟩ : BufTy).Contents (Elt F) → (⟨S4096x24x1, .f32⟩ : BufTy).Contents (Elt F)) ]
theorem opsR4_sub : (opsR4 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.nary_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub ..⟩

set_option maxHeartbeats 40000000 in
/-- 62 operations. -/
abbrev opsR5 : List (HloOp τ sig (Elt F)) :=
  [ StableHlo.unary main_v224 main_v225 (broadcastInDim S4096x24x32 ![0, 1, 2] bcast_S4096x24x1_S4096x24x32_0_1_2 : (⟨S4096x24x1, .f32⟩ : BufTy).Contents (Elt F) → (⟨S4096x24x32, .f32⟩ : BufTy).Contents (Elt F)),
    StableHlo.binary main_v223 main_v225 main_v226 (mulf : (⟨S4096x24x32, .f32⟩ : BufTy).Contents (Elt F) → (⟨S4096x24x32, .f32⟩ : BufTy).Contents (Elt F) → (⟨S4096x24x32, .f32⟩ : BufTy).Contents (Elt F)),
    StableHlo.reshape main_v226 main_v227 rfl shapeCasts_S4096x24x32_S4096x768,
    StableHlo.nullary main_c_73 (constantI S_ 32 128#32),
    StableHlo.unary main_c_73 main_v228 (broadcastInDim S4096x256 ![] bcast_S_S4096x256 : (⟨S_, .i32⟩ : BufTy).Contents (Elt F) → (⟨S4096x256, .i32⟩ : BufTy).Contents (Elt F)),
    StableHlo.binary main_arg2 main_v228 main_v229 (cmpi .sge : (⟨S4096x256, .i32⟩ : BufTy).Contents (Elt F) → (⟨S4096x256, .i32⟩ : BufTy).Contents (Elt F) → (⟨S4096x256, .i1⟩ : BufTy).Contents (Elt F)),
    StableHlo.nullary main_cst_74 (constant S_ .f32 0xBF800000#32),
    StableHlo.nullary main_cst_75 (constant S_ .f32 0x3F800000#32),
    StableHlo.TRef.unary (.of main_cst_74 : StableHlo.TRef sig ⟨S_, .f32⟩) main_call6.v0 (broadcastInDim S4096x256 ![] bcast_S_S4096x256),
    StableHlo.TRef.unary (.of main_cst_75 : StableHlo.TRef sig ⟨S_, .f32⟩) main_call6.v1 (broadcastInDim S4096x256 ![] bcast_S_S4096x256),
    StableHlo.TRef.ternary (.of main_v229 : StableHlo.TRef sig ⟨S4096x256, .i1⟩) main_call6.v0 main_call6.v1 main_call6.v2 select,
    StableHlo.nullary main_c_76 (constantI S_ 32 3#32),
    StableHlo.unary main_c_76 main_v231 (broadcastInDim S4096x256 ![] bcast_S_S4096x256 : (⟨S_, .i32⟩ : BufTy).Contents (Elt F) → (⟨S4096x256, .i32⟩ : BufTy).Contents (Elt F)),
    StableHlo.binary main_arg2 main_v231 main_v232 (Host.shrsi : (⟨S4096x256, .i32⟩ : BufTy).Contents (Elt F) → (⟨S4096x256, .i32⟩ : BufTy).Contents (Elt F) → (⟨S4096x256, .i32⟩ : BufTy).Contents (Elt F)),
    StableHlo.nullary main_c_77 (constantI S_ 32 15#32),
    StableHlo.unary main_c_77 main_v233 (broadcastInDim S4096x256 ![] bcast_S_S4096x256 : (⟨S_, .i32⟩ : BufTy).Contents (Elt F) → (⟨S4096x256, .i32⟩ : BufTy).Contents (Elt F)),
    StableHlo.binary main_v232 main_v233 main_v234 (andi : (⟨S4096x256, .i32⟩ : BufTy).Contents (Elt F) → (⟨S4096x256, .i32⟩ : BufTy).Contents (Elt F) → (⟨S4096x256, .i32⟩ : BufTy).Contents (Elt F)),
    StableHlo.unary main_v234 main_v235 (sitofp .f32 : (⟨S4096x256, .i32⟩ : BufTy).Contents (Elt F) → (⟨S4096x256, .f32⟩ : BufTy).Contents (Elt F)),
    StableHlo.nullary main_c_78 (constantI S_ 32 7#32),
    StableHlo.unary main_c_78 main_v236 (broadcastInDim S4096x256 ![] bcast_S_S4096x256 : (⟨S_, .i32⟩ : BufTy).Contents (Elt F) → (⟨S4096x256, .i32⟩ : BufTy).Contents (Elt F)),
    StableHlo.binary main_arg2 main_v236 main_v237 (andi : (⟨S4096x256, .i32⟩ : BufTy).Contents (Elt F) → (⟨S4096x256, .i32⟩ : BufTy).Contents (Elt F) → (⟨S4096x256, .i32⟩ : BufTy).Contents (Elt F)),
    StableHlo.unary main_v237 main_v238 (sitofp .f32 : (⟨S4096x256, .i32⟩ : BufTy).Contents (Elt F) → (⟨S4096x256, .f32⟩ : BufTy).Contents (Elt F)),
    StableHlo.nullary main_cst_79 (constant S_ .f32 0x00000000#32),
    StableHlo.unary main_cst_79 main_v239 (broadcastInDim S4096x256 ![] bcast_S_S4096x256 : (⟨S_, .f32⟩ : BufTy).Contents (Elt F) → (⟨S4096x256, .f32⟩ : BufTy).Contents (Elt F)),
    StableHlo.binary main_v235 main_v239 main_v240 (cmpf .oeq : (⟨S4096x256, .f32⟩ : BufTy).Contents (Elt F) → (⟨S4096x256, .f32⟩ : BufTy).Contents (Elt F) → (⟨S4096x256, .i1⟩ : BufTy).Contents (Elt F)),
    StableHlo.nullary main_cst_80 (constant S_ .f32 0x3E000000#32),
    StableHlo.unary main_cst_80 main_v241 (broadcastInDim S4096x256 ![] bcast_S_S4096x256 : (⟨S_, .f32⟩ : BufTy).Contents (Elt F) → (⟨S4096x256, .f32⟩ : BufTy).Contents (Elt F)),
    StableHlo.binary main_v238 main_v241 main_v242 (mulf : (⟨S4096x256, .f32⟩ : BufTy).Contents (Elt F) → (⟨S4096x256, .f32⟩ : BufTy).Contents (Elt F) → (⟨S4096x256, .f32⟩ : BufTy).Contents (Elt F)),
    StableHlo.nullary main_cst_81 (constant S_ .f32 0xC0C00000#32),
    StableHlo.nullary main_cst_82 (constant S_ .f32 0x3F317218#32),
    StableHlo.unary main_cst_82 main_v243 (broadcastInDim S_ ![] bcast_S_S_ : (⟨S_, .f32⟩ : BufTy).Contents (Elt F) → (⟨S_, .f32⟩ : BufTy).Contents (Elt F)),
    StableHlo.binary main_v243 main_cst_81 main_v244 (mulf : (⟨S_, .f32⟩ : BufTy).Contents (Elt F) → (⟨S_, .f32⟩ : BufTy).Contents (Elt F) → (⟨S_, .f32⟩ : BufTy).Contents (Elt F)),
    StableHlo.unary main_v244 main_v245 (Host.exp : (⟨S_, .f32⟩ : BufTy).Contents (Elt F) → (⟨S_, .f32⟩ : BufTy).Contents (Elt F)),
    StableHlo.unary main_v245 main_v246 (id : (⟨S_, .f32⟩ : BufTy).Contents (Elt F) → (⟨S_, .f32⟩ : BufTy).Contents (Elt F)),
    StableHlo.unary main_v246 main_v247 (broadcastInDim S4096x256 ![] bcast_S_S4096x256 : (⟨S_, .f32⟩ : BufTy).Contents (Elt F) → (⟨S4096x256, .f32⟩ : BufTy).Contents (Elt F)),
    StableHlo.binary main_v242 main_v247 main_v248 (mulf : (⟨S4096x256, .f32⟩ : BufTy).Contents (Elt F) → (⟨S4096x256, .f32⟩ : BufTy).Contents (Elt F) → (⟨S4096x256, .f32⟩ : BufTy).Contents (Elt F)),
    StableHlo.nullary main_cst_83 (constant S_ .f32 0x3E000000#32),
    StableHlo.unary main_cst_83 main_v249 (broadcastInDim S4096x256 ![] bcast_S_S4096x256 : (⟨S_, .f32⟩ : BufTy).Contents (Elt F) → (⟨S4096x256, .f32⟩ : BufTy).Contents (Elt F)),
    StableHlo.binary main_v238 main_v249 main_v250 (mulf : (⟨S4096x256, .f32⟩ : BufTy).Contents (Elt F) → (⟨S4096x256, .f32⟩ : BufTy).Contents (Elt F) → (⟨S4096x256, .f32⟩ : BufTy).Contents (Elt F)),
    StableHlo.nullary main_cst_84 (constant S_ .f32 0x3F800000#32),
    StableHlo.unary main_cst_84 main_v251 (broadcastInDim S4096x256 ![] bcast_S_S4096x256 : (⟨S_, .f32⟩ : BufTy).Contents (Elt F) → (⟨S4096x256, .f32⟩ : BufTy).Contents (Elt F)),
    StableHlo.binary main_v251 main_v250 main_v252 (addf : (⟨S4096x256, .f32⟩ : BufTy).Contents (Elt F) → (⟨S4096x256, .f32⟩ : BufTy).Contents (Elt F) → (⟨S4096x256, .f32⟩ : BufTy).Contents (Elt F)),
    StableHlo.nullary main_cst_85 (constant S_ .f32 0x40E00000#32),
    StableHlo.unary main_cst_85 main_v253 (broadcastInDim S4096x256 ![] bcast_S_S4096x256 : (⟨S_, .f32⟩ : BufTy).Contents (Elt F) → (⟨S4096x256, .f32⟩ : BufTy).Contents (Elt F)),
    StableHlo.binary main_v235 main_v253 main_v254 (subf : (⟨S4096x256, .f32⟩ : BufTy).Contents (Elt F) → (⟨S4096x256, .f32⟩ : BufTy).Contents (Elt F) → (⟨S4096x256, .f32⟩ : BufTy).Contents (Elt F)),
    StableHlo.nullary main_cst_86 (constant S_ .f32 0x3F317218#32),
    StableHlo.unary main_cst_86 main_v255 (broadcastInDim S4096x256 ![] bcast_S_S4096x256 : (⟨S_, .f32⟩ : BufTy).Contents (Elt F) → (⟨S4096x256, .f32⟩ : BufTy).Contents (Elt F)),
    StableHlo.binary main_v255 main_v254 main_v256 (mulf : (⟨S4096x256, .f32⟩ : BufTy).Contents (Elt F) → (⟨S4096x256, .f32⟩ : BufTy).Contents (Elt F) → (⟨S4096x256, .f32⟩ : BufTy).Contents (Elt F)),
    StableHlo.unary main_v256 main_v257 (Host.exp : (⟨S4096x256, .f32⟩ : BufTy).Contents (Elt F) → (⟨S4096x256, .f32⟩ : BufTy).Contents (Elt F)),
    StableHlo.binary main_v252 main_v257 main_v258 (mulf : (⟨S4096x256, .f32⟩ : BufTy).Contents (Elt F) → (⟨S4096x256, .f32⟩ : BufTy).Contents (Elt F) → (⟨S4096x256, .f32⟩ : BufTy).Contents (Elt F)),
    StableHlo.TRef.ternary (.of main_v240 : StableHlo.TRef sig ⟨S4096x256, .i1⟩) (.of main_v248 : StableHlo.TRef sig ⟨S4096x256, .f32⟩) (.of main_v258 : StableHlo.TRef sig ⟨S4096x256, .f32⟩) main_call7.v0 select,
    StableHlo.unary main_v230 main_v260 (id : (⟨S4096x256, .f32⟩ : BufTy).Contents (Elt F) → (⟨S4096x256, .f32⟩ : BufTy).Contents (Elt F)),
    StableHlo.binary main_v260 main_v259 main_v261 (mulf : (⟨S4096x256, .f32⟩ : BufTy).Contents (Elt F) → (⟨S4096x256, .f32⟩ : BufTy).Contents (Elt F) → (⟨S4096x256, .f32⟩ : BufTy).Contents (Elt F)),
    StableHlo.unary main_arg5 main_v262 (sitofp .f32 : (⟨S4096x8, .i32⟩ : BufTy).Contents (Elt F) → (⟨S4096x8, .f32⟩ : BufTy).Contents (Elt F)),
    StableHlo.nullary main_cst_87 (constant S_ .f32 0x42FE0000#32),
    StableHlo.unary main_cst_87 main_v263 (broadcastInDim S4096x8 ![] bcast_S_S4096x8 : (⟨S_, .f32⟩ : BufTy).Contents (Elt F) → (⟨S4096x8, .f32⟩ : BufTy).Contents (Elt F)),
    StableHlo.binary main_v262 main_v263 main_v264 (subf : (⟨S4096x8, .f32⟩ : BufTy).Contents (Elt F) → (⟨S4096x8, .f32⟩ : BufTy).Contents (Elt F) → (⟨S4096x8, .f32⟩ : BufTy).Contents (Elt F)),
    StableHlo.nullary main_cst_88 (constant S_ .f32 0x3F317218#32),
    StableHlo.unary main_cst_88 main_v265 (broadcastInDim S4096x8 ![] bcast_S_S4096x8 : (⟨S_, .f32⟩ : BufTy).Contents (Elt F) → (⟨S4096x8, .f32⟩ : BufTy).Contents (Elt F)),
    StableHlo.binary main_v265 main_v264 main_v266 (mulf : (⟨S4096x8, .f32⟩ : BufTy).Contents (Elt F) → (⟨S4096x8, .f32⟩ : BufTy).Contents (Elt F) → (⟨S4096x8, .f32⟩ : BufTy).Contents (Elt F)),
    StableHlo.unary main_v266 main_v267 (Host.exp : (⟨S4096x8, .f32⟩ : BufTy).Contents (Elt F) → (⟨S4096x8, .f32⟩ : BufTy).Contents (Elt F)),
    StableHlo.reshape main_v261 main_v268 rfl shapeCasts_S4096x256_S4096x8x32 ]
theorem opsR5_sub : (opsR5 : List (HloOp τ sig (Elt F))).Forall fun op => op.bufs ⊆ StableHlo.tcRefs τ sig :=
  ⟨StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub ..⟩

set_option maxHeartbeats 40000000 in
/-- 62 operations. -/
abbrev opsR6 : List (HloOp τ sig (Elt F)) :=
  [ StableHlo.unary main_v267 main_v269 (broadcastInDim S4096x8x1 ![0, 1] bcast_S4096x8_S4096x8x1_0_1 : (⟨S4096x8, .f32⟩ : BufTy).Contents (Elt F) → (⟨S4096x8x1, .f32⟩ : BufTy).Contents (Elt F)),
    StableHlo.unary main_v269 main_v270 (broadcastInDim S4096x8x32 ![0, 1, 2] bcast_S4096x8x1_S4096x8x32_0_1_2 : (⟨S4096x8x1, .f32⟩ : BufTy).Contents (Elt F) → (⟨S4096x8x32, .f32⟩ : BufTy).Contents (Elt F)),
    StableHlo.binary main_v268 main_v270 main_v271 (mulf : (⟨S4096x8x32, .f32⟩ : BufTy).Contents (Elt F) → (⟨S4096x8x32, .f32⟩ : BufTy).Contents (Elt F) → (⟨S4096x8x32, .f32⟩ : BufTy).Contents (Elt F)),
    StableHlo.reshape main_v271 main_v272 rfl shapeCasts_S4096x8x32_S4096x256,
    StableHlo.reshape main_arg11 main_v273 rfl shapeCasts_S32768_S4096x8,
    StableHlo.nullary main_c_89 (constantI S_ 32 128#32),
    StableHlo.unary main_c_89 main_v274 (broadcastInDim S4096x256 ![] bcast_S_S4096x256 : (⟨S_, .i32⟩ : BufTy).Contents (Elt F) → (⟨S4096x256, .i32⟩ : BufTy).Contents (Elt F)),
    StableHlo.binary main_arg8 main_v274 main_v275 (cmpi .sge : (⟨S4096x256, .i32⟩ : BufTy).Contents (Elt F) → (⟨S4096x256, .i32⟩ : BufTy).Contents (Elt F) → (⟨S4096x256, .i1⟩ : BufTy).Contents (Elt F)),
    StableHlo.nullary main_cst_90 (constant S_ .f32 0xBF800000#32),
    StableHlo.nullary main_cst_91 (constant S_ .f32 0x3F800000#32),
    StableHlo.TRef.unary (.of main_cst_90 : StableHlo.TRef sig ⟨S_, .f32⟩) main_call8.v0 (broadcastInDim S4096x256 ![] bcast_S_S4096x256),
    StableHlo.TRef.unary (.of main_cst_91 : StableHlo.TRef sig ⟨S_, .f32⟩) main_call8.v1 (broadcastInDim S4096x256 ![] bcast_S_S4096x256),
    StableHlo.TRef.ternary (.of main_v275 : StableHlo.TRef sig ⟨S4096x256, .i1⟩) main_call8.v0 main_call8.v1 main_call8.v2 select,
    StableHlo.nullary main_c_92 (constantI S_ 32 3#32),
    StableHlo.unary main_c_92 main_v277 (broadcastInDim S4096x256 ![] bcast_S_S4096x256 : (⟨S_, .i32⟩ : BufTy).Contents (Elt F) → (⟨S4096x256, .i32⟩ : BufTy).Contents (Elt F)),
    StableHlo.binary main_arg8 main_v277 main_v278 (Host.shrsi : (⟨S4096x256, .i32⟩ : BufTy).Contents (Elt F) → (⟨S4096x256, .i32⟩ : BufTy).Contents (Elt F) → (⟨S4096x256, .i32⟩ : BufTy).Contents (Elt F)),
    StableHlo.nullary main_c_93 (constantI S_ 32 15#32),
    StableHlo.unary main_c_93 main_v279 (broadcastInDim S4096x256 ![] bcast_S_S4096x256 : (⟨S_, .i32⟩ : BufTy).Contents (Elt F) → (⟨S4096x256, .i32⟩ : BufTy).Contents (Elt F)),
    StableHlo.binary main_v278 main_v279 main_v280 (andi : (⟨S4096x256, .i32⟩ : BufTy).Contents (Elt F) → (⟨S4096x256, .i32⟩ : BufTy).Contents (Elt F) → (⟨S4096x256, .i32⟩ : BufTy).Contents (Elt F)),
    StableHlo.unary main_v280 main_v281 (sitofp .f32 : (⟨S4096x256, .i32⟩ : BufTy).Contents (Elt F) → (⟨S4096x256, .f32⟩ : BufTy).Contents (Elt F)),
    StableHlo.nullary main_c_94 (constantI S_ 32 7#32),
    StableHlo.unary main_c_94 main_v282 (broadcastInDim S4096x256 ![] bcast_S_S4096x256 : (⟨S_, .i32⟩ : BufTy).Contents (Elt F) → (⟨S4096x256, .i32⟩ : BufTy).Contents (Elt F)),
    StableHlo.binary main_arg8 main_v282 main_v283 (andi : (⟨S4096x256, .i32⟩ : BufTy).Contents (Elt F) → (⟨S4096x256, .i32⟩ : BufTy).Contents (Elt F) → (⟨S4096x256, .i32⟩ : BufTy).Contents (Elt F)),
    StableHlo.unary main_v283 main_v284 (sitofp .f32 : (⟨S4096x256, .i32⟩ : BufTy).Contents (Elt F) → (⟨S4096x256, .f32⟩ : BufTy).Contents (Elt F)),
    StableHlo.nullary main_cst_95 (constant S_ .f32 0x00000000#32),
    StableHlo.unary main_cst_95 main_v285 (broadcastInDim S4096x256 ![] bcast_S_S4096x256 : (⟨S_, .f32⟩ : BufTy).Contents (Elt F) → (⟨S4096x256, .f32⟩ : BufTy).Contents (Elt F)),
    StableHlo.binary main_v281 main_v285 main_v286 (cmpf .oeq : (⟨S4096x256, .f32⟩ : BufTy).Contents (Elt F) → (⟨S4096x256, .f32⟩ : BufTy).Contents (Elt F) → (⟨S4096x256, .i1⟩ : BufTy).Contents (Elt F)),
    StableHlo.nullary main_cst_96 (constant S_ .f32 0x3E000000#32),
    StableHlo.unary main_cst_96 main_v287 (broadcastInDim S4096x256 ![] bcast_S_S4096x256 : (⟨S_, .f32⟩ : BufTy).Contents (Elt F) → (⟨S4096x256, .f32⟩ : BufTy).Contents (Elt F)),
    StableHlo.binary main_v284 main_v287 main_v288 (mulf : (⟨S4096x256, .f32⟩ : BufTy).Contents (Elt F) → (⟨S4096x256, .f32⟩ : BufTy).Contents (Elt F) → (⟨S4096x256, .f32⟩ : BufTy).Contents (Elt F)),
    StableHlo.nullary main_cst_97 (constant S_ .f32 0xC0C00000#32),
    StableHlo.nullary main_cst_98 (constant S_ .f32 0x3F317218#32),
    StableHlo.unary main_cst_98 main_v289 (broadcastInDim S_ ![] bcast_S_S_ : (⟨S_, .f32⟩ : BufTy).Contents (Elt F) → (⟨S_, .f32⟩ : BufTy).Contents (Elt F)),
    StableHlo.binary main_v289 main_cst_97 main_v290 (mulf : (⟨S_, .f32⟩ : BufTy).Contents (Elt F) → (⟨S_, .f32⟩ : BufTy).Contents (Elt F) → (⟨S_, .f32⟩ : BufTy).Contents (Elt F)),
    StableHlo.unary main_v290 main_v291 (Host.exp : (⟨S_, .f32⟩ : BufTy).Contents (Elt F) → (⟨S_, .f32⟩ : BufTy).Contents (Elt F)),
    StableHlo.unary main_v291 main_v292 (id : (⟨S_, .f32⟩ : BufTy).Contents (Elt F) → (⟨S_, .f32⟩ : BufTy).Contents (Elt F)),
    StableHlo.unary main_v292 main_v293 (broadcastInDim S4096x256 ![] bcast_S_S4096x256 : (⟨S_, .f32⟩ : BufTy).Contents (Elt F) → (⟨S4096x256, .f32⟩ : BufTy).Contents (Elt F)),
    StableHlo.binary main_v288 main_v293 main_v294 (mulf : (⟨S4096x256, .f32⟩ : BufTy).Contents (Elt F) → (⟨S4096x256, .f32⟩ : BufTy).Contents (Elt F) → (⟨S4096x256, .f32⟩ : BufTy).Contents (Elt F)),
    StableHlo.nullary main_cst_99 (constant S_ .f32 0x3E000000#32),
    StableHlo.unary main_cst_99 main_v295 (broadcastInDim S4096x256 ![] bcast_S_S4096x256 : (⟨S_, .f32⟩ : BufTy).Contents (Elt F) → (⟨S4096x256, .f32⟩ : BufTy).Contents (Elt F)),
    StableHlo.binary main_v284 main_v295 main_v296 (mulf : (⟨S4096x256, .f32⟩ : BufTy).Contents (Elt F) → (⟨S4096x256, .f32⟩ : BufTy).Contents (Elt F) → (⟨S4096x256, .f32⟩ : BufTy).Contents (Elt F)),
    StableHlo.nullary main_cst_100 (constant S_ .f32 0x3F800000#32),
    StableHlo.unary main_cst_100 main_v297 (broadcastInDim S4096x256 ![] bcast_S_S4096x256 : (⟨S_, .f32⟩ : BufTy).Contents (Elt F) → (⟨S4096x256, .f32⟩ : BufTy).Contents (Elt F)),
    StableHlo.binary main_v297 main_v296 main_v298 (addf : (⟨S4096x256, .f32⟩ : BufTy).Contents (Elt F) → (⟨S4096x256, .f32⟩ : BufTy).Contents (Elt F) → (⟨S4096x256, .f32⟩ : BufTy).Contents (Elt F)),
    StableHlo.nullary main_cst_101 (constant S_ .f32 0x40E00000#32),
    StableHlo.unary main_cst_101 main_v299 (broadcastInDim S4096x256 ![] bcast_S_S4096x256 : (⟨S_, .f32⟩ : BufTy).Contents (Elt F) → (⟨S4096x256, .f32⟩ : BufTy).Contents (Elt F)),
    StableHlo.binary main_v281 main_v299 main_v300 (subf : (⟨S4096x256, .f32⟩ : BufTy).Contents (Elt F) → (⟨S4096x256, .f32⟩ : BufTy).Contents (Elt F) → (⟨S4096x256, .f32⟩ : BufTy).Contents (Elt F)),
    StableHlo.nullary main_cst_102 (constant S_ .f32 0x3F317218#32),
    StableHlo.unary main_cst_102 main_v301 (broadcastInDim S4096x256 ![] bcast_S_S4096x256 : (⟨S_, .f32⟩ : BufTy).Contents (Elt F) → (⟨S4096x256, .f32⟩ : BufTy).Contents (Elt F)),
    StableHlo.binary main_v301 main_v300 main_v302 (mulf : (⟨S4096x256, .f32⟩ : BufTy).Contents (Elt F) → (⟨S4096x256, .f32⟩ : BufTy).Contents (Elt F) → (⟨S4096x256, .f32⟩ : BufTy).Contents (Elt F)),
    StableHlo.unary main_v302 main_v303 (Host.exp : (⟨S4096x256, .f32⟩ : BufTy).Contents (Elt F) → (⟨S4096x256, .f32⟩ : BufTy).Contents (Elt F)),
    StableHlo.binary main_v298 main_v303 main_v304 (mulf : (⟨S4096x256, .f32⟩ : BufTy).Contents (Elt F) → (⟨S4096x256, .f32⟩ : BufTy).Contents (Elt F) → (⟨S4096x256, .f32⟩ : BufTy).Contents (Elt F)),
    StableHlo.TRef.ternary (.of main_v286 : StableHlo.TRef sig ⟨S4096x256, .i1⟩) (.of main_v294 : StableHlo.TRef sig ⟨S4096x256, .f32⟩) (.of main_v304 : StableHlo.TRef sig ⟨S4096x256, .f32⟩) main_call9.v0 select,
    StableHlo.unary main_v276 main_v306 (id : (⟨S4096x256, .f32⟩ : BufTy).Contents (Elt F) → (⟨S4096x256, .f32⟩ : BufTy).Contents (Elt F)),
    StableHlo.binary main_v306 main_v305 main_v307 (mulf : (⟨S4096x256, .f32⟩ : BufTy).Contents (Elt F) → (⟨S4096x256, .f32⟩ : BufTy).Contents (Elt F) → (⟨S4096x256, .f32⟩ : BufTy).Contents (Elt F)),
    StableHlo.unary main_v273 main_v308 (sitofp .f32 : (⟨S4096x8, .i32⟩ : BufTy).Contents (Elt F) → (⟨S4096x8, .f32⟩ : BufTy).Contents (Elt F)),
    StableHlo.nullary main_cst_103 (constant S_ .f32 0x42FE0000#32),
    StableHlo.unary main_cst_103 main_v309 (broadcastInDim S4096x8 ![] bcast_S_S4096x8 : (⟨S_, .f32⟩ : BufTy).Contents (Elt F) → (⟨S4096x8, .f32⟩ : BufTy).Contents (Elt F)),
    StableHlo.binary main_v308 main_v309 main_v310 (subf : (⟨S4096x8, .f32⟩ : BufTy).Contents (Elt F) → (⟨S4096x8, .f32⟩ : BufTy).Contents (Elt F) → (⟨S4096x8, .f32⟩ : BufTy).Contents (Elt F)),
    StableHlo.nullary main_cst_104 (constant S_ .f32 0x3F317218#32),
    StableHlo.unary main_cst_104 main_v311 (broadcastInDim S4096x8 ![] bcast_S_S4096x8 : (⟨S_, .f32⟩ : BufTy).Contents (Elt F) → (⟨S4096x8, .f32⟩ : BufTy).Contents (Elt F)),
    StableHlo.binary main_v311 main_v310 main_v312 (mulf : (⟨S4096x8, .f32⟩ : BufTy).Contents (Elt F) → (⟨S4096x8, .f32⟩ : BufTy).Contents (Elt F) → (⟨S4096x8, .f32⟩ : BufTy).Contents (Elt F)) ]
theorem opsR6_sub : (opsR6 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 40000000 in
/-- 6 operations. -/
abbrev opsR7 : List (HloOp τ sig (Elt F)) :=
  [ StableHlo.unary main_v312 main_v313 (Host.exp : (⟨S4096x8, .f32⟩ : BufTy).Contents (Elt F) → (⟨S4096x8, .f32⟩ : BufTy).Contents (Elt F)),
    StableHlo.reshape main_v307 main_v314 rfl shapeCasts_S4096x256_S4096x8x32,
    StableHlo.unary main_v313 main_v315 (broadcastInDim S4096x8x1 ![0, 1] bcast_S4096x8_S4096x8x1_0_1 : (⟨S4096x8, .f32⟩ : BufTy).Contents (Elt F) → (⟨S4096x8x1, .f32⟩ : BufTy).Contents (Elt F)),
    StableHlo.unary main_v315 main_v316 (broadcastInDim S4096x8x32 ![0, 1, 2] bcast_S4096x8x1_S4096x8x32_0_1_2 : (⟨S4096x8x1, .f32⟩ : BufTy).Contents (Elt F) → (⟨S4096x8x32, .f32⟩ : BufTy).Contents (Elt F)),
    StableHlo.binary main_v314 main_v316 main_v317 (mulf : (⟨S4096x8x32, .f32⟩ : BufTy).Contents (Elt F) → (⟨S4096x8x32, .f32⟩ : BufTy).Contents (Elt F) → (⟨S4096x8x32, .f32⟩ : BufTy).Contents (Elt F)),
    StableHlo.reshape main_v317 main_v318 rfl shapeCasts_S4096x8x32_S4096x256 ]
theorem opsR7_sub : (opsR7 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.reshape_bufs_sub ..⟩

set_option maxHeartbeats 40000000 in
/-- 11 operations. -/
abbrev opsTail : List (HloOp τ sig (Elt F)) :=
  [ StableHlo.unary main_v70 main_v319 ((transpose S3072x4096 [1, 0] · transposes_S4096x3072_S3072x4096_1_0) : (⟨S4096x3072, .f32⟩ : BufTy).Contents (Elt F) → (⟨S3072x4096, .f32⟩ : BufTy).Contents (Elt F)),
    StableHlo.binary main_v34 main_v319 main_v320 ((fun l r => Host.dotGeneral dot_S4096x3072_S3072x4096_S4096x4096_1_0_0_1_n_n none l r) : (⟨S4096x3072, .f32⟩ : BufTy).Contents (Elt F) → (⟨S3072x4096, .f32⟩ : BufTy).Contents (Elt F) → (⟨S4096x4096, .f32⟩ : BufTy).Contents (Elt F)),
    StableHlo.unary main_v227 main_v321 ((transpose S768x4096 [1, 0] · transposes_S4096x768_S768x4096_1_0) : (⟨S4096x768, .f32⟩ : BufTy).Contents (Elt F) → (⟨S768x4096, .f32⟩ : BufTy).Contents (Elt F)),
    StableHlo.binary main_v148 main_v321 main_v322 ((fun l r => Host.dotGeneral dot_S4096x768_S768x4096_S4096x4096_1_0_0_1_n_n none l r) : (⟨S4096x768, .f32⟩ : BufTy).Contents (Elt F) → (⟨S768x4096, .f32⟩ : BufTy).Contents (Elt F) → (⟨S4096x4096, .f32⟩ : BufTy).Contents (Elt F)),
    StableHlo.binary main_v320 main_v322 main_v323 (addf : (⟨S4096x4096, .f32⟩ : BufTy).Contents (Elt F) → (⟨S4096x4096, .f32⟩ : BufTy).Contents (Elt F) → (⟨S4096x4096, .f32⟩ : BufTy).Contents (Elt F)),
    StableHlo.unary main_v318 main_v324 ((transpose S256x4096 [1, 0] · transposes_S4096x256_S256x4096_1_0) : (⟨S4096x256, .f32⟩ : BufTy).Contents (Elt F) → (⟨S256x4096, .f32⟩ : BufTy).Contents (Elt F)),
    StableHlo.binary main_v272 main_v324 main_v325 ((fun l r => Host.dotGeneral dot_S4096x256_S256x4096_S4096x4096_1_0_0_1_n_n none l r) : (⟨S4096x256, .f32⟩ : BufTy).Contents (Elt F) → (⟨S256x4096, .f32⟩ : BufTy).Contents (Elt F) → (⟨S4096x4096, .f32⟩ : BufTy).Contents (Elt F)),
    StableHlo.binary main_v323 main_v325 main_v326 (addf : (⟨S4096x4096, .f32⟩ : BufTy).Contents (Elt F) → (⟨S4096x4096, .f32⟩ : BufTy).Contents (Elt F) → (⟨S4096x4096, .f32⟩ : BufTy).Contents (Elt F)),
    StableHlo.unary main_arg12 main_v327 (broadcastInDim S1x4096 ![1] bcast_S4096_S1x4096_1 : (⟨S4096, .f32⟩ : BufTy).Contents (Elt F) → (⟨S1x4096, .f32⟩ : BufTy).Contents (Elt F)),
    StableHlo.unary main_v327 main_v328 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v326 main_v328 main_v329 (addf : (⟨S4096x4096, .f32⟩ : BufTy).Contents (Elt F) → (⟨S4096x4096, .f32⟩ : BufTy).Contents (Elt F) → (⟨S4096x4096, .f32⟩ : BufTy).Contents (Elt F)) ]
theorem opsTail_sub : (opsTail : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub ..⟩

end Cert.ReferenceIdeal.Hand

end
-- ==== Proof.R.Run.lean ====
/-
  The reference's run. @main of the reference is a straight line of StableHLO operations, so every weakly fair execution
  terminates with each buffer at the fold of the operations over its launch contents. The fold is cut in two: the
  operations that dequantise the six code tensors (`pre`), and the eleven closing ones (`opsTail`). `VR m c b` is what
  buffer `b` holds after the first part. No operation writes an argument array (every written buffer has index 13 or
  later; the arguments are the buffers 0 … 12), so the arguments end as launched.
-/
import proofs.«422557_j67190468379216_3_alg».proof.Proof.R.Ops
import Idealize.ShloMosaic.Lib.Pipeline.Frame

set_option maxRecDepth 65536

noncomputable section

namespace Cert.ReferenceIdeal.Hand

open Cert.ReferenceIdeal Cert.ReferenceIdeal.Facts₀ Cert.ReferenceIdeal.Facts
open Idealize.ShloMosaic Idealize.ShloMosaic.TcCoe Idealize.ShloMosaic.StableHlo
open Idealize.SL Idealize.SL.Sem

variable {F : FTy → Type} [FloatOps F]

/-! ## @main is the line of its operations -/

set_option maxHeartbeats 40000000 in
theorem main_part0_eq (c : Dev nD) : main_part0 (F := F) c = seq opsR0 := rfl
set_option maxHeartbeats 40000000 in
theorem main_part1_eq (c : Dev nD) : main_part1 (F := F) c = seq opsR1 := rfl
set_option maxHeartbeats 40000000 in
theorem main_part2_eq (c : Dev nD) : main_part2 (F := F) c = seq opsR2 := rfl
set_option maxHeartbeats 40000000 in
theorem main_part3_eq (c : Dev nD) : main_part3 (F := F) c = seq opsR3 := rfl
set_option maxHeartbeats 40000000 in
theorem main_part4_eq (c : Dev nD) : main_part4 (F := F) c = seq opsR4 := rfl
set_option maxHeartbeats 40000000 in
theorem main_part5_eq (c : Dev nD) : main_part5 (F := F) c = seq opsR5 := rfl
set_option maxHeartbeats 40000000 in
theorem main_part6_eq (c : Dev nD) : main_part6 (F := F) c = seq opsR6 := rfl
set_option maxHeartbeats 40000000 in
theorem main_part7_eq (c : Dev nD) : main_part7 (F := F) c = seq (opsR7 ++ opsTail) := rfl

/-- The dequantising part, window by window. -/
abbrev pre : List (List (HloOp τ sig (Elt F))) := [opsR0, opsR1, opsR2, opsR3, opsR4, opsR5, opsR6, opsR7]

/-- Every operation of @main, in order. -/
abbrev allOps : List (HloOp τ sig (Elt F)) := List.flatten (pre (F := F)) ++ opsTail

set_option maxHeartbeats 4000000 in
theorem main_eq (c : Dev nD) : main (F := F) c = seq (allOps (F := F)) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c) = _
  rw [main_part0_eq, main_part1_eq, main_part2_eq, main_part3_eq, main_part4_eq, main_part5_eq, main_part6_eq, main_part7_eq]
  simp only [allOps, pre, List.flatten_cons, List.flatten_nil, List.append_nil, List.append_assoc, seq_append]

/-! ## Side conditions of the run, list by list -/

theorem opsR0_fresh : (opsR0 : List (HloOp τ sig (Elt F))).Forall fun op => op.fresh = ∅ := by
  simp only [List.Forall]; repeat' constructor
theorem opsR1_fresh : (opsR1 : List (HloOp τ sig (Elt F))).Forall fun op => op.fresh = ∅ := by
  simp only [List.Forall]; repeat' constructor
theorem opsR2_fresh : (opsR2 : List (HloOp τ sig (Elt F))).Forall fun op => op.fresh = ∅ := by
  simp only [List.Forall]; repeat' constructor
theorem opsR3_fresh : (opsR3 : List (HloOp τ sig (Elt F))).Forall fun op => op.fresh = ∅ := by
  simp only [List.Forall]; repeat' constructor
theorem opsR4_fresh : (opsR4 : List (HloOp τ sig (Elt F))).Forall fun op => op.fresh = ∅ := by
  simp only [List.Forall]; repeat' constructor
theorem opsR5_fresh : (opsR5 : List (HloOp τ sig (Elt F))).Forall fun op => op.fresh = ∅ := by
  simp only [List.Forall]; repeat' constructor
theorem opsR6_fresh : (opsR6 : List (HloOp τ sig (Elt F))).Forall fun op => op.fresh = ∅ := by
  simp only [List.Forall]; repeat' constructor
theorem opsR7_fresh : (opsR7 : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor

/-- Every buffer a host operation writes lies at index 13 or later of its table. -/
def WritesHigh (op : HloOp τ sig (Elt F)) : Prop := ∀ d ∈ op.writes, 13 ≤ d.idx.val

set_option maxHeartbeats 4000000 in
theorem opsR0_high : (opsR0 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR1_high : (opsR1 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR2_high : (opsR2 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR3_high : (opsR3 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR4_high : (opsR4 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR5_high : (opsR5 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR6_high : (opsR6 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsR7_high : (opsR7 : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide
set_option maxHeartbeats 4000000 in
theorem opsTail_high : (opsTail : List (HloOp τ sig (Elt F))).Forall WritesHigh := by
  simp only [List.Forall, WritesHigh, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton, forall_eq]
  repeat' apply And.intro
  all_goals decide

/-- A property every listed window's operations have, every operation of @main has. -/
theorem allOps_forall {P : HloOp τ sig (Elt F) → Prop}
    (h0 : (opsR0 : List (HloOp τ sig (Elt F))).Forall P) (h1 : (opsR1 : List (HloOp τ sig (Elt F))).Forall P) (h2 : (opsR2 : List (HloOp τ sig (Elt F))).Forall P) (h3 : (opsR3 : List (HloOp τ sig (Elt F))).Forall P) (h4 : (opsR4 : List (HloOp τ sig (Elt F))).Forall P) (h5 : (opsR5 : List (HloOp τ sig (Elt F))).Forall P) (h6 : (opsR6 : List (HloOp τ sig (Elt F))).Forall P) (h7 : (opsR7 : List (HloOp τ sig (Elt F))).Forall P) (ht : (opsTail : List (HloOp τ sig (Elt F))).Forall P) :
    ∀ op ∈ allOps (F := F), P op := by
  intro op hop
  rcases List.mem_append.mp hop with hop | hop
  · obtain ⟨l, hl, hop⟩ := List.mem_flatten.mp hop
    simp only [List.mem_cons, List.not_mem_nil, or_false] at hl
    rcases hl with rfl | rfl | rfl | rfl | rfl | rfl | rfl | rfl
    · exact (List.forall_iff_forall_mem.mp h0) op hop
    · exact (List.forall_iff_forall_mem.mp h1) op hop
    · exact (List.forall_iff_forall_mem.mp h2) op hop
    · exact (List.forall_iff_forall_mem.mp h3) op hop
    · exact (List.forall_iff_forall_mem.mp h4) op hop
    · exact (List.forall_iff_forall_mem.mp h5) op hop
    · exact (List.forall_iff_forall_mem.mp h6) op hop
    · exact (List.forall_iff_forall_mem.mp h7) op hop
  · exact (List.forall_iff_forall_mem.mp ht) op hop

theorem scopedRefs_eq : (Finset.univ.filter fun b : Ref sig .tc => b.isScoped) = ∅ := by decide
theorem scopedSems_eq : (Finset.univ.filter fun sm : SemLoc sig => sm.isScoped .tc) = ∅ := by decide

/-! ## The run -/

variable (m : (ℓ : Loc nD τ sig) → Buf (Elt F) ℓ) (ρ : Dev nD → PrngReg)

/-- Every weakly fair execution of the reference's @main terminates, each buffer at the fold of all operations. -/
theorem run_raw : θ_run defs (onTc (τ := τ) (main (F := F))) ⟨m, fun _ => 0, ρ⟩ fun r =>
    ∀ (d : Dev nD) (b : Ref sig .tc), r.2.mem ((d.tc : Thread nD τ).loc b)
      = after (allOps (F := F)) (launchContents m d) (Proc.devRef .tc b) :=
  run_seq scopedRefs_eq scopedSems_eq defs main (fun _ => allOps) main_eq
    (fun _ => List.forall_iff_forall_mem.mpr (allOps_forall opsR0_sub opsR1_sub opsR2_sub opsR3_sub opsR4_sub opsR5_sub opsR6_sub opsR7_sub opsTail_sub)) m ρ
    (fun _ => allOps_forall opsR0_fresh opsR1_fresh opsR2_fresh opsR3_fresh opsR4_fresh opsR5_fresh opsR6_fresh opsR7_fresh opsTail_fresh)

/-- Core `c`'s buffers after the dequantising part. -/
abbrev VR (c : Dev nD) (b : Ref sig .tc) : Buf (Elt F) ((c : Thread nD τ).loc b) :=
  after (List.flatten (pre (F := F))) (launchContents m c) b

/-- The whole fold is the closing operations run from `VR`. -/
theorem after_all (c : Dev nD) (b : Ref sig .tc) :
    after (allOps (F := F)) (launchContents m c) (Proc.devRef .tc b) = after opsTail (after (List.flatten (pre (F := F))) (launchContents m c)) (Proc.devRef .tc b) := by
  rw [show (allOps (F := F)) = List.flatten (pre (F := F)) ++ opsTail from rfl, StableHlo.after_append]

/-- A buffer of index below 13 is written by no operation: it ends as launched. -/
theorem kept_of_low (c : Dev nD) (b : Ref sig .tc) (hb : (Proc.devRef (τ := τ) .tc b).idx.val < 13) :
    after (allOps (F := F)) (launchContents m c) (Proc.devRef .tc b) = m ((c : Thread nD τ).loc b) :=
  after_of_forall_not_mem (b := Proc.devRef .tc b) _ _ fun op hop hmem =>
    absurd (allOps_forall opsR0_high opsR1_high opsR2_high opsR3_high opsR4_high opsR5_high opsR6_high opsR7_high opsTail_high op hop _ hmem) (Nat.not_le.mpr hb)

/-- The same of the dequantising part alone. -/
theorem VR_of_low (c : Dev nD) (b : Ref sig .tc) (hb : (Proc.devRef (τ := τ) .tc b).idx.val < 13) :
    VR m c b = m ((c : Thread nD τ).loc b) :=
  after_of_forall_not_mem (b := Proc.devRef .tc b) _ _ fun op hop hmem =>
    absurd (allOps_forall opsR0_high opsR1_high opsR2_high opsR3_high opsR4_high opsR5_high opsR6_high opsR7_high opsTail_high op (List.mem_append_left _ hop) _ hmem) (Nat.not_le.mpr hb)

end Cert.ReferenceIdeal.Hand

end
-- ==== Proof.R.Tail.lean ====
/-
  The reference's last operations — three products of an activation group with its transposed weight group, added
  from the left, plus the bias broadcast over the rows — as one pure function of the six dequantised arrays and the
  bias, and that function read at an index at the ideal values: `Cert.Spec.G`.
-/
import proofs.«422557_j67190468379216_3_alg».proof.Proof.Gen.ReferenceIdeal
import proofs.«422557_j67190468379216_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Facts₀ Cert.ReferenceIdeal.Facts
open Idealize.ShloMosaic Idealize.ShloMosaic.ValueIdx
open scoped BigOperators

variable {F : FTy → Type} [FloatOps F]

/-- The reference's operations %319 … %329, in the printed order and with the printed side conditions. -/
def tailR (a4 : FVec F S4096x3072 .f32) (w4 : FVec F S4096x3072 .f32) (a6 : FVec F S4096x768 .f32) (w6 : FVec F S4096x768 .f32)
    (a8 : FVec F S4096x256 .f32) (w8 : FVec F S4096x256 .f32) (bias : FVec F S4096 .f32) : FVec F S4096x4096 .f32 :=
  let v319 : FVec F S3072x4096 .f32 := transpose S3072x4096 [1, 0] w4 transposes_S4096x3072_S3072x4096_1_0
  let v320 : FVec F S4096x4096 .f32 := Host.dotGeneral dot_S4096x3072_S3072x4096_S4096x4096_1_0_0_1_n_n none a4 v319
  let v321 : FVec F S768x4096 .f32 := transpose S768x4096 [1, 0] w6 transposes_S4096x768_S768x4096_1_0
  let v322 : FVec F S4096x4096 .f32 := Host.dotGeneral dot_S4096x768_S768x4096_S4096x4096_1_0_0_1_n_n none a6 v321
  let v323 : FVec F S4096x4096 .f32 := addf v320 v322
  let v324 : FVec F S256x4096 .f32 := transpose S256x4096 [1, 0] w8 transposes_S4096x256_S256x4096_1_0
  let v325 : FVec F S4096x4096 .f32 := Host.dotGeneral dot_S4096x256_S256x4096_S4096x4096_1_0_0_1_n_n none a8 v324
  let v326 : FVec F S4096x4096 .f32 := addf v323 v325
  let v327 : FVec F S1x4096 .f32 := broadcastInDim S1x4096 ![1] bcast_S4096_S1x4096_1 bias
  let v328 : FVec F S4096x4096 .f32 := broadcastInDim S4096x4096 ![0, 1] bcast_S1x4096_S4096x4096_0_1 v327
  addf v326 v328

/-! ### The 3072-column product

The record `dot_S4096x3072_S3072x4096_S4096x4096_1_0_0_1_n_n`
contracts axis 1 of the left operand (3072 columns) against axis 0 of the right one; the result's row is the left
operand's axis 0 and its column the right operand's axis 1. -/

/-- Left operand, axis 0 (not contracted): the result's row. -/
theorem lhs4_0 (j : S4096x4096.Idx) (k : dot_S4096x3072_S3072x4096_S4096x4096_1_0_0_1_n_n.contr.Idx) :
    (dot_S4096x3072_S3072x4096_S4096x4096_1_0_0_1_n_n.lhsIdx j k 0).val = (j 0).val := by
  unfold DotDims.lhsIdx
  rw [dif_neg (show ¬ (0 : Fin S4096x3072.rank) ∈ dot_S4096x3072_S3072x4096_S4096x4096_1_0_0_1_n_n.lhsBatch by decide),
    dif_pos (show (0 : Fin S4096x3072.rank) ∈ dot_S4096x3072_S3072x4096_S4096x4096_1_0_0_1_n_n.lhsNonContracting by decide)]
  rfl

/-- Left operand, axis 1 (contracted): the contraction coordinate. -/
theorem lhs4_1 (j : S4096x4096.Idx) (k : dot_S4096x3072_S3072x4096_S4096x4096_1_0_0_1_n_n.contr.Idx) :
    (dot_S4096x3072_S3072x4096_S4096x4096_1_0_0_1_n_n.lhsIdx j k 1).val = (k ⟨0, by decide⟩).val :=
  dot_S4096x3072_S3072x4096_S4096x4096_1_0_0_1_n_n.lhsIdx_val_of_single rfl j k

/-- Right operand, axis 0 (contracted): the contraction coordinate. -/
theorem rhs4_0 (j : S4096x4096.Idx) (k : dot_S4096x3072_S3072x4096_S4096x4096_1_0_0_1_n_n.contr.Idx) :
    (dot_S4096x3072_S3072x4096_S4096x4096_1_0_0_1_n_n.rhsIdx j k 0).val = (k ⟨0, by decide⟩).val :=
  dot_S4096x3072_S3072x4096_S4096x4096_1_0_0_1_n_n.rhsIdx_val_of_single rfl j k

/-- Right operand, axis 1 (not contracted): the result's column. -/
theorem rhs4_1 (j : S4096x4096.Idx) (k : dot_S4096x3072_S3072x4096_S4096x4096_1_0_0_1_n_n.contr.Idx) :
    (dot_S4096x3072_S3072x4096_S4096x4096_1_0_0_1_n_n.rhsIdx j k 1).val = (j 1).val := by
  unfold DotDims.rhsIdx
  rw [dif_neg (show ¬ (1 : Fin S3072x4096.rank) ∈ dot_S4096x3072_S3072x4096_S4096x4096_1_0_0_1_n_n.rhsBatch by decide),
    dif_pos (show (1 : Fin S3072x4096.rank) ∈ dot_S4096x3072_S3072x4096_S4096x4096_1_0_0_1_n_n.rhsNonContracting by decide)]
  rfl

/-- The product read at row `r`, column `n`: the sum over the contracted coordinate of the entries' products. -/
theorem dot4_apply (A : FVec Ideal S4096x3072 .f32) (B : FVec Ideal S3072x4096 .f32) (r n : Fin 4096) :
    Host.dotGeneral (F := Ideal) dot_S4096x3072_S3072x4096_S4096x4096_1_0_0_1_n_n none A B (ix2 r n)
      = ∑ k : Fin 3072, A (ix2 r k) * B (ix2 k n) := by
  simp only [Host.dotGeneral]
  rw [Ideal.dotGeneral_apply,
    ← Equiv.sum_comp (contrEquiv1 dot_S4096x3072_S3072x4096_S4096x4096_1_0_0_1_n_n 3072 rfl rfl).symm]
  refine Finset.sum_congr rfl fun c _ => ?_
  have hc := contrEquiv1_symm_val dot_S4096x3072_S3072x4096_S4096x4096_1_0_0_1_n_n 3072 rfl rfl c
  have hl : dot_S4096x3072_S3072x4096_S4096x4096_1_0_0_1_n_n.lhsIdx (ix2 r n)
      ((contrEquiv1 dot_S4096x3072_S3072x4096_S4096x4096_1_0_0_1_n_n 3072 rfl rfl).symm c) = ix2 r c := by
    funext ax; apply Fin.ext
    match ax with
    | ⟨0, _⟩ => exact lhs4_0 _ _
    | ⟨1, _⟩ => exact (lhs4_1 _ _).trans hc
  have hr : dot_S4096x3072_S3072x4096_S4096x4096_1_0_0_1_n_n.rhsIdx (ix2 r n)
      ((contrEquiv1 dot_S4096x3072_S3072x4096_S4096x4096_1_0_0_1_n_n 3072 rfl rfl).symm c) = ix2 c n := by
    funext ax; apply Fin.ext
    match ax with
    | ⟨0, _⟩ => exact (rhs4_0 _ _).trans hc
    | ⟨1, _⟩ => exact rhs4_1 _ _
  rw [hl, hr]

/-- The transposed weight group read at (contracted coordinate, column) is the weight group at (column, coordinate). -/
theorem transpose4_apply (w : FVec Ideal S4096x3072 .f32) (h : S4096x3072.Transposes [1, 0] S3072x4096) (k : Fin 3072) (n : Fin 4096) :
    transpose S3072x4096 [1, 0] w h (ix2 k n) = w (ix2 n k) :=
  transpose_apply [1, 0] w h (ix2 k n) (ix2 n k) (fun b => match b with | ⟨0, _⟩ => rfl | ⟨1, _⟩ => rfl)

/-- The product against the transposed weight group, read at row `r`, column `n`: Σ_k a[r,k]·w[n,k]. -/
theorem prod4_apply (a w : FVec Ideal S4096x3072 .f32) (h : S4096x3072.Transposes [1, 0] S3072x4096) (r n : Fin 4096) :
    Host.dotGeneral (F := Ideal) dot_S4096x3072_S3072x4096_S4096x4096_1_0_0_1_n_n none a (transpose S3072x4096 [1, 0] w h) (ix2 r n)
      = ∑ k : Fin 3072, a (ix2 r k) * w (ix2 n k) := by
  rw [dot4_apply]
  exact Finset.sum_congr rfl fun k _ => by rw [transpose4_apply]

/-! ### The 768-column product

The record `dot_S4096x768_S768x4096_S4096x4096_1_0_0_1_n_n`
contracts axis 1 of the left operand (768 columns) against axis 0 of the right one; the result's row is the left
operand's axis 0 and its column the right operand's axis 1. -/

/-- Left operand, axis 0 (not contracted): the result's row. -/
theorem lhs6_0 (j : S4096x4096.Idx) (k : dot_S4096x768_S768x4096_S4096x4096_1_0_0_1_n_n.contr.Idx) :
    (dot_S4096x768_S768x4096_S4096x4096_1_0_0_1_n_n.lhsIdx j k 0).val = (j 0).val := by
  unfold DotDims.lhsIdx
  rw [dif_neg (show ¬ (0 : Fin S4096x768.rank) ∈ dot_S4096x768_S768x4096_S4096x4096_1_0_0_1_n_n.lhsBatch by decide),
    dif_pos (show (0 : Fin S4096x768.rank) ∈ dot_S4096x768_S768x4096_S4096x4096_1_0_0_1_n_n.lhsNonContracting by decide)]
  rfl

/-- Left operand, axis 1 (contracted): the contraction coordinate. -/
theorem lhs6_1 (j : S4096x4096.Idx) (k : dot_S4096x768_S768x4096_S4096x4096_1_0_0_1_n_n.contr.Idx) :
    (dot_S4096x768_S768x4096_S4096x4096_1_0_0_1_n_n.lhsIdx j k 1).val = (k ⟨0, by decide⟩).val :=
  dot_S4096x768_S768x4096_S4096x4096_1_0_0_1_n_n.lhsIdx_val_of_single rfl j k

/-- Right operand, axis 0 (contracted): the contraction coordinate. -/
theorem rhs6_0 (j : S4096x4096.Idx) (k : dot_S4096x768_S768x4096_S4096x4096_1_0_0_1_n_n.contr.Idx) :
    (dot_S4096x768_S768x4096_S4096x4096_1_0_0_1_n_n.rhsIdx j k 0).val = (k ⟨0, by decide⟩).val :=
  dot_S4096x768_S768x4096_S4096x4096_1_0_0_1_n_n.rhsIdx_val_of_single rfl j k

/-- Right operand, axis 1 (not contracted): the result's column. -/
theorem rhs6_1 (j : S4096x4096.Idx) (k : dot_S4096x768_S768x4096_S4096x4096_1_0_0_1_n_n.contr.Idx) :
    (dot_S4096x768_S768x4096_S4096x4096_1_0_0_1_n_n.rhsIdx j k 1).val = (j 1).val := by
  unfold DotDims.rhsIdx
  rw [dif_neg (show ¬ (1 : Fin S768x4096.rank) ∈ dot_S4096x768_S768x4096_S4096x4096_1_0_0_1_n_n.rhsBatch by decide),
    dif_pos (show (1 : Fin S768x4096.rank) ∈ dot_S4096x768_S768x4096_S4096x4096_1_0_0_1_n_n.rhsNonContracting by decide)]
  rfl

/-- The product read at row `r`, column `n`: the sum over the contracted coordinate of the entries' products. -/
theorem dot6_apply (A : FVec Ideal S4096x768 .f32) (B : FVec Ideal S768x4096 .f32) (r n : Fin 4096) :
    Host.dotGeneral (F := Ideal) dot_S4096x768_S768x4096_S4096x4096_1_0_0_1_n_n none A B (ix2 r n)
      = ∑ k : Fin 768, A (ix2 r k) * B (ix2 k n) := by
  simp only [Host.dotGeneral]
  rw [Ideal.dotGeneral_apply,
    ← Equiv.sum_comp (contrEquiv1 dot_S4096x768_S768x4096_S4096x4096_1_0_0_1_n_n 768 rfl rfl).symm]
  refine Finset.sum_congr rfl fun c _ => ?_
  have hc := contrEquiv1_symm_val dot_S4096x768_S768x4096_S4096x4096_1_0_0_1_n_n 768 rfl rfl c
  have hl : dot_S4096x768_S768x4096_S4096x4096_1_0_0_1_n_n.lhsIdx (ix2 r n)
      ((contrEquiv1 dot_S4096x768_S768x4096_S4096x4096_1_0_0_1_n_n 768 rfl rfl).symm c) = ix2 r c := by
    funext ax; apply Fin.ext
    match ax with
    | ⟨0, _⟩ => exact lhs6_0 _ _
    | ⟨1, _⟩ => exact (lhs6_1 _ _).trans hc
  have hr : dot_S4096x768_S768x4096_S4096x4096_1_0_0_1_n_n.rhsIdx (ix2 r n)
      ((contrEquiv1 dot_S4096x768_S768x4096_S4096x4096_1_0_0_1_n_n 768 rfl rfl).symm c) = ix2 c n := by
    funext ax; apply Fin.ext
    match ax with
    | ⟨0, _⟩ => exact (rhs6_0 _ _).trans hc
    | ⟨1, _⟩ => exact rhs6_1 _ _
  rw [hl, hr]

/-- The transposed weight group read at (contracted coordinate, column) is the weight group at (column, coordinate). -/
theorem transpose6_apply (w : FVec Ideal S4096x768 .f32) (h : S4096x768.Transposes [1, 0] S768x4096) (k : Fin 768) (n : Fin 4096) :
    transpose S768x4096 [1, 0] w h (ix2 k n) = w (ix2 n k) :=
  transpose_apply [1, 0] w h (ix2 k n) (ix2 n k) (fun b => match b with | ⟨0, _⟩ => rfl | ⟨1, _⟩ => rfl)

/-- The product against the transposed weight group, read at row `r`, column `n`: Σ_k a[r,k]·w[n,k]. -/
theorem prod6_apply (a w : FVec Ideal S4096x768 .f32) (h : S4096x768.Transposes [1, 0] S768x4096) (r n : Fin 4096) :
    Host.dotGeneral (F := Ideal) dot_S4096x768_S768x4096_S4096x4096_1_0_0_1_n_n none a (transpose S768x4096 [1, 0] w h) (ix2 r n)
      = ∑ k : Fin 768, a (ix2 r k) * w (ix2 n k) := by
  rw [dot6_apply]
  exact Finset.sum_congr rfl fun k _ => by rw [transpose6_apply]

/-! ### The 256-column product

The record `dot_S4096x256_S256x4096_S4096x4096_1_0_0_1_n_n`
contracts axis 1 of the left operand (256 columns) against axis 0 of the right one; the result's row is the left
operand's axis 0 and its column the right operand's axis 1. -/

/-- Left operand, axis 0 (not contracted): the result's row. -/
theorem lhs8_0 (j : S4096x4096.Idx) (k : dot_S4096x256_S256x4096_S4096x4096_1_0_0_1_n_n.contr.Idx) :
    (dot_S4096x256_S256x4096_S4096x4096_1_0_0_1_n_n.lhsIdx j k 0).val = (j 0).val := by
  unfold DotDims.lhsIdx
  rw [dif_neg (show ¬ (0 : Fin S4096x256.rank) ∈ dot_S4096x256_S256x4096_S4096x4096_1_0_0_1_n_n.lhsBatch by decide),
    dif_pos (show (0 : Fin S4096x256.rank) ∈ dot_S4096x256_S256x4096_S4096x4096_1_0_0_1_n_n.lhsNonContracting by decide)]
  rfl

/-- Left operand, axis 1 (contracted): the contraction coordinate. -/
theorem lhs8_1 (j : S4096x4096.Idx) (k : dot_S4096x256_S256x4096_S4096x4096_1_0_0_1_n_n.contr.Idx) :
    (dot_S4096x256_S256x4096_S4096x4096_1_0_0_1_n_n.lhsIdx j k 1).val = (k ⟨0, by decide⟩).val :=
  dot_S4096x256_S256x4096_S4096x4096_1_0_0_1_n_n.lhsIdx_val_of_single rfl j k

/-- Right operand, axis 0 (contracted): the contraction coordinate. -/
theorem rhs8_0 (j : S4096x4096.Idx) (k : dot_S4096x256_S256x4096_S4096x4096_1_0_0_1_n_n.contr.Idx) :
    (dot_S4096x256_S256x4096_S4096x4096_1_0_0_1_n_n.rhsIdx j k 0).val = (k ⟨0, by decide⟩).val :=
  dot_S4096x256_S256x4096_S4096x4096_1_0_0_1_n_n.rhsIdx_val_of_single rfl j k

/-- Right operand, axis 1 (not contracted): the result's column. -/
theorem rhs8_1 (j : S4096x4096.Idx) (k : dot_S4096x256_S256x4096_S4096x4096_1_0_0_1_n_n.contr.Idx) :
    (dot_S4096x256_S256x4096_S4096x4096_1_0_0_1_n_n.rhsIdx j k 1).val = (j 1).val := by
  unfold DotDims.rhsIdx
  rw [dif_neg (show ¬ (1 : Fin S256x4096.rank) ∈ dot_S4096x256_S256x4096_S4096x4096_1_0_0_1_n_n.rhsBatch by decide),
    dif_pos (show (1 : Fin S256x4096.rank) ∈ dot_S4096x256_S256x4096_S4096x4096_1_0_0_1_n_n.rhsNonContracting by decide)]
  rfl

/-- The product read at row `r`, column `n`: the sum over the contracted coordinate of the entries' products. -/
theorem dot8_apply (A : FVec Ideal S4096x256 .f32) (B : FVec Ideal S256x4096 .f32) (r n : Fin 4096) :
    Host.dotGeneral (F := Ideal) dot_S4096x256_S256x4096_S4096x4096_1_0_0_1_n_n none A B (ix2 r n)
      = ∑ k : Fin 256, A (ix2 r k) * B (ix2 k n) := by
  simp only [Host.dotGeneral]
  rw [Ideal.dotGeneral_apply,
    ← Equiv.sum_comp (contrEquiv1 dot_S4096x256_S256x4096_S4096x4096_1_0_0_1_n_n 256 rfl rfl).symm]
  refine Finset.sum_congr rfl fun c _ => ?_
  have hc := contrEquiv1_symm_val dot_S4096x256_S256x4096_S4096x4096_1_0_0_1_n_n 256 rfl rfl c
  have hl : dot_S4096x256_S256x4096_S4096x4096_1_0_0_1_n_n.lhsIdx (ix2 r n)
      ((contrEquiv1 dot_S4096x256_S256x4096_S4096x4096_1_0_0_1_n_n 256 rfl rfl).symm c) = ix2 r c := by
    funext ax; apply Fin.ext
    match ax with
    | ⟨0, _⟩ => exact lhs8_0 _ _
    | ⟨1, _⟩ => exact (lhs8_1 _ _).trans hc
  have hr : dot_S4096x256_S256x4096_S4096x4096_1_0_0_1_n_n.rhsIdx (ix2 r n)
      ((contrEquiv1 dot_S4096x256_S256x4096_S4096x4096_1_0_0_1_n_n 256 rfl rfl).symm c) = ix2 c n := by
    funext ax; apply Fin.ext
    match ax with
    | ⟨0, _⟩ => exact (rhs8_0 _ _).trans hc
    | ⟨1, _⟩ => exact rhs8_1 _ _
  rw [hl, hr]

/-- The transposed weight group read at (contracted coordinate, column) is the weight group at (column, coordinate). -/
theorem transpose8_apply (w : FVec Ideal S4096x256 .f32) (h : S4096x256.Transposes [1, 0] S256x4096) (k : Fin 256) (n : Fin 4096) :
    transpose S256x4096 [1, 0] w h (ix2 k n) = w (ix2 n k) :=
  transpose_apply [1, 0] w h (ix2 k n) (ix2 n k) (fun b => match b with | ⟨0, _⟩ => rfl | ⟨1, _⟩ => rfl)

/-- The product against the transposed weight group, read at row `r`, column `n`: Σ_k a[r,k]·w[n,k]. -/
theorem prod8_apply (a w : FVec Ideal S4096x256 .f32) (h : S4096x256.Transposes [1, 0] S256x4096) (r n : Fin 4096) :
    Host.dotGeneral (F := Ideal) dot_S4096x256_S256x4096_S4096x4096_1_0_0_1_n_n none a (transpose S256x4096 [1, 0] w h) (ix2 r n)
      = ∑ k : Fin 256, a (ix2 r k) * w (ix2 n k) := by
  rw [dot8_apply]
  exact Finset.sum_congr rfl fun k _ => by rw [transpose8_apply]

/-! ### The bias, broadcast to a row and then over the rows -/

/-- The bias as a one-row array: at (0, n) the bias at n. -/
theorem bias_row_apply (b : FVec Ideal S4096 .f32) (h : S4096.BroadcastsInDim S1x4096 (![1] : Fin 1 → Fin S1x4096.rank))
    (z : Fin 1) (n : Fin 4096) :
    broadcastInDim S1x4096 ![1] h b (ix2 z n) = b (ix1 n) :=
  broadcastInDim_apply ![1] h b (ix2 z n) (ix1 n) (fun a => match a with | ⟨0, _⟩ => rfl)

/-- The one-row array repeated over the rows: at (r, n) the row's entry at n. -/
theorem bias_rows_apply (v : FVec Ideal S1x4096 .f32)
    (h : S1x4096.BroadcastsInDim S4096x4096 (![0, 1] : Fin 2 → Fin S4096x4096.rank)) (r n : Fin 4096) :
    broadcastInDim S4096x4096 ![0, 1] h v (ix2 r n) = v (ix2 (0 : Fin 1) n) :=
  broadcastInDim_apply ![0, 1] h v (ix2 r n) (ix2 (0 : Fin 1) n)
    (fun a => match a with | ⟨0, _⟩ => rfl | ⟨1, _⟩ => rfl)

/-- The tail read at row `r`, column `n`. -/
theorem tailR_at (a4 w4 : FVec Ideal S4096x3072 .f32) (a6 w6 : FVec Ideal S4096x768 .f32) (a8 w8 : FVec Ideal S4096x256 .f32)
    (bias : FVec Ideal S4096 .f32) (r n : Fin 4096) :
    tailR (F := Ideal) a4 w4 a6 w6 a8 w8 bias (ix2 r n) = Cert.Spec.Gat a4 w4 a6 w6 a8 w8 bias r n := by
  unfold tailR Cert.Spec.Gat
  simp only [addf_apply]
  rw [prod4_apply, prod6_apply, prod8_apply, bias_rows_apply, bias_row_apply]

/-- THE TAIL AT THE IDEAL VALUES, index by index. -/
theorem tailR_eq (a4 w4 : FVec Ideal S4096x3072 .f32) (a6 w6 : FVec Ideal S4096x768 .f32) (a8 w8 : FVec Ideal S4096x256 .f32)
    (bias : FVec Ideal S4096 .f32) :
    (tailR (F := Ideal) a4 w4 a6 w6 a8 w8 bias : Cert.Spec.SO.Idx → EReal) = Cert.Spec.G a4 w4 a6 w6 a8 w8 bias := by
  funext i
  obtain ⟨r, n, rfl⟩ : ∃ (r : Fin 4096) (n : Fin 4096), i = ix2 r n := ⟨i 0, i 1, eq_ix2 i⟩
  exact tailR_at a4 w4 a6 w6 a8 w8 bias r n

end Cert.ReferenceIdeal.Hand

end
-- ==== Proof.R.Result.lean ====
/-
  The reference's result buffer after the run: the eleven closing operations applied to the six dequantised arrays,
  as the dequantising part left them, and the bias.
-/
import proofs.«422557_j67190468379216_3_alg».proof.Proof.R.Run
import proofs.«422557_j67190468379216_3_alg».proof.Proof.R.Tail

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 4000000 in
theorem result_eq (c : Dev nD) :
    after (allOps (F := F)) (launchContents m c) (Proc.devRef .tc main_v329)
      = tailR (VR m c main_v34) (VR m c main_v70) (VR m c main_v148) (VR m c main_v227) (VR m c main_v272) (VR m c main_v318)
          (VR m c main_arg12) := by
  rw [after_all]
  dsimp only [VR]
  generalize after (List.flatten (pre (F := F))) (launchContents m c) = W
  after_results
  rfl

end Cert.ReferenceIdeal.Hand

end
-- ==== Proof.R.ArrA4.lean ====
/-
  The reference's 4-bit activations: the 4-bit dequantisation of arguments 0 and 3.
  Read out of the fold of the reference's operations as on the kernel's side: each operation's result at its own
  buffer is its function of its operands' contents, at any other buffer what was there. The closed term left is the
  SAME dequantisation the kernel's host part computes (both programs apply the same operations to the same
  arguments), so it is that definition by unfolding.
-/
import proofs.«422557_j67190468379216_3_alg».proof.Proof.R.Run
import proofs.«422557_j67190468379216_3_alg».proof.Proof.Dequant

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem VR_a4 (c : Dev nD) :
    VR m c main_v34 = Cert.KernelIdeal.Hand.dq4 (m ((c : Thread nD τ).loc main_arg0)) (m ((c : Thread nD τ).loc main_arg3)) := by
  dsimp only [VR]
  simp only [pre, opsR0, opsR1, opsR2, opsR3, opsR4, opsR5, opsR6, opsR7, List.flatten_cons, List.flatten_nil, List.append_nil, List.cons_append, List.nil_append]
  after_results_simp
  try simp only [StableHlo.TRef.ofBuf, StableHlo.TRef.toBuf, cast_eq]
  rfl

end Cert.ReferenceIdeal.Hand

end
-- ==== Proof.R.ArrW4.lean ====
/-
  The reference's 4-bit weights: the 4-bit dequantisation of argument 6 and of argument 9 laid out as [4096, 96].
  Read out of the fold of the reference's operations as on the kernel's side: each operation's result at its own
  buffer is its function of its operands' contents, at any other buffer what was there. The closed term left is the
  SAME dequantisation the kernel's host part computes (both programs apply the same operations to the same
  arguments), so it is that definition by unfolding.
-/
import proofs.«422557_j67190468379216_3_alg».proof.Proof.R.Run
import proofs.«422557_j67190468379216_3_alg».proof.Proof.Dequant

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem VR_w4 (c : Dev nD) :
    VR m c main_v70 = Cert.KernelIdeal.Hand.dq4 (m ((c : Thread nD τ).loc main_arg6)) (shapeCast S4096x96 (m ((c : Thread nD τ).loc main_arg9)) Facts₀.shapeCasts_S393216_S4096x96) := by
  dsimp only [VR]
  simp only [pre, opsR0, opsR1, opsR2, opsR3, opsR4, opsR5, opsR6, opsR7, List.flatten_cons, List.flatten_nil, List.append_nil, List.cons_append, List.nil_append]
  after_results_simp
  try simp only [StableHlo.TRef.ofBuf, StableHlo.TRef.toBuf, cast_eq]
  rfl

end Cert.ReferenceIdeal.Hand

end
-- ==== Proof.R.ArrA6.lean ====
/-
  The reference's 6-bit activations: the 6-bit dequantisation of arguments 1 and 4.
  Read out of the fold of the reference's operations as on the kernel's side: each operation's result at its own
  buffer is its function of its operands' contents, at any other buffer what was there. The closed term left is the
  SAME dequantisation the kernel's host part computes (both programs apply the same operations to the same
  arguments), so it is that definition by unfolding.
-/
import proofs.«422557_j67190468379216_3_alg».proof.Proof.R.Run
import proofs.«422557_j67190468379216_3_alg».proof.Proof.Dequant

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem VR_a6 (c : Dev nD) :
    VR m c main_v148 = Cert.KernelIdeal.Hand.dq6 (m ((c : Thread nD τ).loc main_arg1)) (m ((c : Thread nD τ).loc main_arg4)) := by
  dsimp only [VR]
  simp only [pre, opsR0, opsR1, opsR2, opsR3, opsR4, opsR5, opsR6, opsR7, List.flatten_cons, List.flatten_nil, List.append_nil, List.cons_append, List.nil_append]
  after_results_simp
  try simp only [StableHlo.TRef.ofBuf, StableHlo.TRef.toBuf, cast_eq]
  rfl

end Cert.ReferenceIdeal.Hand

end
-- ==== Proof.R.ArrW6.lean ====
/-
  The reference's 6-bit weights: the 6-bit dequantisation of argument 7 and of argument 10 laid out as [4096, 24].
  Read out of the fold of the reference's operations as on the kernel's side: each operation's result at its own
  buffer is its function of its operands' contents, at any other buffer what was there. The closed term left is the
  SAME dequantisation the kernel's host part computes (both programs apply the same operations to the same
  arguments), so it is that definition by unfolding.
-/
import proofs.«422557_j67190468379216_3_alg».proof.Proof.R.Run
import proofs.«422557_j67190468379216_3_alg».proof.Proof.Dequant

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem VR_w6 (c : Dev nD) :
    VR m c main_v227 = Cert.KernelIdeal.Hand.dq6 (m ((c : Thread nD τ).loc main_arg7)) (shapeCast S4096x24 (m ((c : Thread nD τ).loc main_arg10)) Facts₀.shapeCasts_S98304_S4096x24) := by
  dsimp only [VR]
  simp only [pre, opsR0, opsR1, opsR2, opsR3, opsR4, opsR5, opsR6, opsR7, List.flatten_cons, List.flatten_nil, List.append_nil, List.cons_append, List.nil_append]
  after_results_simp
  try simp only [StableHlo.TRef.ofBuf, StableHlo.TRef.toBuf, cast_eq]
  rfl

end Cert.ReferenceIdeal.Hand

end
-- ==== Proof.R.ArrA8.lean ====
/-
  The reference's 8-bit activations: the 8-bit dequantisation of arguments 2 and 5.
  Read out of the fold of the reference's operations as on the kernel's side: each operation's result at its own
  buffer is its function of its operands' contents, at any other buffer what was there. The closed term left is the
  SAME dequantisation the kernel's host part computes (both programs apply the same operations to the same
  arguments), so it is that definition by unfolding.
-/
import proofs.«422557_j67190468379216_3_alg».proof.Proof.R.Run
import proofs.«422557_j67190468379216_3_alg».proof.Proof.Dequant

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem VR_a8 (c : Dev nD) :
    VR m c main_v272 = Cert.KernelIdeal.Hand.dq8 (m ((c : Thread nD τ).loc main_arg2)) (m ((c : Thread nD τ).loc main_arg5)) := by
  dsimp only [VR]
  simp only [pre, opsR0, opsR1, opsR2, opsR3, opsR4, opsR5, opsR6, opsR7, List.flatten_cons, List.flatten_nil, List.append_nil, List.cons_append, List.nil_append]
  after_results_simp
  try simp only [StableHlo.TRef.ofBuf, StableHlo.TRef.toBuf, cast_eq]
  rfl

end Cert.ReferenceIdeal.Hand

end
-- ==== Proof.R.ArrW8.lean ====
/-
  The reference's 8-bit weights: the 8-bit dequantisation of argument 8 and of argument 11 laid out as [4096, 8].
  Read out of the fold of the reference's operations as on the kernel's side: each operation's result at its own
  buffer is its function of its operands' contents, at any other buffer what was there. The closed term left is the
  SAME dequantisation the kernel's host part computes (both programs apply the same operations to the same
  arguments), so it is that definition by unfolding.
-/
import proofs.«422557_j67190468379216_3_alg».proof.Proof.R.Run
import proofs.«422557_j67190468379216_3_alg».proof.Proof.Dequant

set_option maxRecDepth 16384

noncomputable section

namespace Cert.ReferenceIdeal.Hand

open Cert.ReferenceIdeal
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxHeartbeats 40000000 in
theorem VR_w8 (c : Dev nD) :
    VR m c main_v318 = Cert.KernelIdeal.Hand.dq8 (m ((c : Thread nD τ).loc main_arg8)) (shapeCast S4096x8 (m ((c : Thread nD τ).loc main_arg11)) Facts₀.shapeCasts_S32768_S4096x8) := by
  dsimp only [VR]
  simp only [pre, opsR0, opsR1, opsR2, opsR3, opsR4, opsR5, opsR6, opsR7, List.flatten_cons, List.flatten_nil, List.append_nil, List.cons_append, List.nil_append]
  after_results_simp
  try simp only [StableHlo.TRef.ofBuf, StableHlo.TRef.toBuf, cast_eq]
  rfl

end Cert.ReferenceIdeal.Hand

end
-- ==== Proof.Bridge.lean ====
/-
  The two results are one function of the thirteen argument arrays. `value` is that function: `Cert.Spec.G` of the six
  dequantised arrays — the 4-, 6- and 8-bit dequantisations of the activations' and of the weights' code tensors, the
  weights' exponents first laid out as one row of blocks per output column — and the bias.
  On the kernel's side the pipeline's arrays are these dequantisations rounded to bf16, which at the ideal values is no
  change, and the bias laid out as a row, read back at its one row. On the reference's side the six arrays are the
  dequantisations themselves and the closing operations are `G`.
-/
import proofs.«422557_j67190468379216_3_alg».proof.Proof.KI.Value
import proofs.«422557_j67190468379216_3_alg».proof.Proof.KI.ArrA4
import proofs.«422557_j67190468379216_3_alg».proof.Proof.KI.ArrA6
import proofs.«422557_j67190468379216_3_alg».proof.Proof.KI.ArrA8
import proofs.«422557_j67190468379216_3_alg».proof.Proof.KI.ArrW4
import proofs.«422557_j67190468379216_3_alg».proof.Proof.KI.ArrW6
import proofs.«422557_j67190468379216_3_alg».proof.Proof.KI.ArrW8
import proofs.«422557_j67190468379216_3_alg».proof.Proof.KI.ArrB
import proofs.«422557_j67190468379216_3_alg».proof.Proof.R.Result
import proofs.«422557_j67190468379216_3_alg».proof.Proof.R.ArrA4
import proofs.«422557_j67190468379216_3_alg».proof.Proof.R.ArrW4
import proofs.«422557_j67190468379216_3_alg».proof.Proof.R.ArrA6
import proofs.«422557_j67190468379216_3_alg».proof.Proof.R.ArrW6
import proofs.«422557_j67190468379216_3_alg».proof.Proof.R.ArrA8
import proofs.«422557_j67190468379216_3_alg».proof.Proof.R.ArrW8
import Idealize.ShloMosaic.Lib.ValueLayout

set_option maxRecDepth 16384

noncomputable section

namespace Cert.Bridge

open Idealize.ShloMosaic Idealize.ShloMosaic.TcCoe Idealize.ShloMosaic.ValueIdx Idealize.SL.Sem

section Common

open Cert.KernelIdeal Cert.KernelIdeal.Hand

/-- The result array as a function of the thirteen arguments. -/
def value (x0 : (⟨S4096x1536, .i32⟩ : BufTy).Contents (Elt Ideal)) (x1 : (⟨S4096x576, .i32⟩ : BufTy).Contents (Elt Ideal))
    (x2 : (⟨S4096x256, .i32⟩ : BufTy).Contents (Elt Ideal)) (x3 : (⟨S4096x96, .i32⟩ : BufTy).Contents (Elt Ideal))
    (x4 : (⟨S4096x24, .i32⟩ : BufTy).Contents (Elt Ideal)) (x5 : (⟨S4096x8, .i32⟩ : BufTy).Contents (Elt Ideal))
    (x6 : (⟨S4096x1536, .i32⟩ : BufTy).Contents (Elt Ideal)) (x7 : (⟨S4096x576, .i32⟩ : BufTy).Contents (Elt Ideal))
    (x8 : (⟨S4096x256, .i32⟩ : BufTy).Contents (Elt Ideal)) (x9 : (⟨S393216, .i32⟩ : BufTy).Contents (Elt Ideal))
    (x10 : (⟨S98304, .i32⟩ : BufTy).Contents (Elt Ideal)) (x11 : (⟨S32768, .i32⟩ : BufTy).Contents (Elt Ideal))
    (x12 : (⟨S4096, .f32⟩ : BufTy).Contents (Elt Ideal)) : Cert.Spec.SO.Idx → EReal :=
  Cert.Spec.G (dq4 (F := Ideal) x0 x3) (dq4 (F := Ideal) x6 (shapeCast S4096x96 x9 Facts₀.shapeCasts_S393216_S4096x96))
    (dq6 (F := Ideal) x1 x4) (dq6 (F := Ideal) x7 (shapeCast S4096x24 x10 Facts₀.shapeCasts_S98304_S4096x24))
    (dq8 (F := Ideal) x2 x5) (dq8 (F := Ideal) x8 (shapeCast S4096x8 x11 Facts₀.shapeCasts_S32768_S4096x8))
    x12

/-- A vector laid out as one row and read back at that row is the vector. -/
theorem row_read (b : (⟨1, ![4096]⟩ : Shape).Idx → EReal) (h : (⟨1, ![4096]⟩ : Shape).ShapeCasts ⟨2, ![1, 4096]⟩) :
    (fun j : (⟨1, ![4096]⟩ : Shape).Idx => shapeCast ⟨2, ![1, 4096]⟩ b h (ix2 (0 : Fin 1) (j 0))) = b := by
  funext j
  rw [shapeCast_a_1a_apply b h (0 : Fin 1) (j 0)]
  exact congrArg b (eq_ix1 j).symm

end Common

section Kernel

open Cert.KernelIdeal Cert.KernelIdeal.Gen Cert.KernelIdeal.Hand

variable (m : (ℓ : Loc nD τ sig) → Buf (Elt Ideal) ℓ) (ρ : Dev nD → PrngReg)

/-- The kernel's result array after the run is `value` of the arguments. -/
theorem kernel_value (c : Dev nD) :
    ((dats m 0 c).arrAt 7 cfg0.N : Cert.Spec.SO.Idx → EReal) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [out_eq m c]
  show Cert.Spec.G (V m c main_v35) (V m c main_v197) (V m c main_v114) (V m c main_v277) (V m c main_v160) (V m c main_v324)
    (fun j => V m c main_v325 (ix2 (0 : Fin 1) (j 0))) = _
  rw [V_a4 m c, V_w4 m c, V_a6 m c, V_w6 m c, V_a8 m c, V_w8 m c, V_bias m c]
  show Cert.Spec.G _ _ _ _ _ _ (fun j : (⟨1, ![4096]⟩ : Shape).Idx => shapeCast ⟨2, ![1, 4096]⟩ (m ((c : Thread nD τ).loc main_arg12)) Facts₀.shapeCasts_S4096_S1x4096 (ix2 (0 : Fin 1) (j 0))) = _
  rw [row_read]
  rfl

/-- The kernel's run with its result named: every weakly fair execution ends with the result buffer at `value` of the
    arguments and the arguments as launched. -/
theorem kernel_run : θ_run defs (onTc (τ := τ) (main (F := Ideal))) ⟨m, fun _ => 0, ρ⟩ fun r => ∀ c : Dev nD,
      r.2.mem ((c.tc : Thread nD τ).loc main_v326) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).1 7).trans (kernel_value m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩)
    (run_main m ρ)

end Kernel

section Reference

open Cert.ReferenceIdeal Cert.ReferenceIdeal.Hand Idealize.ShloMosaic.StableHlo

variable (m : (ℓ : Loc nD τ sig) → Buf (Elt Ideal) ℓ) (ρ : Dev nD → PrngReg)

/-- The reference's result buffer after the run is `value` of the arguments. -/
theorem reference_value (c : Dev nD) :
    (after (allOps (F := Ideal)) (launchContents m c) (Proc.devRef .tc main_v329) : Cert.Spec.SO.Idx → EReal)
      = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [result_eq m c, VR_a4 m c, VR_w4 m c, VR_a6 m c, VR_w6 m c, VR_a8 m c, VR_w8 m c, VR_of_low m c main_arg12 (by decide)]
  exact tailR_eq _ _ _ _ _ _ _

/-- The reference's run with its result named, the arguments as launched. -/
theorem reference_run : θ_run defs (onTc (τ := τ) (main (F := Ideal))) ⟨m, fun _ => 0, ρ⟩ fun r => ∀ c : Dev nD,
      r.2.mem ((c.tc : Thread nD τ).loc main_v329) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c main_v329).trans (reference_value m c),
      (h c main_arg0).trans (kept_of_low m c main_arg0 (by decide)),
      (h c main_arg1).trans (kept_of_low m c main_arg1 (by decide)),
      (h c main_arg2).trans (kept_of_low m c main_arg2 (by decide)),
      (h c main_arg3).trans (kept_of_low m c main_arg3 (by decide)),
      (h c main_arg4).trans (kept_of_low m c main_arg4 (by decide)),
      (h c main_arg5).trans (kept_of_low m c main_arg5 (by decide)),
      (h c main_arg6).trans (kept_of_low m c main_arg6 (by decide)),
      (h c main_arg7).trans (kept_of_low m c main_arg7 (by decide)),
      (h c main_arg8).trans (kept_of_low m c main_arg8 (by decide)),
      (h c main_arg9).trans (kept_of_low m c main_arg9 (by decide)),
      (h c main_arg10).trans (kept_of_low m c main_arg10 (by decide)),
      (h c main_arg11).trans (kept_of_low m c main_arg11 (by decide)),
      (h c main_arg12).trans (kept_of_low m c main_arg12 (by decide))⟩)
    (run_raw m ρ)

end Reference

end Cert.Bridge

end
-- ==== Proof.lean ====
/-
  The certificate of a mixed 4/6/8-bit microscaled linear layer. Both programs dequantise six code tensors on the host
  (activations and weights, three bit widths each) and add a bias to the sum of the three products of an activation
  group with its weight group. The kernel rounds the dequantised arrays to bf16 — at the ideal values no change — and
  computes each [1024, 512] block of the result in one grid point: three matrix products contracted over the groups'
  whole last axes into a zero accumulator, added from the left, plus the bias row. The reference transposes the weights
  and takes three whole `dot_general`s, added from the left, plus the broadcast bias. At the ideal values both are
  Σ_k a4·w4 + Σ_k a6·w6 + Σ_k a8·w8 + bias with the sums grouped alike, so the equality needs no law of arithmetic
  and no finiteness: the precondition is never opened.
  The three frames: each kernel program's @main is its host operations, which write no argument, then one region whose
  body reads its input blocks and covers its output block; the reference's @main is a straight line of host operations.
  The ideal pass rewrote nothing, so `preserves` is trivial.
-/
import proofs.«422557_j67190468379216_3_alg».proof.Defs
import proofs.«422557_j67190468379216_3_alg».proof.Proof.K.Frame
import proofs.«422557_j67190468379216_3_alg».proof.Proof.KI.Frame
import proofs.«422557_j67190468379216_3_alg».proof.Proof.Bridge
import proofs.«422557_j67190468379216_3_alg».proof.Proof.Gen.Pre_finite_inputs
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.Bridge.reference_run m ρ)

theorem preserves : Cert.preserves_Kernel_KernelIdeal := trivial

/-- Both idealised programs end with the result buffer at `Cert.Bridge.value` of arguments that agree. -/
theorem algebraic : Cert.algebraic_KernelIdeal_ReferenceIdeal := by
  intro m ρ m' ρ' _ hagree
  refine ⟨fun c => Cert.Bridge.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.Bridge.kernel_run m ρ, ?_⟩
  refine (θ_run Cert.ReferenceIdeal.defs _ _).mono (fun _ h c => ⟨(h c).1.trans ?_, (h c).2⟩) (Cert.Bridge.reference_run m' ρ')
  obtain ⟨h0, h1, h2, h3, h4, h5, h6, h7, h8, h9, h10, h11, h12⟩ := hagree c
  rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
